-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x3 : Shape := ⟨2, ![1600000, 3]⟩
abbrev S100000x128 : Shape := ⟨2, ![100000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S1600000x3_S1600000x1_0_0 : S1600000x3.Slices ![0, 0] S1600000x1
  shapeCasts_S1600000x1_S1600000 : S1600000x1.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v63 : IVec S_ 1) (main_v67 : IVec S1600000 1) (main_v68 : IVec S1600000x1 32) : IVec S_ 1 :=
  let main_v69 : IVec S1600000 32 := shapeCast S1600000 main_v68 shapeCasts_S1600000x1_S1600000
  let main_c_25 : IVec S_ 32 := constantI S_ 32 100000#32
  let main_v70 : IVec S1600000 32 := broadcastInDim S1600000 ![] bcast_S_S1600000 main_c_25
  let main_v71 : IVec S1600000 1 := cmpi .slt main_v69 main_v70
  let main_v72 : IVec S1600000 1 := andi main_v67 main_v71
  let main_c_26 : IVec S_ 1 := constantI S_ 1 1#1
  let main_v73 : IVec S_ 1 := (fun x v => Host.reduce IntOp.andi x v reducesTo_S1600000_S_d0 h_S_) main_v72 main_c_26
  let main_v74 : IVec S_ 1 := andi main_v63 main_v73
  main_v74

def fn_part3 {F : FTy → Type} [FloatOps F] (main_arg0 : IVec S1600000x3 32) (main_arg12 : FVec F S128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : IVec S1600000x1 32 := (extractStridedSlice S1600000x1 ![0, 0] · slices_S1600000x3_S1600000x1_0_0) main_arg0
  let main_v65 : IVec S1600000 32 := shapeCast S1600000 main_v64 shapeCasts_S1600000x1_S1600000
  let main_c_24 : IVec S_ 32 := constantI S_ 32 0#32
  let main_v66 : IVec S1600000 32 := broadcastInDim S1600000 ![] bcast_S_S1600000 main_c_24
  let main_v67 : IVec S1600000 1 := cmpi .sge main_v65 main_v66
  let main_v68 : IVec S1600000x1 32 := (extractStridedSlice S1600000x1 ![0, 0] · slices_S1600000x3_S1600000x1_0_0) main_arg0
  fn_part4 (F := F) main_v63 main_v67 main_v68

def fn_part2 {F : FTy → Type} [FloatOps F] (main_arg0 : IVec S1600000x3 32) (main_arg8 : FVec F S3x128x128 .f32) (main_arg9 : FVec F S3x128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg0 main_arg12 main_arg13 main_v48 main_v49 main_v50

def fn_part1 {F : FTy → Type} [FloatOps F] (main_arg0 : IVec S1600000x3 32) (main_arg5 : FVec F S128 .f32) (main_arg6 : FVec F S128 .f32) (main_arg7 : FVec F S128 .f32) (main_arg8 : FVec F S3x128x128 .f32) (main_arg9 : FVec F S3x128 .f32) (main_arg10 : FVec F S128x128 .f32) (main_arg11 : FVec F S128 .f32) (main_arg12 : FVec F S128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S1600000x3 32) (main_arg1 : FVec F S100000x128 .f32) (main_arg2 : FVec F S3x128x128 .f32) (main_arg3 : FVec F S3x128 .f32) (main_arg4 : FVec F S128x128 .f32) (main_arg5 : FVec F S128 .f32) (main_arg6 : FVec F S128 .f32) (main_arg7 : FVec F S128 .f32) (main_arg8 : FVec F S3x128x128 .f32) (main_arg9 : FVec F S3x128 .f32) (main_arg10 : FVec F S128x128 .f32) (main_arg11 : FVec F S128 .f32) (main_arg12 : FVec F S128 .f32) (main_arg13 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg5 main_arg6 main_arg7 main_arg8 main_arg9 main_arg10 main_arg11 main_arg12 main_arg13 main_v13 main_v16
-- ==== Kernel.lean ====
abbrev S1600000x3 : Shape := ⟨2, ![1600000, 3]⟩
abbrev S100000x128 : Shape := ⟨2, ![100000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1600000x1 : Shape := ⟨2, ![1600000, 1]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S100000x384 : Shape := ⟨2, ![100000, 384]⟩
abbrev S2000x128 : Shape := ⟨2, ![2000, 128]⟩
abbrev S2000x384 : Shape := ⟨2, ![2000, 384]⟩
abbrev S1x128x128 : Shape := ⟨3, ![1, 128, 128]⟩
abbrev S1x128 : Shape := ⟨2, ![1, 128]⟩
abbrev S300000x128 : Shape := ⟨2, ![300000, 128]⟩
abbrev S1 : Shape := ⟨1, ![1]⟩
abbrev S1x1 : Shape := ⟨2, ![1, 1]⟩
abbrev S1600000x128 : Shape := ⟨2, ![1600000, 128]⟩
abbrev S2000x1 : Shape := ⟨2, ![2000, 1]⟩
abbrev S2000 : Shape := ⟨1, ![2000]⟩

abbrev nBuf : Space → Nat
  | .hbm => 104
  | .vmem => 36
  | .smem => 0
  | _ => 0

abbrev bufTy : (tb : Table) → Fin (tcTables nBuf tb) → BufTy
  | .hbm, ⟨0, _⟩ => ⟨S1600000x3, .i32⟩
  | .hbm, ⟨1, _⟩ => ⟨S100000x128, .f32⟩
  | .hbm, ⟨2, _⟩ => ⟨S3x128x128, .f32⟩
  | .hbm, ⟨3, _⟩ => ⟨S3x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S3x128x128, .f32⟩
  | .hbm, ⟨9, _⟩ => ⟨S3x128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1600000x1, .i32⟩
  | .hbm, ⟨15, _⟩ => ⟨S1600000, .i32⟩
  | .hbm, ⟨16, _⟩ => ⟨S1600000x1, .i32⟩
  | .hbm, ⟨17, _⟩ => ⟨S1600000, .i32⟩
  | .hbm, ⟨18, _⟩ => ⟨S1600000x1, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S1600000, .i32⟩
  | .hbm, ⟨28, _⟩ => ⟨S1600000, .i32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S100000x1, .f32⟩
  | .hbm, ⟨36, _⟩ => ⟨S100000x384, .f32⟩
  | .hbm, ⟨37, _⟩ => ⟨S300000x128, .f32⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1, .i32⟩
  | .hbm, ⟨51, _⟩ => ⟨S_, .i32⟩
  | .hbm, ⟨52, _⟩ => ⟨S1600000x1, .i32⟩
  | .hbm, ⟨53, _⟩ => ⟨S1600000x1, .i1⟩
  | .hbm, ⟨54, _⟩ => ⟨S1x1, .i32⟩
  | .hbm, ⟨55, _⟩ => ⟨S1600000x1, .i32⟩
  | .hbm, ⟨56, _⟩ => ⟨S1600000x1, .i1⟩
  | .hbm, ⟨57, _⟩ => ⟨S1600000x1, .i1⟩
  | .hbm, ⟨58, _⟩ => ⟨S_, .i1⟩
  | .hbm, ⟨59, _⟩ => ⟨S1600000, .i1⟩
  | .hbm, ⟨60, _⟩ => ⟨S1600000x128, .f32⟩
  | .hbm, ⟨61, _⟩ => ⟨S1600000x128, .i1⟩
  | .hbm, ⟨62, _⟩ => ⟨S_, .f32⟩
  | .hbm, ⟨63, _⟩ => ⟨S1600000x128, .f32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x128, .f32⟩
  | .hbm, ⟨70, _⟩ => ⟨S100000x384, .f32⟩
  | .hbm, ⟨71, _⟩ => ⟨S300000x128, .f32⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1, .i32⟩
  | .hbm, ⟨85, _⟩ => ⟨S_, .i32⟩
  | .hbm, ⟨86, _⟩ => ⟨S1600000x1, .i32⟩
  | .hbm, ⟨87, _⟩ => ⟨S1600000x1, .i1⟩
  | .hbm, ⟨88, _⟩ => ⟨S1x1, .i32⟩
  | .hbm, ⟨89, _⟩ => ⟨S1600000x1, .i32⟩
  | .hbm, ⟨90, _⟩ => ⟨S1600000x1, .i1⟩
  | .hbm, ⟨91, _⟩ => ⟨S1600000x1, .i1⟩
  | .hbm, ⟨92, _⟩ => ⟨S_, .i1⟩
  | .hbm, ⟨93, _⟩ => ⟨S1600000, .i1⟩
  | .hbm, ⟨94, _⟩ => ⟨S1600000x128, .f32⟩
  | .hbm, ⟨95, _⟩ => ⟨S1600000x128, .i1⟩
  | .hbm, ⟨96, _⟩ => ⟨S_, .f32⟩
  | .hbm, ⟨97, _⟩ => ⟨S1600000x128, .f32⟩
  | .hbm, ⟨98, _⟩ => ⟨S1600000x128, .f32⟩
  | .hbm, ⟨99, _⟩ => ⟨S_, .f32⟩
  | .hbm, ⟨100, _⟩ => ⟨S100000x128, .f32⟩
  | .hbm, ⟨101, _⟩ => ⟨S1600000x1, .i32⟩
  | .hbm, ⟨102, _⟩ => ⟨S100000x128, .f32⟩
  | .hbm, ⟨103, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S3x128x128, .f32⟩
  | .local _ .vmem, ⟨3, _⟩ => ⟨S3x128, .f32⟩
  | .local _ .vmem, ⟨4, _⟩ => ⟨S2000x384, .f32⟩
  | .local _ .vmem, ⟨5, _⟩ => ⟨S2000x384, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S3x128x128, .f32⟩
  | .local _ .vmem, ⟨21, _⟩ => ⟨S3x128, .f32⟩
  | .local _ .vmem, ⟨22, _⟩ => ⟨S2000x384, .f32⟩
  | .local _ .vmem, ⟨23, _⟩ => ⟨S2000x384, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S2000x128, .f32⟩
  | .local _ .vmem, ⟨35, _⟩ => ⟨S2000x128, .f32⟩
  | _, _ => ⟨S1600000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v23 : Ref sig .tc := ⟨.hbm, 64, rfl⟩
abbrev main_cst_3 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_c_4 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v33 : Ref sig .tc := ⟨.hbm, 98, rfl⟩
abbrev main_cst_5 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S1600000x3_S1600000x1_0_0 : S1600000x3.Slices ![0, 0] S1600000x1
  shapeCasts_S1600000x1_S1600000 : S1600000x1.ShapeCasts S1600000
  slices_S1600000x3_S1600000x1_0_1 : S1600000x3.Slices ![0, 1] S1600000x1
  slices_S1600000x3_S1600000x1_0_2 : S1600000x3.Slices ![0, 2] S1600000x1
  bcast_S_S1600000 : S_.BroadcastsInDim S1600000 (![] : Fin 0 → Fin S1600000.rank)
  natLt_1_32 : 1 < 32
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  transposes_S128x128_p1_0_S128x128 : S128x128.Transposes [1, 0] S128x128
  shapeCasts_S128_S1x128 : S128.ShapeCasts S1x128
  broadcasts_S1x128_S2000x128 : S1x128.Broadcasts S2000x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  concatenates_S2000x128_S2000x128_S2000x128_S2000x384_d1 : Shape.Concatenates [S2000x128, S2000x128, S2000x128] S2000x384 1
  inb_S2000x384_S2000x384_0_0 : ∀ a, (![0, 0] : Fin 2 → Nat) a + S2000x384.size a ≤ S2000x384.size a
  h_S2000x384 : 0 < S2000x384.numel
  shapeCasts_S100000x384_S300000x128 : S100000x384.ShapeCasts S300000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  reduces_S2000x128_S2000 : S2000x128.Reduces [1] S2000
  shapeCasts_S2000_S2000x1 : S2000.ShapeCasts S2000x1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S300000x128_S1600000x1_S1600000x128_1_0_n_n_0_1_1128_wf : GatherDims.WF S300000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128x128.size a ≤ S3x128x128.size a
  hwx0_1 : ∀ i : grid0.Coords, EltTy.bits .f32 = 32 ∨ (Rect.block (s := S3x128x128) S3x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x384.size a ≤ S100000x384.size a
  hwx0_3 : ∀ i : grid0.Coords, EltTy.bits .f32 = 32 ∨ (Rect.block (s := S100000x384) S2000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x128x128.size a ≤ S3x128x128.size a
  hwx2_1 : ∀ i : grid2.Coords, EltTy.bits .f32 = 32 ∨ (Rect.block (s := S3x128x128) S3x128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x128.size a ≤ S3x128.size a
  hwx2_2 : ∀ i : grid2.Coords, EltTy.bits .f32 = 32 ∨ (Rect.block (s := S3x128) S3x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x384.size a ≤ S100000x384.size a
  hwx2_3 : ∀ i : grid2.Coords, EltTy.bits .f32 = 32 ∨ (Rect.block (s := S100000x384) S2000x384.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S100000x128.size a
  hwx3_7 : ∀ i : grid3.Coords, EltTy.bits .f32 = 32 ∨ (Rect.block (s := S100000x128) S2000x128.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S300000x128_S1600000x1_S1600000x128_1_0_n_n_0_1_1128 : GatherDims S300000x128 S1600000x1 S1600000x128 where
  offsetDims := [1]
  collapsedSliceDims := [0]
  operandBatchingDims := []
  startIndicesBatchingDims := []
  startIndexMap := [0]
  indexVectorDim := 1
  sliceSizes := ![1, 128]
  wf := gather_S300000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S3x128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S3x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S2000x384.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v37) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S1600000x3 : Shape := ⟨2, ![1600000, 3]⟩
abbrev S100000x128 : Shape := ⟨2, ![100000, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1600000x1 : Shape := ⟨2, ![1600000, 1]⟩
abbrev S1600000 : Shape := ⟨1, ![1600000]⟩
abbrev S_ : Shape := ⟨0, ![]⟩
abbrev S3x128x100000 : Shape := ⟨3, ![3, 128, 100000]⟩
abbrev S3x100000x128 : Shape := ⟨3, ![3, 100000, 128]⟩
abbrev S3x1x128 : Shape := ⟨3, ![3, 1, 128]⟩
abbrev S1600000x2 : Shape := ⟨2, ![1600000, 2]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 183
  | .vmem => 0
  | .smem => 0
  | _ => 0

abbrev hbmTy0_0 (i : Nat) : BufTy := match i % 128 with
  | 0 => ⟨S1600000x3, .i32⟩
  | 1 => ⟨S100000x128, .f32⟩
  | 2 => ⟨S3x128x128, .f32⟩
  | 3 => ⟨S3x128, .f32⟩
  | 4 => ⟨S128x128, .f32⟩
  | 5 => ⟨S128, .f32⟩
  | 6 => ⟨S128, .f32⟩
  | 7 => ⟨S128, .f32⟩
  | 8 => ⟨S3x128x128, .f32⟩
  | 9 => ⟨S3x128, .f32⟩
  | 10 => ⟨S128x128, .f32⟩
  | 11 => ⟨S128, .f32⟩
  | 12 => ⟨S128, .f32⟩
  | 13 => ⟨S128, .f32⟩
  | 14 => ⟨S1600000x1, .i32⟩
  | 15 => ⟨S1600000, .i32⟩
  | 16 => ⟨S1600000x1, .i32⟩
  | 17 => ⟨S1600000, .i32⟩
  | 18 => ⟨S1600000x1, .i32⟩
  | 19 => ⟨S1600000, .i32⟩
  | 20 => ⟨S_, .i32⟩
  | 21 => ⟨S1600000, .i32⟩
  | 22 => ⟨S1600000, .i1⟩
  | 23 => ⟨S1600000, .i32⟩
  | 24 => ⟨S_, .i32⟩
  | 25 => ⟨S1600000, .i32⟩
  | 26 => ⟨S1600000, .i1⟩
  | 27 => ⟨S1600000, .i32⟩
  | 28 => ⟨S1600000, .i32⟩
  | 29 => ⟨S3x128x100000, .f32⟩
  | 30 => ⟨S3x100000x128, .f32⟩
  | 31 => ⟨S3x1x128, .f32⟩
  | 32 => ⟨S3x100000x128, .f32⟩
  | 33 => ⟨S3x100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x1, .i32⟩
  | 50 => ⟨S1600000x2, .i32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S_, .f32⟩
  | 57 => ⟨S1600000, .f32⟩
  | 58 => ⟨S_, .f32⟩
  | 59 => ⟨S100000, .f32⟩
  | 60 => ⟨S1600000x1, .i32⟩
  | 61 => ⟨S100000, .f32⟩
  | 62 => ⟨S_, .f32⟩
  | 63 => ⟨S100000, .f32⟩
  | 64 => ⟨S100000, .f32⟩
  | 65 => ⟨S100000x1, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S128x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000, .f32⟩
  | 79 => ⟨S100000x1, .f32⟩
  | 80 => ⟨S_, .f32⟩
  | 81 => ⟨S100000x1, .f32⟩
  | 82 => ⟨S100000x1, .f32⟩
  | 83 => ⟨S100000x128, .f32⟩
  | 84 => ⟨S100000x128, .f32⟩
  | 85 => ⟨S100000x128, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x128, .f32⟩
  | 93 => ⟨S100000x128, .f32⟩
  | 94 => ⟨S_, .f32⟩
  | 95 => ⟨S100000x1, .f32⟩
  | 96 => ⟨S100000x1, .f32⟩
  | 97 => ⟨S100000x1, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S3x128x100000, .f32⟩
  | 107 => ⟨S3x100000x128, .f32⟩
  | 108 => ⟨S3x1x128, .f32⟩
  | 109 => ⟨S3x100000x128, .f32⟩
  | 110 => ⟨S3x100000x128, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x1, .i32⟩
  | 127 => ⟨S1600000x2, .i32⟩
  | _ => ⟨S1600000x3, .i32⟩

abbrev hbmTy0_1 (i : Nat) : BufTy := match i % 128 with
  | 0 => ⟨S1600000x128, .f32⟩
  | 1 => ⟨S_, .f32⟩
  | 2 => ⟨S100000x128, .f32⟩
  | 3 => ⟨S1600000x1, .i32⟩
  | 4 => ⟨S100000x128, .f32⟩
  | 5 => ⟨S_, .f32⟩
  | 6 => ⟨S1600000, .f32⟩
  | 7 => ⟨S_, .f32⟩
  | 8 => ⟨S100000, .f32⟩
  | 9 => ⟨S1600000x1, .i32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S128x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000, .f32⟩
  | 28 => ⟨S100000x1, .f32⟩
  | 29 => ⟨S_, .f32⟩
  | 30 => ⟨S100000x1, .f32⟩
  | 31 => ⟨S100000x1, .f32⟩
  | 32 => ⟨S100000x128, .f32⟩
  | 33 => ⟨S100000x128, .f32⟩
  | 34 => ⟨S100000x128, .f32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x128, .f32⟩
  | 42 => ⟨S100000x128, .f32⟩
  | 43 => ⟨S_, .f32⟩
  | 44 => ⟨S100000x1, .f32⟩
  | 45 => ⟨S100000x1, .f32⟩
  | 46 => ⟨S100000x1, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | _ => ⟨S1600000x3, .i32⟩

abbrev hbmTy (i : Nat) : BufTy := match i / 128 with
  | 0 => hbmTy0_0 i
  | 1 => hbmTy0_1 i
  | _ => ⟨S1600000x3, .i32⟩

abbrev bufTy : (tb : Table) → Fin (tcTables nBuf tb) → BufTy
  | .hbm, ⟨i, _⟩ => hbmTy i
  | _, _ => ⟨S1600000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call0_cst : Ref sig .tc := ⟨.hbm, 68, rfl⟩
abbrev main_call0_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_13 : Ref sig .tc := ⟨.hbm, 111, rfl⟩
abbrev main_v80 : Ref sig .tc := ⟨.hbm, 112, rfl⟩
abbrev main_v81 : Ref sig .tc := ⟨.hbm, 113, rfl⟩
abbrev main_c_14 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_v86 : Ref sig .tc := ⟨.hbm, 120, rfl⟩
abbrev main_c_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_cst_19 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_20 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_call1_cst : Ref sig .tc := ⟨.hbm, 145, rfl⟩
abbrev main_call1_v0 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_21 : Ref sig .tc := ⟨.hbm, 154, rfl⟩
abbrev main_v113 : Ref sig .tc := ⟨.hbm, 155, rfl⟩
abbrev main_v114 : Ref sig .tc := ⟨.hbm, 156, rfl⟩
abbrev main_cst_22 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_23 : Ref sig .tc := ⟨.hbm, 163, rfl⟩
abbrev main_v120 : Ref sig .tc := ⟨.hbm, 164, rfl⟩
abbrev main_v121 : Ref sig .tc := ⟨.hbm, 165, rfl⟩
abbrev main_cst_24 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_25 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩

abbrev nD : Nat := 1
abbrev τ : Topo := Topo.v7x

variable {F : FTy → Type} [FloatOps F]

class Facts₀ : Prop where
  slices_S1600000x3_S1600000x1_0_0 : S1600000x3.Slices ![0, 0] S1600000x1
  shapeCasts_S1600000x1_S1600000 : S1600000x1.ShapeCasts S1600000
  slices_S1600000x3_S1600000x1_0_1 : S1600000x3.Slices ![0, 1] S1600000x1
  slices_S1600000x3_S1600000x1_0_2 : S1600000x3.Slices ![0, 2] S1600000x1
  bcast_S_S1600000 : S_.BroadcastsInDim S1600000 (![] : Fin 0 → Fin S1600000.rank)
  natLt_1_32 : 1 < 32
  transposes_S3x128x100000_S3x100000x128_0_2_1 : S3x128x100000.Transposes [0, 2, 1] S3x100000x128
  bcast_S3x128_S3x1x128_0_2 : S3x128.BroadcastsInDim S3x1x128 (![0, 2] : Fin 2 → Fin S3x1x128.rank)
  bcast_S3x1x128_S3x100000x128_0_1_2 : S3x1x128.BroadcastsInDim S3x100000x128 (![0, 1, 2] : Fin 3 → Fin S3x100000x128.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S3x128x128_S100000x128_S3x128x100000_2_1_01_0_n_n_wf : DotDims.WF S3x128x128 S100000x128 S3x128x100000 [2] [1] [0, 1] [0] [] []
  gather_S3x100000x128_S1600000x2_S1600000x128_1_01_n_n_01_1_11128_wf : GatherDims.WF S3x100000x128 S1600000x2 S1600000x128 [1] [0, 1] [] [0, 1] [] 1 ![1, 1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def dot_S3x128x128_S100000x128_S3x128x100000_2_1_01_0_n_n : DotDims S3x128x128 S100000x128 S3x128x100000 where
  lhsContracting := [2]
  rhsContracting := [1]
  lhsNonContracting := [0, 1]
  rhsNonContracting := [0]
  lhsBatch := []
  rhsBatch := []
  wf := dot_S3x128x128_S100000x128_S3x128x100000_2_1_01_0_n_n_wf
def gather_S3x100000x128_S1600000x2_S1600000x128_1_01_n_n_01_1_11128 : GatherDims S3x100000x128 S1600000x2 S1600000x128 where
  offsetDims := [1]
  collapsedSliceDims := [0, 1]
  operandBatchingDims := []
  startIndicesBatchingDims := []
  startIndexMap := [0, 1]
  indexVectorDim := 1
  sliceSizes := ![1, 1, 128]
  wf := gather_S3x100000x128_S1600000x2_S1600000x128_1_01_n_n_01_1_11128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, index by index on the extended reals, over the literal shapes of this
  graph-convolution network (100000 nodes, 128 features, three relation branches).

  * `proj x W b`: the per-relation projection laid out lane-dense, Y[n, 128·r + o] = Σ_d x[n, d] · W[r, o, d] + b[r, o].
  * `layer agg cnt x ws bs g be`: the degree-normalised, rectified aggregate plus the skip projection, then a
    layer normalisation over the 128 features:
      pre[n, o]  = max (agg[n, o] / max (cnt n) 1) 0 + (Σ_d x[n, d] · ws[o, d] + bs[o])
      mean n     = (Σ_o pre[n, o]) / 128
      var n      = (Σ_o (pre[n, o] − mean n)²) / 128
      out[n, o]  = (pre[n, o] − mean n) · rsqrt (var n + ε) · g[o] + be[o].
  Float literals stay the extended reals their words denote (`Ideal.ofBits`): the same word stands on both sides.
-/
import Idealize.ShloMosaic.PureOps.Ideal
import Idealize.ShloMosaic.Lib.ValueIdx

noncomputable section

namespace Cert.Spec

open Idealize.ShloMosaic Idealize.ShloMosaic.ValueIdx

abbrev SNx128 : Shape := ⟨2, ![100000, 128]⟩
abbrev SNx384 : Shape := ⟨2, ![100000, 384]⟩
abbrev SW : Shape := ⟨3, ![3, 128, 128]⟩
abbrev SB : Shape := ⟨2, ![3, 128]⟩
abbrev SWs : Shape := ⟨2, ![128, 128]⟩
abbrev SV : Shape := ⟨1, ![128]⟩

/-- The words of the literals 0, 1, 128 and ε = f32(1e-5), as extended reals. -/
abbrev c0 : EReal := Ideal.ofBits .f32 0x00000000#32
abbrev c1 : EReal := Ideal.ofBits .f32 0x3F800000#32
abbrev c128 : EReal := Ideal.ofBits .f32 0x43000000#32
abbrev ceps : EReal := Ideal.ofBits .f32 0x3727C5AC#32

/-- The relation branch (0, 1 or 2) and the feature (0 … 127) of a lane 0 … 383. -/
abbrev laneBranch (l : Fin 384) : Fin 3 := ⟨l.val / 128, by have := l.isLt; omega⟩
abbrev laneFeature (l : Fin 384) : Fin 128 := ⟨l.val % 128, Nat.mod_lt _ (by decide)⟩

/-- One projected entry: node `n`, branch `r`, feature `o`. -/
def projAt (x : SNx128.Idx → EReal) (W : SW.Idx → EReal) (b : SB.Idx → EReal) (n : Fin 100000) (r : Fin 3) (o : Fin 128) : EReal :=
  (∑ d : Fin 128, x (ix2 n d) * W (ix3 r o d)) + b (ix2 r o)

/-- The three branches' projections side by side on the lane axis. -/
def proj (x : SNx128.Idx → EReal) (W : SW.Idx → EReal) (b : SB.Idx → EReal) : SNx384.Idx → EReal :=
  fun i => projAt x W b ⟨(i 0).val, (i 0).isLt⟩ (laneBranch ⟨(i 1).val, (i 1).isLt⟩) (laneFeature ⟨(i 1).val, (i 1).isLt⟩)

/-- A row entry before normalisation. -/
def pre (agg : SNx128.Idx → EReal) (cnt : Fin 100000 → EReal) (x : SNx128.Idx → EReal) (ws : SWs.Idx → EReal) (bs : SV.Idx → EReal)
    (n : Fin 100000) (o : Fin 128) : EReal :=
  max (Ideal.div (agg (ix2 n o)) (max (cnt n) c1)) c0 + ((∑ d : Fin 128, x (ix2 n d) * ws (ix2 o d)) + bs (ix1 o))

/-- A row's mean. -/
def mean (agg : SNx128.Idx → EReal) (cnt : Fin 100000 → EReal) (x : SNx128.Idx → EReal) (ws : SWs.Idx → EReal) (bs : SV.Idx → EReal)
    (n : Fin 100000) : EReal :=
  Ideal.div (∑ o : Fin 128, pre agg cnt x ws bs n o) c128

/-- A row's variance. -/
def var (agg : SNx128.Idx → EReal) (cnt : Fin 100000 → EReal) (x : SNx128.Idx → EReal) (ws : SWs.Idx → EReal) (bs : SV.Idx → EReal)
    (n : Fin 100000) : EReal :=
  Ideal.div (∑ o : Fin 128, (pre agg cnt x ws bs n o - mean agg cnt x ws bs n) * (pre agg cnt x ws bs n o - mean agg cnt x ws bs n)) c128

/-- One normalised entry. -/
def layerAt (agg : SNx128.Idx → EReal) (cnt : Fin 100000 → EReal) (x : SNx128.Idx → EReal) (ws : SWs.Idx → EReal)
    (bs g be : SV.Idx → EReal) (n : Fin 100000) (o : Fin 128) : EReal :=
  (pre agg cnt x ws bs n o - mean agg cnt x ws bs n) * Ideal.rsqrt (var agg cnt x ws bs n + ceps) * g (ix1 o) + be (ix1 o)

/-- The layer's output array. -/
def layer (agg : SNx128.Idx → EReal) (cnt : Fin 100000 → EReal) (x : SNx128.Idx → EReal) (ws : SWs.Idx → EReal)
    (bs g be : SV.Idx → EReal) : SNx128.Idx → EReal :=
  fun i => layerAt agg cnt x ws bs g be ⟨(i 0).val, (i 0).isLt⟩ ⟨(i 1).val, (i 1).isLt⟩

end Cert.Spec

end
-- ==== Proof.KDefs.lean ====
/-
  The host-side functions of the kernel's program, each as one function of the arrays it reads: the three columns of
  the edge list, the relation bucket (0, 1 or 2), the in-degree count, the row index 3·src + bucket into the
  projected features laid out as 300000 rows, the row gather with its out-of-range fill, and the scatter-add of the
  gathered rows onto their destination nodes. `kSpec` composes them with the two kernels' mathematics (Spec.lean)
  into the whole program's result.
-/
import proofs.«420726_j90924457657027_1_alg».proof.Proof.Gen.KernelIdeal
import proofs.«420726_j90924457657027_1_alg».proof.Proof.Spec

noncomputable section

namespace Cert.KernelIdeal.Hand

open Idealize.ShloMosaic Idealize.ShloMosaic.ValueIdx Cert.KernelIdeal Cert.KernelIdeal.Gen

variable {F : FTy → Type} [FloatOps F]

/-- Column 0 of the edge list: the source node of each edge. -/
def srcK (e : IVec S1600000x3 32) : IVec S1600000 32 :=
  shapeCast S1600000 (extractStridedSlice S1600000x1 ![0, 0] e slices_S1600000x3_S1600000x1_0_0) shapeCasts_S1600000x1_S1600000
/-- Column 1: the relation of each edge. -/
def relK (e : IVec S1600000x3 32) : IVec S1600000 32 :=
  shapeCast S1600000 (extractStridedSlice S1600000x1 ![0, 1] e slices_S1600000x3_S1600000x1_0_1) shapeCasts_S1600000x1_S1600000
/-- Column 2: the destination node of each edge. -/
def dstK (e : IVec S1600000x3 32) : IVec S1600000 32 :=
  shapeCast S1600000 (extractStridedSlice S1600000x1 ![0, 2] e slices_S1600000x3_S1600000x1_0_2) shapeCasts_S1600000x1_S1600000

/-- The relation bucket: [rel ≥ 400] + [rel ≥ 800]. -/
def bucketK (e : IVec S1600000x3 32) : IVec S1600000 32 :=
  addi (extui 32 (cmpi .sge (relK e) (broadcastInDim S1600000 ![] bcast_S_S1600000 (constantI S_ 32 400#32))) natLt_1_32)
    (extui 32 (cmpi .sge (relK e) (broadcastInDim S1600000 ![] bcast_S_S1600000 (constantI S_ 32 800#32))) natLt_1_32)

/-- The in-degree of every node, as a column: ones scattered onto the destinations. -/
def cntK (e : IVec S1600000x3 32) : FVec F S100000x1 .f32 :=
  shapeCast S100000x1 (Host.scatterAdd scatter_S100000_S1600000x1_S1600000_n_0_0_1
    (broadcastInDim S100000 ![] bcast_S_S100000 (constant S_ .f32 0x00000000#32))
    (broadcastInDim S1600000x1 ![0] bcast_S1600000_S1600000x1_0 (dstK e))
    (broadcastInDim S1600000 ![] bcast_S_S1600000 (constant S_ .f32 0x3F800000#32))) shapeCasts_S100000_S100000x1

/-- The row of the 300000-row layout an edge reads: 3·src + bucket (32-bit words). -/
def idxK (e : IVec S1600000x3 32) : IVec S1600000 32 :=
  addi (muli (srcK e) (broadcastInDim S1600000 ![] bcast_S_S1600000 (constantI S_ 32 3#32))) (bucketK e)

/-- A row index with negative values wrapped by 300000, as a column of start indices. -/
def wrapK (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 300000#32))) i)

/-- Which start indices lie in 0 … 299999. -/
def inbK (i5 : IVec S1600000x1 32) : IVec S1600000 1 :=
  Host.reduce IntOp.andi
    (andi (cmpi .sge i5 (broadcastInDim S1600000x1 ![] bcast_S_S1600000x1 (constantI S_ 32 0#32)))
      (cmpi .sle i5 (broadcastInDim S1600000x1 ![0, 1] bcast_S1x1_S1600000x1_0_1 (broadcastInDim S1x1 ![1] bcast_S1_S1x1_1 (constantI S1 32 299999#32)))))
    (constantI S_ 1 1#1) reducesTo_S1600000x1_S1600000_d1 h_S_

/-- The gathered messages: row 3·src + bucket of the projected features, or the fill word where that row is out of range. -/
def takeK (y : FVec F S100000x384 .f32) (e : IVec S1600000x3 32) : FVec F S1600000x128 .f32 :=
  select (broadcastInDim S1600000x128 ![0] bcast_S1600000_S1600000x128_0 (inbK (wrapK (idxK e))))
    (Host.gather gather_S300000x128_S1600000x1_S1600000x128_1_0_n_n_0_1_1128
      (shapeCast S300000x128 y shapeCasts_S100000x384_S300000x128) (wrapK (idxK e)))
    (broadcastInDim S1600000x128 ![] bcast_S_S1600000x128 (constant S_ .f32 0x7FC00000#32))

/-- The aggregate: the gathered messages summed onto their destination nodes. -/
def aggK (y : FVec F S100000x384 .f32) (e : IVec S1600000x3 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstK e)) (takeK y e)

/-- The whole program at the extended reals: two rounds of project, gather, aggregate and normalise. -/
def kSpec (e : IVec S1600000x3 32) (x : FVec Ideal S100000x128 .f32)
    (W1 : FVec Ideal S3x128x128 .f32) (b1 : FVec Ideal S3x128 .f32) (Ws1 : FVec Ideal S128x128 .f32) (bs1 g1 be1 : FVec Ideal S128 .f32)
    (W2 : FVec Ideal S3x128x128 .f32) (b2 : FVec Ideal S3x128 .f32) (Ws2 : FVec Ideal S128x128 .f32) (bs2 g2 be2 : FVec Ideal S128 .f32) :
    FVec Ideal S100000x128 .f32 :=
  Spec.layer (aggK (F := Ideal) (Spec.proj (Spec.layer (aggK (F := Ideal) (Spec.proj x W1 b1) e) (fun n => cntK (F := Ideal) e (ix2 n 0)) x Ws1 bs1 g1 be1) W2 b2) e)
    (fun n => cntK (F := Ideal) e (ix2 n 0))
    (Spec.layer (aggK (F := Ideal) (Spec.proj x W1 b1) e) (fun n => cntK (F := Ideal) e (ix2 n 0)) x Ws1 bs1 g1 be1) Ws2 bs2 g2 be2

end Cert.KernelIdeal.Hand

end
-- ==== Proof.ProjValue.lean ====
/-
  What the two projection kernels leave in their output arrays: block by block, every grid point writes rows
  2000·t … 2000·t + 1999 of the lane-dense projection Y[n, 128·r + o] = Σ_d x[n, d] · W[r, o, d] + b[r, o]
  of the arrays the region finds, and the fifty blocks cover the array.

  The body of either kernel forms, for each of the three relations r, the block product of the staged rows with the
  transposed weight slab W[r] and adds the bias row b[r], then lays the three [2000,128] results side by side on the
  lane axis. Read at row p and lane l = 128·r + o that is Σ_d x[p, d] · W[r, o, d] + b[r, o] (the changes of float
  format are the identity on the extended reals, and the product accumulates into zero). The staged rows at point t
  are rows 2000·t … of the input array, the staged weights and biases are the whole arrays, and the output block at
  point t is rows 2000·t … of the output array: so each write-back is a block of ONE function of the arrays, and since
  row n lies in the block of point n / 2000, the array ends holding that function.
-/
import proofs.«420726_j90924457657027_1_alg».proof.Proof.Gen.KernelIdeal.Frame
import proofs.«420726_j90924457657027_1_alg».proof.Proof.Spec
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

namespace Proj

/-! ## The block product at an entry -/

/-- The left operand's index at output entry j and contraction position k: its row is j's row … -/
theorem lhs_dot_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and its column is the contraction position. -/
theorem lhs_dot_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k

/-- The right operand's index there: its row is the contraction position … -/
theorem rhs_dot_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k

/-- … and its column is j's column. -/
theorem rhs_dot_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block product into a zero accumulator, at entry (p, q): row p of the left operand against column q of the right. -/
theorem matmul_at (a : FVec Ideal S2000x128 .bf16) (b : FVec Ideal S128x128 .bf16) (p : Fin 2000) (q : Fin 128) :
    matmul dot_S2000x128_S128x128_S2000x128_1_0_0_1_n_n none a b (constant S2000x128 .f32 0x00000000#32) (ix2 p q)
      = ∑ d : Fin 128, a (ix2 p d) * b (ix2 d q) := by
  refine (Ideal.matmul_constant_zero_apply dot_S2000x128_S128x128_S2000x128_1_0_0_1_n_n none a b (ix2 p q)).trans ?_
  rw [← Equiv.sum_comp (contrEquiv1 dot_S2000x128_S128x128_S2000x128_1_0_0_1_n_n 128 rfl rfl).symm]
  refine Finset.sum_congr rfl fun d _ => ?_
  have hk := contrEquiv1_symm_val dot_S2000x128_S128x128_S2000x128_1_0_0_1_n_n 128 rfl rfl d
  congr 1
  · refine congrArg a (funext fun ax => Fin.ext ?_)
    match ax with
    | ⟨0, _⟩ => exact lhs_dot_0 _ _
    | ⟨1, _⟩ => exact (lhs_dot_1 _ _).trans hk
  · refine congrArg b (funext fun ax => Fin.ext ?_)
    match ax with
    | ⟨0, _⟩ => exact (rhs_dot_0 _ _).trans hk
    | ⟨1, _⟩ => exact rhs_dot_1 _ _

/-! ## One relation's branch, the three branches side by side, and the loads of a slab and of a bias row -/

/-- The zero offsets of a rank-2 whole-buffer access, as the constant function. -/
theorem hz2 : (![0, 0] : Fin 2 → Nat) = fun _ => 0 := funext fun a => by fin_cases a <;> rfl

/-- One relation branch of a block: the rows against one weight slab, plus that slab's bias row. -/
abbrev branch (x : Vec Ideal S2000x128 .f32) (w : Vec Ideal S1x128x128 .f32) (b : Vec Ideal S1x128 .f32) : FVec Ideal S2000x128 .f32 :=
  addf (matmul dot_S2000x128_S128x128_S2000x128_1_0_0_1_n_n none (truncf .bf16 x bitsLt_bf16_f32)
      (transpose S128x128 [1, 0] (truncf .bf16 (shapeCast S128x128 w shapeCasts_S1x128x128_S128x128) bitsLt_bf16_f32) transposes_S128x128_p1_0_S128x128)
      (constant S2000x128 .f32 0x00000000#32))
    (broadcastTo S2000x128 (shapeCast S1x128 (shapeCast S128 b shapeCasts_S1x128_S128) shapeCasts_S128_S1x128) broadcasts_S1x128_S2000x128)

/-- A branch at row p and feature o: Σ_d x[p, d] · w[0, o, d] + b[0, o]. -/
theorem branch_at (x : Vec Ideal S2000x128 .f32) (w : Vec Ideal S1x128x128 .f32) (b : Vec Ideal S1x128 .f32) (p : Fin 2000) (o : Fin 128) :
    branch x w b (ix2 p o) = (∑ d : Fin 128, x (ix2 p d) * w (ix3 (0 : Fin 1) o d)) + b (ix2 (0 : Fin 1) o) := by
  show matmul dot_S2000x128_S128x128_S2000x128_1_0_0_1_n_n none _ _ (constant S2000x128 .f32 0x00000000#32) (ix2 p o) + broadcastTo S2000x128 _ broadcasts_S1x128_S2000x128 (ix2 p o) = _
  rw [matmul_at]
  congr 1
  · refine Finset.sum_congr rfl fun d _ => ?_
    congr 1
    refine (transpose_ix2_apply _ transposes_S128x128_p1_0_S128x128 d o).trans ?_
    exact shapeCast_1ab_ab_apply w shapeCasts_S1x128x128_S128x128 o d
  · refine (broadcastTo_1b_ab_apply _ broadcasts_S1x128_S2000x128 p o).trans ?_
    refine (shapeCast_a_1a_apply _ shapeCasts_S128_S1x128 (0 : Fin 1) o).trans ?_
    exact shapeCast_1a_a_apply b shapeCasts_S1x128_S128 o

section Concat
variable {α : Type}

/-- Three [2000,128] pieces side by side on the lane axis, read at a lane of the first piece. -/
theorem concat3_at_0 (A0 A1 A2 : S2000x128.Idx → α)
    (h : Shape.Concatenates (([⟨S2000x128, A0⟩, ⟨S2000x128, A1⟩, ⟨S2000x128, A2⟩] : List ((s : Shape) × (s.Idx → α))).map (·.1)) S2000x384 1)
    (p : Fin 2000) (o : Fin 128) (l : Fin 384) (hl : l.val = o.val) :
    concatenate S2000x384 1 [⟨S2000x128, A0⟩, ⟨S2000x128, A1⟩, ⟨S2000x128, A2⟩] h (ix2 p l) = A0 (ix2 p o) :=
  concatenate_apply_piece 1 _ h (ix2 p l) 0 (by simp) S2000x128 A0 rfl rfl 0 rfl (ix2 p o)
    (fun b => match b with | ⟨0, _⟩ => fun _ => rfl | ⟨1, _⟩ => fun hb => absurd rfl hb)
    (by show 0 + o.val = l.val; omega)

/-- … at a lane of the second piece. -/
theorem concat3_at_1 (A0 A1 A2 : S2000x128.Idx → α)
    (h : Shape.Concatenates (([⟨S2000x128, A0⟩, ⟨S2000x128, A1⟩, ⟨S2000x128, A2⟩] : List ((s : Shape) × (s.Idx → α))).map (·.1)) S2000x384 1)
    (p : Fin 2000) (o : Fin 128) (l : Fin 384) (hl : l.val = 128 + o.val) :
    concatenate S2000x384 1 [⟨S2000x128, A0⟩, ⟨S2000x128, A1⟩, ⟨S2000x128, A2⟩] h (ix2 p l) = A1 (ix2 p o) :=
  concatenate_apply_piece 1 _ h (ix2 p l) 1 (by simp) S2000x128 A1 rfl rfl 128 rfl (ix2 p o)
    (fun b => match b with | ⟨0, _⟩ => fun _ => rfl | ⟨1, _⟩ => fun hb => absurd rfl hb)
    (by show 128 + o.val = l.val; omega)

/-- … at a lane of the third piece. -/
theorem concat3_at_2 (A0 A1 A2 : S2000x128.Idx → α)
    (h : Shape.Concatenates (([⟨S2000x128, A0⟩, ⟨S2000x128, A1⟩, ⟨S2000x128, A2⟩] : List ((s : Shape) × (s.Idx → α))).map (·.1)) S2000x384 1)
    (p : Fin 2000) (o : Fin 128) (l : Fin 384) (hl : l.val = 256 + o.val) :
    concatenate S2000x384 1 [⟨S2000x128, A0⟩, ⟨S2000x128, A1⟩, ⟨S2000x128, A2⟩] h (ix2 p l) = A2 (ix2 p o) :=
  concatenate_apply_piece 1 _ h (ix2 p l) 2 (by simp) S2000x128 A2 rfl rfl 256 rfl (ix2 p o)
    (fun b => match b with | ⟨0, _⟩ => fun _ => rfl | ⟨1, _⟩ => fun hb => absurd rfl hb)
    (by show 256 + o.val = l.val; omega)

end Concat

/-- A weight slab loaded out of the staged [3,128,128] weights is that relation's slab. -/
theorem ld_slab (x1 : Vec Ideal S3x128x128 .f32) (off : Fin 3 → Nat) (inb : ∀ a, off a + S1x128x128.size a ≤ S3x128x128.size a)
    (r : Fin 3) (h0 : off 0 = r.val) (h1 : off 1 = 0) (h2 : off 2 = 0) (o d : Fin 128) :
    View.ld x1 (Rect.unit (s := S3x128x128) off S1x128x128.size inb) (ix3 (0 : Fin 1) o d) = x1 (ix3 r o d) := by
  refine congrArg x1 (funext fun a => Fin.ext ?_)
  match a with
  | ⟨0, _⟩ => show off 0 + 1 * 0 = r.val; omega
  | ⟨1, _⟩ => show off 1 + 1 * o.val = o.val; omega
  | ⟨2, _⟩ => show off 2 + 1 * d.val = d.val; omega

/-- A bias row loaded out of the staged [3,128] biases is that relation's row. -/
theorem ld_row (x2 : Vec Ideal S3x128 .f32) (off : Fin 2 → Nat) (inb : ∀ a, off a + S1x128.size a ≤ S3x128.size a)
    (r : Fin 3) (h0 : off 0 = r.val) (h1 : off 1 = 0) (o : Fin 128) :
    View.ld x2 (Rect.unit (s := S3x128) off S1x128.size inb) (ix2 (0 : Fin 1) o) = x2 (ix2 r o) := by
  refine congrArg x2 (funext fun a => Fin.ext ?_)
  match a with
  | ⟨0, _⟩ => show off 0 + 1 * 0 = r.val; omega
  | ⟨1, _⟩ => show off 1 + 1 * o.val = o.val; omega

/-- The three branches of the staged blocks side by side, at row p and lane l = 128·r + o:
    Σ_d x[p, d] · W[r, o, d] + b[r, o]. -/
theorem lanes_at (x0 : Vec Ideal S2000x128 .f32) (x1 : Vec Ideal S3x128x128 .f32) (x2 : Vec Ideal S3x128 .f32)
    (p : Fin 2000) (r : Fin 3) (o : Fin 128) (l : Fin 384) (hl : l.val = 128 * r.val + o.val) :
    concatenate S2000x384 1 [⟨S2000x128, branch x0 (View.ld x1 r0_1) (View.ld x2 r0_2)⟩, ⟨S2000x128, branch x0 (View.ld x1 r0_3) (View.ld x2 r0_4)⟩,
        ⟨S2000x128, branch x0 (View.ld x1 r0_5) (View.ld x2 r0_6)⟩] concatenates_S2000x128_S2000x128_S2000x128_S2000x384_d1 (ix2 p l)
      = (∑ d : Fin 128, x0 (ix2 p d) * x1 (ix3 r o d)) + x2 (ix2 r o) := by
  match r, hl with
  | ⟨0, _⟩, hl =>
    refine (concat3_at_0 _ _ _ _ p o l (by simpa using hl)).trans ?_
    rw [branch_at]
    congr 1
    · exact Finset.sum_congr rfl fun d _ => congrArg (x0 (ix2 p d) * ·) (ld_slab x1 ![0, 0, 0] inb_S3x128x128_S1x128x128_0_0_0 0 rfl rfl rfl o d)
    · exact ld_row x2 ![0, 0] inb_S3x128_S1x128_0_0 0 rfl rfl o
  | ⟨1, _⟩, hl =>
    refine (concat3_at_1 _ _ _ _ p o l (by simpa using hl)).trans ?_
    rw [branch_at]
    congr 1
    · exact Finset.sum_congr rfl fun d _ => congrArg (x0 (ix2 p d) * ·) (ld_slab x1 ![1, 0, 0] inb_S3x128x128_S1x128x128_1_0_0 1 rfl rfl rfl o d)
    · exact ld_row x2 ![1, 0] inb_S3x128_S1x128_1_0 1 rfl rfl o
  | ⟨2, _⟩, hl =>
    refine (concat3_at_2 _ _ _ _ p o l (by simpa using hl)).trans ?_
    rw [branch_at]
    congr 1
    · exact Finset.sum_congr rfl fun d _ => congrArg (x0 (ix2 p d) * ·) (ld_slab x1 ![2, 0, 0] inb_S3x128x128_S1x128x128_2_0_0 2 rfl rfl rfl o d)
    · exact ld_row x2 ![2, 0] inb_S3x128_S1x128_2_0 2 rfl rfl o

/-! ## What either body leaves in its output buffer, at an index -/

/-- The first projection kernel's output buffer after the body, at row p and lane l = 128·r + o:
    Σ_d x[p, d] · W[r, o, d] + b[r, o] of the staged blocks. -/
theorem out0_3_at (x0 : Vec Ideal S2000x128 .f32) (x1 : Vec Ideal S3x128x128 .f32) (x2 : Vec Ideal S3x128 .f32)
    (p : Fin 2000) (r : Fin 3) (o : Fin 128) (l : Fin 384) (hl : l.val = 128 * r.val + o.val) :
    out0_3 x0 x1 x2 (ix2 p l) = (∑ d : Fin 128, x0 (ix2 p d) * x1 (ix3 r o d)) + x2 (ix2 r o) := by
  unfold out0_3
  rw [View.canon_unit_zero hz2]
  rw [View.ld_unit_zero (S := S2000x128) hz2]
  exact lanes_at x0 x1 x2 p r o l hl

/-- The second projection kernel's likewise: its body differs by a shape cast of the rows to their own shape. -/
theorem out2_3_at (x0 : Vec Ideal S2000x128 .f32) (x1 : Vec Ideal S3x128x128 .f32) (x2 : Vec Ideal S3x128 .f32)
    (p : Fin 2000) (r : Fin 3) (o : Fin 128) (l : Fin 384) (hl : l.val = 128 * r.val + o.val) :
    out2_3 x0 x1 x2 (ix2 p l) = (∑ d : Fin 128, x0 (ix2 p d) * x1 (ix3 r o d)) + x2 (ix2 r o) := by
  unfold out2_3
  rw [View.canon_unit_zero hz2]
  rw [View.ld_unit_zero (S := S2000x128) hz2]
  show concatenate S2000x384 1 [⟨S2000x128, branch (shapeCast S2000x128 x0 shapeCasts_S2000x128_S2000x128) (View.ld x1 r0_1) (View.ld x2 r0_2)⟩,
    ⟨S2000x128, branch (shapeCast S2000x128 x0 shapeCasts_S2000x128_S2000x128) (View.ld x1 r0_3) (View.ld x2 r0_4)⟩,
    ⟨S2000x128, branch (shapeCast S2000x128 x0 shapeCasts_S2000x128_S2000x128) (View.ld x1 r0_5) (View.ld x2 r0_6)⟩] concatenates_S2000x128_S2000x128_S2000x128_S2000x384_d1 (ix2 p l) = _
  rw [shapeCast_self]
  exact lanes_at x0 x1 x2 p r o l hl

/-! ## The projection at an array index -/

/-- The projection at an array index whose row is n and whose lane is 128·r + o. -/
theorem proj_at (X : Spec.SNx128.Idx → EReal) (W : Spec.SW.Idx → EReal) (B : Spec.SB.Idx → EReal) (i : Spec.SNx384.Idx)
    (n : Fin 100000) (r : Fin 3) (o : Fin 128) (hn : (i 0).val = n.val) (hl : (i 1).val = 128 * r.val + o.val) :
    Spec.proj X W B i = (∑ d : Fin 128, X (ix2 n d) * W (ix3 r o d)) + B (ix2 r o) := by
  have e0 : (⟨(i 0).val, (i 0).isLt⟩ : Fin 100000) = n := Fin.ext hn
  have e1 : Spec.laneBranch ⟨(i 1).val, (i 1).isLt⟩ = r := Fin.ext (by show (i 1).val / 128 = r.val; have := o.isLt; omega)
  have e2 : Spec.laneFeature ⟨(i 1).val, (i 1).isLt⟩ = o := Fin.ext (by show (i 1).val % 128 = o.val; have := o.isLt; omega)
  unfold Spec.proj Spec.projAt
  rw [e0, e1, e2]

/-! ## Region 0: the first projection -/

/-- The index maps of the first projection, over its fifty grid points: the row windows (input rows, output rows) sit at
    block t, the weights and the biases at block 0 on every axis. -/
theorem idx_facts0 : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The staged input rows at point t: local row p is row 2000·t + p of the array. -/
theorem rows0_at (c : Dev nD) (t : Fin cfg0.N) (p : Fin 2000) (d : Fin 128) (n : Fin 100000) (hn : n.val = 2000 * t.val + p.val) :
    (iblk0 V c 0 t : Vec Ideal S2000x128 .f32) (ix2 p d) = (V c main_arg1 : Spec.SNx128.Idx → EReal) (ix2 n d) := by
  obtain ⟨e0, e1, -⟩ := idx_facts0 t
  unfold iblk0
  rw [View.read_apply]
  show V c main_arg1 _ = V c main_arg1 _
  refine congrArg (V c main_arg1) (funext fun a => Fin.ext ?_)
  match a with
  | ⟨0, _⟩ => show win0_0.index t (0 : Fin 2) * 2000 + 1 * p.val = n.val; rw [e0, hn]; omega
  | ⟨1, _⟩ => show win0_0.index t (1 : Fin 2) * 128 + 1 * d.val = d.val; rw [e1]; omega

/-- The staged weights at any point are the whole weight array. -/
theorem weights0_at (c : Dev nD) (t : Fin cfg0.N) (r : Fin 3) (o d : Fin 128) :
    (iblk0 V c 1 t : Vec Ideal S3x128x128 .f32) (ix3 r o d) = (V c main_arg2 : Spec.SW.Idx → EReal) (ix3 r o d) := by
  obtain ⟨-, -, e2, e3, e4, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 3) * 3 + 1 * r.val = r.val; rw [e2]; omega
  | ⟨1, _⟩ => show win0_1.index t (1 : Fin 3) * 128 + 1 * o.val = o.val; rw [e3]; omega
  | ⟨2, _⟩ => show win0_1.index t (2 : Fin 3) * 128 + 1 * d.val = d.val; rw [e4]; omega

/-- The staged biases at any point are the whole bias array. -/
theorem biases0_at (c : Dev nD) (t : Fin cfg0.N) (r : Fin 3) (o : Fin 128) :
    (iblk0 V c 2 t : Vec Ideal S3x128 .f32) (ix2 r o) = (V c main_arg3 : Spec.SB.Idx → EReal) (ix2 r o) := by
  obtain ⟨-, -, -, -, -, e5, e6, -⟩ := idx_facts0 t
  unfold iblk0
  rw [View.read_apply]
  show V c main_arg3 _ = V c main_arg3 _
  refine congrArg (V c main_arg3) (funext fun a => Fin.ext ?_)
  match a with
  | ⟨0, _⟩ => show win0_2.index t (0 : Fin 2) * 3 + 1 * r.val = r.val; rw [e5]; omega
  | ⟨1, _⟩ => show win0_2.index t (1 : Fin 2) * 128 + 1 * o.val = o.val; rw [e6]; omega

/-- What point t writes back is rows 2000·t … 2000·t + 1999 of the projection of the arrays the region reads. -/
theorem flushed0_eq (c : Dev nD) (t : Fin cfg0.N) :
    (dat0 (F := Ideal) V c).flushed 3 t
      = ((cfg0.win 3).blk t).view.read (Elt Ideal) (Spec.proj (V c main_arg1) (V c main_arg2) (V c main_arg3)) := by
  show (cfg0.win 3).cut (grid0.coords t) ((dat0 V c).after 3 t) = _
  rw [after0_3]
  funext j
  obtain ⟨p, l, rfl⟩ : ∃ (p : Fin 2000) (l : Fin 384), j = ix2 p l := ⟨j 0, j 1, eq_ix2 j⟩
  rw [View.read_apply]
  have hN : cfg0.N = 50 := N_0
  have ht : t.val < 50 := hN ▸ t.isLt
  obtain ⟨-, -, -, -, -, -, -, e7, e8⟩ := idx_facts0 t
  have hr : l.val / 128 < 3 := by have := l.isLt; omega
  have ho : l.val % 128 < 128 := Nat.mod_lt _ (by decide)
  have hnlt : 2000 * t.val + p.val < 100000 := by have := p.isLt; omega
  refine ((out0_3_at (iblk0 V c 0 t) (iblk0 V c 1 t) (iblk0 V c 2 t) p ⟨l.val / 128, hr⟩ ⟨l.val % 128, ho⟩ l (by show l.val = 128 * (l.val / 128) + l.val % 128; omega)).trans ?_).trans
    (proj_at (V c main_arg1) (V c main_arg2) (V c main_arg3) (((cfg0.win 3).blk t).view.emb (ix2 p l)) ⟨2000 * t.val + p.val, hnlt⟩ ⟨l.val / 128, hr⟩ ⟨l.val % 128, ho⟩
      (by show win0_3.index t (0 : Fin 2) * 2000 + 1 * p.val = 2000 * t.val + p.val; rw [e7]; omega)
      (by show win0_3.index t (1 : Fin 2) * 384 + 1 * l.val = 128 * (l.val / 128) + l.val % 128; rw [e8]; omega)).symm
  congr 1
  · refine Finset.sum_congr rfl fun d _ => ?_
    rw [rows0_at V c t p d ⟨2000 * t.val + p.val, hnlt⟩ rfl, weights0_at V c t]
  · exact biases0_at V c t _ _

/-- An index of the output array is in point t's block iff each coordinate is in the block's range on its axis. -/
theorem mem_blk0 (t : Fin cfg0.N) (i : S100000x384.Idx) :
    i ∈ ((cfg0.win 3).blk t).view.set ↔ ∀ a : Fin 2, win0_3.index t a * S2000x384.size a ≤ (i a).val ∧ (i a).val < win0_3.index t a * S2000x384.size a + S2000x384.size a := by
  show i ∈ ((View.whole main_v18).slice (win0_3.rect t)).set ↔ _
  rw [View.set_slice_whole, Rect.mem_set_unit]
  exact Iff.rfl

/-! ## Region 2: the second projection -/

/-- The index maps of the second projection, over its fifty grid points: the row windows (input rows, output rows) sit at
    block t, the weights and the biases at block 0 on every axis. -/
theorem idx_facts2 : ∀ t : Fin cfg2.N,
    win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The staged input rows at point t: local row p is row 2000·t + p of the array. -/
theorem rows2_at (c : Dev nD) (t : Fin cfg2.N) (p : Fin 2000) (d : Fin 128) (n : Fin 100000) (hn : n.val = 2000 * t.val + p.val) :
    (iblk2 V c 0 t : Vec Ideal S2000x128 .f32) (ix2 p d) = (V c main_v27 : Spec.SNx128.Idx → EReal) (ix2 n d) := by
  obtain ⟨e0, e1, -⟩ := idx_facts2 t
  unfold iblk2
  rw [View.read_apply]
  show V c main_v27 _ = V c main_v27 _
  refine congrArg (V c main_v27) (funext fun a => Fin.ext ?_)
  match a with
  | ⟨0, _⟩ => show win2_0.index t (0 : Fin 2) * 2000 + 1 * p.val = n.val; rw [e0, hn]; omega
  | ⟨1, _⟩ => show win2_0.index t (1 : Fin 2) * 128 + 1 * d.val = d.val; rw [e1]; omega

/-- The staged weights at any point are the whole weight array. -/
theorem weights2_at (c : Dev nD) (t : Fin cfg2.N) (r : Fin 3) (o d : Fin 128) :
    (iblk2 V c 1 t : Vec Ideal S3x128x128 .f32) (ix3 r o d) = (V c main_arg8 : Spec.SW.Idx → EReal) (ix3 r o d) := by
  obtain ⟨-, -, e2, e3, e4, -⟩ := idx_facts2 t
  unfold iblk2
  rw [View.read_apply]
  show V c main_arg8 _ = V c main_arg8 _
  refine congrArg (V c main_arg8) (funext fun a => Fin.ext ?_)
  match a with
  | ⟨0, _⟩ => show win2_1.index t (0 : Fin 3) * 3 + 1 * r.val = r.val; rw [e2]; omega
  | ⟨1, _⟩ => show win2_1.index t (1 : Fin 3) * 128 + 1 * o.val = o.val; rw [e3]; omega
  | ⟨2, _⟩ => show win2_1.index t (2 : Fin 3) * 128 + 1 * d.val = d.val; rw [e4]; omega

/-- The staged biases at any point are the whole bias array. -/
theorem biases2_at (c : Dev nD) (t : Fin cfg2.N) (r : Fin 3) (o : Fin 128) :
    (iblk2 V c 2 t : Vec Ideal S3x128 .f32) (ix2 r o) = (V c main_arg9 : Spec.SB.Idx → EReal) (ix2 r o) := by
  obtain ⟨-, -, -, -, -, e5, e6, -⟩ := idx_facts2 t
  unfold iblk2
  rw [View.read_apply]
  show V c main_arg9 _ = V c main_arg9 _
  refine congrArg (V c main_arg9) (funext fun a => Fin.ext ?_)
  match a with
  | ⟨0, _⟩ => show win2_2.index t (0 : Fin 2) * 3 + 1 * r.val = r.val; rw [e5]; omega
  | ⟨1, _⟩ => show win2_2.index t (1 : Fin 2) * 128 + 1 * o.val = o.val; rw [e6]; omega

/-- What point t writes back is rows 2000·t … 2000·t + 1999 of the projection of the arrays the region reads. -/
theorem flushed2_eq (c : Dev nD) (t : Fin cfg2.N) :
    (dat2 (F := Ideal) V c).flushed 3 t
      = ((cfg2.win 3).blk t).view.read (Elt Ideal) (Spec.proj (V c main_v27) (V c main_arg8) (V c main_arg9)) := by
  show (cfg2.win 3).cut (grid2.coords t) ((dat2 V c).after 3 t) = _
  rw [after2_3]
  funext j
  obtain ⟨p, l, rfl⟩ : ∃ (p : Fin 2000) (l : Fin 384), j = ix2 p l := ⟨j 0, j 1, eq_ix2 j⟩
  rw [View.read_apply]
  have hN : cfg2.N = 50 := N_2
  have ht : t.val < 50 := hN ▸ t.isLt
  obtain ⟨-, -, -, -, -, -, -, e7, e8⟩ := idx_facts2 t
  have hr : l.val / 128 < 3 := by have := l.isLt; omega
  have ho : l.val % 128 < 128 := Nat.mod_lt _ (by decide)
  have hnlt : 2000 * t.val + p.val < 100000 := by have := p.isLt; omega
  refine ((out2_3_at (iblk2 V c 0 t) (iblk2 V c 1 t) (iblk2 V c 2 t) p ⟨l.val / 128, hr⟩ ⟨l.val % 128, ho⟩ l (by show l.val = 128 * (l.val / 128) + l.val % 128; omega)).trans ?_).trans
    (proj_at (V c main_v27) (V c main_arg8) (V c main_arg9) (((cfg2.win 3).blk t).view.emb (ix2 p l)) ⟨2000 * t.val + p.val, hnlt⟩ ⟨l.val / 128, hr⟩ ⟨l.val % 128, ho⟩
      (by show win2_3.index t (0 : Fin 2) * 2000 + 1 * p.val = 2000 * t.val + p.val; rw [e7]; omega)
      (by show win2_3.index t (1 : Fin 2) * 384 + 1 * l.val = 128 * (l.val / 128) + l.val % 128; rw [e8]; omega)).symm
  congr 1
  · refine Finset.sum_congr rfl fun d _ => ?_
    rw [rows2_at V c t p d ⟨2000 * t.val + p.val, hnlt⟩ rfl, weights2_at V c t]
  · exact biases2_at V c t _ _

/-- An index of the output array is in point t's block iff each coordinate is in the block's range on its axis. -/
theorem mem_blk2 (t : Fin cfg2.N) (i : S100000x384.Idx) :
    i ∈ ((cfg2.win 3).blk t).view.set ↔ ∀ a : Fin 2, win2_3.index t a * S2000x384.size a ≤ (i a).val ∧ (i a).val < win2_3.index t a * S2000x384.size a + S2000x384.size a := by
  show i ∈ ((View.whole main_v28).slice (win2_3.rect t)).set ↔ _
  rw [View.set_slice_whole, Rect.mem_set_unit]
  exact Iff.rfl

end Proj

open Proj

/-! ## The two output arrays after their regions -/

/-- Region 0 (the first projection): its output array after the region is the projection of the arrays it reads. -/
theorem proj0_final (c : Dev nD) :
    (dat0 (F := Ideal) V c).arrAt 3 cfg0.N = Spec.proj (V c main_arg1) (V c main_arg2) (V c main_arg3) :=
  (dat0 (F := Ideal) V c).arrAt_eq_of_cover 3 (Spec.proj (V c main_arg1) (V c main_arg2) (V c main_arg3)) (fun t _ => flushed0_eq V c t) fun i => by
    have hN : cfg0.N = 50 := N_0
    have hi0 : (i 0).val < 100000 := (i 0).isLt
    have hi1 : (i 1).val < 384 := (i 1).isLt
    have htlt : (i 0).val / 2000 < cfg0.N := by rw [hN]; omega
    obtain ⟨-, -, -, -, -, -, -, e7, e8⟩ := idx_facts0 ⟨(i 0).val / 2000, htlt⟩
    refine ⟨⟨(i 0).val / 2000, htlt⟩, flush0_3 _, ?_⟩
    rw [mem_blk0]
    intro a
    match a with
    | ⟨0, _⟩ =>
      show win0_3.index ⟨(i 0).val / 2000, htlt⟩ (0 : Fin 2) * 2000 ≤ (i 0).val ∧ (i 0).val < win0_3.index ⟨(i 0).val / 2000, htlt⟩ (0 : Fin 2) * 2000 + 2000
      rw [e7]; show (i 0).val / 2000 * 2000 ≤ (i 0).val ∧ (i 0).val < (i 0).val / 2000 * 2000 + 2000; omega
    | ⟨1, _⟩ =>
      show win0_3.index ⟨(i 0).val / 2000, htlt⟩ (1 : Fin 2) * 384 ≤ (i 1).val ∧ (i 1).val < win0_3.index ⟨(i 0).val / 2000, htlt⟩ (1 : Fin 2) * 384 + 384
      rw [e8]; omega

/-- Region 2 (the second projection), likewise. -/
theorem proj2_final (c : Dev nD) :
    (dat2 (F := Ideal) V c).arrAt 3 cfg2.N = Spec.proj (V c main_v27) (V c main_arg8) (V c main_arg9) :=
  (dat2 (F := Ideal) V c).arrAt_eq_of_cover 3 (Spec.proj (V c main_v27) (V c main_arg8) (V c main_arg9)) (fun t _ => flushed2_eq V c t) fun i => by
    have hN : cfg2.N = 50 := N_2
    have hi0 : (i 0).val < 100000 := (i 0).isLt
    have hi1 : (i 1).val < 384 := (i 1).isLt
    have htlt : (i 0).val / 2000 < cfg2.N := by rw [hN]; omega
    obtain ⟨-, -, -, -, -, -, -, e7, e8⟩ := idx_facts2 ⟨(i 0).val / 2000, htlt⟩
    refine ⟨⟨(i 0).val / 2000, htlt⟩, flush2_3 _, ?_⟩
    rw [mem_blk2]
    intro a
    match a with
    | ⟨0, _⟩ =>
      show win2_3.index ⟨(i 0).val / 2000, htlt⟩ (0 : Fin 2) * 2000 ≤ (i 0).val ∧ (i 0).val < win2_3.index ⟨(i 0).val / 2000, htlt⟩ (0 : Fin 2) * 2000 + 2000
      rw [e7]; show (i 0).val / 2000 * 2000 ≤ (i 0).val ∧ (i 0).val < (i 0).val / 2000 * 2000 + 2000; omega
    | ⟨1, _⟩ =>
      show win2_3.index ⟨(i 0).val / 2000, htlt⟩ (1 : Fin 2) * 384 ≤ (i 1).val ∧ (i 1).val < win2_3.index ⟨(i 0).val / 2000, htlt⟩ (1 : Fin 2) * 384 + 384
      rw [e8]; omega

end Cert.KernelIdeal.Hand

end
-- ==== Proof.NslValue.lean ====
/-
  What the two normalisation kernels leave in their output arrays: every grid point writes rows 2000·t … 2000·t + 1999
  of `Spec.layer` — the degree-normalised rectified aggregate plus the skip projection, layer-normalised — of the
  arrays the region finds, and the fifty blocks cover the array.
-/
import proofs.«420726_j90924457657027_1_alg».proof.Proof.Gen.KernelIdeal.Frame
import proofs.«420726_j90924457657027_1_alg».proof.Proof.Spec
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Layout operations of the body, read at an index -/

/-- A vector `[a]` cast to the column `[a, 1]` reads, at `(i, u)`, the operand at `i`. -/
theorem nsl_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem nsl_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The skip product: the block's rows against the weight's rows -/

/-- The product's operand indices at an output index `i` and a contraction index `q`, axis by axis: the left operand is
    read at `(i 0, q)` … -/
theorem nsl_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem nsl_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- … and the right operand at `(q, i 1)`. -/
theorem nsl_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem nsl_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product into a zero accumulator at `(p, o)`: row `p` of the left operand against column `o` of the right. -/
theorem nsl_matmul_apply (l : FVec Ideal S2000x128 .bf16) (r : FVec Ideal S128x128 .bf16) (p : Fin 2000) (o : Fin 128) :
    matmul dot_S2000x128_S128x128_S2000x128_1_0_0_1_n_n none l r (constant (F := Ideal) S2000x128 .f32 0x00000000#32) (ix2 p o)
      = ∑ k : Fin 128, l (ix2 p k) * r (ix2 k o) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p o)
      ((contrEquiv1 dot_S2000x128_S128x128_S2000x128_1_0_0_1_n_n 128 rfl rfl).symm k) = ix2 p k :=
    funext fun a => Fin.ext (by
      match a with
      | ⟨0, _⟩ => exact nsl_lhs_0 _ _
      | ⟨1, _⟩ => exact (nsl_lhs_1 _ _).trans hk)
  have er : dot_S2000x128_S128x128_S2000x128_1_0_0_1_n_n.rhsIdx (ix2 p o)
      ((contrEquiv1 dot_S2000x128_S128x128_S2000x128_1_0_0_1_n_n 128 rfl rfl).symm k) = ix2 k o :=
    funext fun a => Fin.ext (by
      match a with
      | ⟨0, _⟩ => exact (nsl_rhs_0 _ _).trans hk
      | ⟨1, _⟩ => exact nsl_rhs_1 _ _)
  rw [el, er]

/-! ## A sum over the lanes -/

/-- The sum over the 128 lanes of a `[2000, 128]` block, read at row `p`. -/
theorem nsl_lanesum_apply (src : FVec Ideal S2000x128 .f32) (h : S2000x128.Reduces [1] S2000) (hφ : FKind.Formats .f32)
    (hacc : (0x00000000#32 : BitVec 32) = 0x00000000#32) (p : Fin 2000) :
    multiReduction (F := Ideal) .add [1] S2000 src 0x00000000#32 h hφ hacc (ix1 p) = ∑ o : Fin 128, src (ix2 p o) := by
  refine (Ideal.multiReduction_add_single src 0x00000000#32 h hφ hacc (ix1 p)).trans ?_
  show (∑ o : Fin 128, src (h.lift (ix1 p) o)) = _
  refine Finset.sum_congr rfl fun o _ => congrArg src ?_
  funext c
  apply Fin.ext
  match c with
  | ⟨0, _⟩ => rfl
  | ⟨1, _⟩ => rfl

/-! ## The body's arithmetic in two halves: the value before normalisation, and the normalisation of a block -/

/-- The block before normalisation: the aggregate over the clamped count, rectified, plus the skip projection. -/
def nslPreB (x0 : Vec Ideal S2000x128 .f32) (x1 : Vec Ideal S2000x1 .f32) (x2 : Vec Ideal S2000x128 .f32)
    (x3 : Vec Ideal S128x128 .f32) (x4 : Vec Ideal S128 .f32) : FVec Ideal S2000x128 .f32 :=
  addf
    (maximumf
      (divf (shapeCast S2000x128 x0 shapeCasts_S2000x128_S2000x128)
        (broadcastTo S2000x128
          (maximumf (shapeCast S2000x1 x1 shapeCasts_S2000x1_S2000x1) (broadcast S2000x1 (Scalar.ofBits .f32 0x3F800000#32)))
          broadcasts_S2000x1_S2000x128))
      (broadcast S2000x128 (Scalar.ofBits .f32 0x00000000#32)))
    (addf
      (matmul dot_S2000x128_S128x128_S2000x128_1_0_0_1_n_n none (truncf .bf16 x2 bitsLt_bf16_f32)
        (transpose S128x128 [1, 0] (truncf .bf16 x3 bitsLt_bf16_f32) transposes_S128x128_p1_0_S128x128)
        (constant S2000x128 .f32 0x00000000#32))
      (broadcastTo S2000x128 (shapeCast S1x128 x4 shapeCasts_S128_S1x128) broadcasts_S1x128_S2000x128))

/-- A row's mean as a column. -/
def nslMeanB (v : FVec Ideal S2000x128 .f32) : FVec Ideal S2000x1 .f32 :=
  divf (shapeCast S2000x1 (multiReduction .add [1] S2000 v 0x00000000#32 reduces_S2000x128_S2000 (.inl rfl) rfl) shapeCasts_S2000_S2000x1)
    (broadcast S2000x1 (Scalar.ofBits .f32 0x43000000#32))

/-- The block with each row's mean taken off. -/
def nslCenB (v : FVec Ideal S2000x128 .f32) : FVec Ideal S2000x128 .f32 :=
  subf v (broadcastTo S2000x128 (nslMeanB v) broadcasts_S2000x1_S2000x128)

/-- A row's variance as a column. -/
def nslVarB (v : FVec Ideal S2000x128 .f32) : FVec Ideal S2000x1 .f32 :=
  divf (shapeCast S2000x1 (multiReduction .add [1] S2000 (mulf (nslCenB v) (nslCenB v)) 0x00000000#32 reduces_S2000x128_S2000 (.inl rfl) rfl) shapeCasts_S2000_S2000x1)
    (broadcast S2000x1 (Scalar.ofBits .f32 0x43000000#32))

/-- The normalised block, before scale and shift. -/
def nslNormB (v : FVec Ideal S2000x128 .f32) : FVec Ideal S2000x128 .f32 :=
  mulf (nslCenB v)
    (broadcastTo S2000x128 (rsqrt (addf (nslVarB v) (broadcast S2000x1 (Scalar.ofBits .f32 0x3727C5AC#32)))) broadcasts_S2000x1_S2000x128)

/-- The first layer's payload is the normalisation of the value before it. -/
theorem nsl1_pay2_split (x0 : Vec Ideal S2000x128 .f32) (x1 : Vec Ideal S2000x1 .f32) (x2 : Vec Ideal S2000x128 .f32)
    (x3 : Vec Ideal S128x128 .f32) (x4 : Vec Ideal S128 .f32) :
    k1_pay2 (F := Ideal) x0 x1 x2 x3 x4 = nslNormB (nslPreB x0 x1 x2 x3 x4) := rfl

/-- The second layer's payload likewise: its one more cast of the feature block is to its own shape. -/
theorem nsl3_pay2_split (x0 : Vec Ideal S2000x128 .f32) (x1 : Vec Ideal S2000x1 .f32) (x2 : Vec Ideal S2000x128 .f32)
    (x3 : Vec Ideal S128x128 .f32) (x4 : Vec Ideal S128 .f32) :
    k3_pay2 (F := Ideal) x0 x1 x2 x3 x4 = nslNormB (nslPreB x0 x1 x2 x3 x4) := by
  have e : k3_pay2 (F := Ideal) x0 x1 x2 x3 x4
      = nslNormB (nslPreB x0 x1 (shapeCast S2000x128 x2 shapeCasts_S2000x128_S2000x128) x3 x4) := rfl
  rw [e, shapeCast_self]

/-- Scale and shift: the last payload of either layer over the scale already cast to a row. -/
theorem nsl1_pay1_apply (v : FVec Ideal S2000x128 .f32) (x5 x6 : Vec Ideal S128 .f32) (p : Fin 2000) (o : Fin 128) :
    k1_pay1 (F := Ideal) v (k1_pay3 x5) x6 (ix2 p o) = v (ix2 p o) * x5 (ix1 o) + x6 (ix1 o) := by
  unfold k1_pay1 k1_pay3
  show v (ix2 p o) * broadcastTo S2000x128 (shapeCast S1x128 x5 shapeCasts_S128_S1x128) broadcasts_S1x128_S2000x128 (ix2 p o)
      + broadcastTo S2000x128 (shapeCast S1x128 x6 shapeCasts_S128_S1x128) broadcasts_S1x128_S2000x128 (ix2 p o) = _
  rw [broadcastTo_1b_ab_apply, broadcastTo_1b_ab_apply, shapeCast_a_1a_apply, shapeCast_a_1a_apply]

/-- The second layer's last payload casts the scale to a row itself: the same term. -/
theorem nsl3_pay1_eq (v : FVec Ideal S2000x128 .f32) (x5 x6 : Vec Ideal S128 .f32) :
    k3_pay1 (F := Ideal) v x5 x6 = k1_pay1 (F := Ideal) v (k1_pay3 x5) x6 := rfl

/-! ## The two halves at an index -/

/-- The value before normalisation at `(p, o)`, over the block's own rows. -/
theorem nslPreB_apply (x0 : Vec Ideal S2000x128 .f32) (x1 : Vec Ideal S2000x1 .f32) (x2 : Vec Ideal S2000x128 .f32)
    (x3 : Vec Ideal S128x128 .f32) (x4 : Vec Ideal S128 .f32) (p : Fin 2000) (o : Fin 128) :
    nslPreB x0 x1 x2 x3 x4 (ix2 p o)
      = max (Ideal.div (x0 (ix2 p o)) (max (x1 (ix2 p (0 : Fin 1))) Spec.c1)) Spec.c0
        + ((∑ d : Fin 128, x2 (ix2 p d) * x3 (ix2 o d)) + x4 (ix1 o)) := by
  unfold nslPreB
  show max (Ideal.div (shapeCast S2000x128 x0 shapeCasts_S2000x128_S2000x128 (ix2 p o))
        (broadcastTo S2000x128
          (maximumf (F := Ideal) (φ := .f32) (shapeCast S2000x1 x1 shapeCasts_S2000x1_S2000x1) (broadcast S2000x1 (Scalar.ofBits .f32 0x3F800000#32)))
          broadcasts_S2000x1_S2000x128 (ix2 p o))) Spec.c0
      + (matmul dot_S2000x128_S128x128_S2000x128_1_0_0_1_n_n none (truncf .bf16 x2 bitsLt_bf16_f32)
          (transpose S128x128 [1, 0] (truncf .bf16 x3 bitsLt_bf16_f32) transposes_S128x128_p1_0_S128x128)
          (constant (F := Ideal) S2000x128 .f32 0x00000000#32) (ix2 p o)
        + broadcastTo S2000x128 (shapeCast S1x128 x4 shapeCasts_S128_S1x128) broadcasts_S1x128_S2000x128 (ix2 p o)) = _
  rw [shapeCast_self, nsl_broadcastTo_a1_ab_apply, nsl_matmul_apply, broadcastTo_1b_ab_apply, shapeCast_a_1a_apply, shapeCast_self]
  have ht : ∀ k : Fin 128, transpose S128x128 [1, 0] (truncf (F := Ideal) .bf16 x3 bitsLt_bf16_f32) transposes_S128x128_p1_0_S128x128 (ix2 k o)
      = x3 (ix2 o k) :=
    fun k => transpose_ix2_apply (truncf (F := Ideal) .bf16 x3 bitsLt_bf16_f32) transposes_S128x128_p1_0_S128x128 k o
  have hs := Finset.sum_congr (s₁ := Finset.univ) rfl fun (k : Fin 128) _ => congrArg (fun y : EReal => (x2 (ix2 p k) : EReal) * y) (ht k)
  exact congrArg (fun s : EReal => max (Ideal.div (x0 (ix2 p o)) (max (x1 (ix2 p (0 : Fin 1))) Spec.c1)) Spec.c0 + (s + x4 (ix1 o))) hs

/-- A row's mean at `(p, u)`. -/
theorem nslMeanB_apply (v : FVec Ideal S2000x128 .f32) (p : Fin 2000) (u : Fin 1) :
    nslMeanB v (ix2 p u) = Ideal.div (∑ o : Fin 128, v (ix2 p o)) Spec.c128 := by
  unfold nslMeanB
  show Ideal.div (shapeCast S2000x1 (multiReduction (F := Ideal) .add [1] S2000 v 0x00000000#32 reduces_S2000x128_S2000 (.inl rfl) rfl) shapeCasts_S2000_S2000x1 (ix2 p u)) Spec.c128 = _
  rw [nsl_shapeCast_a_a1_apply]
  exact congrArg (Ideal.div · Spec.c128) (nsl_lanesum_apply v reduces_S2000x128_S2000 (.inl rfl) rfl p)

/-- A centred entry. -/
theorem nslCenB_apply (v : FVec Ideal S2000x128 .f32) (p : Fin 2000) (o : Fin 128) :
    nslCenB v (ix2 p o) = v (ix2 p o) - Ideal.div (∑ o' : Fin 128, v (ix2 p o')) Spec.c128 := by
  unfold nslCenB
  show v (ix2 p o) - broadcastTo S2000x128 (nslMeanB v) broadcasts_S2000x1_S2000x128 (ix2 p o) = _
  rw [nsl_broadcastTo_a1_ab_apply, nslMeanB_apply]

/-- A row's variance at `(p, u)`. -/
theorem nslVarB_apply (v : FVec Ideal S2000x128 .f32) (p : Fin 2000) (u : Fin 1) :
    nslVarB v (ix2 p u) = Ideal.div (∑ o : Fin 128, nslCenB v (ix2 p o) * nslCenB v (ix2 p o)) Spec.c128 := by
  unfold nslVarB
  show Ideal.div (shapeCast S2000x1 (multiReduction (F := Ideal) .add [1] S2000 (mulf (nslCenB v) (nslCenB v)) 0x00000000#32 reduces_S2000x128_S2000 (.inl rfl) rfl) shapeCasts_S2000_S2000x1 (ix2 p u)) Spec.c128 = _
  rw [nsl_shapeCast_a_a1_apply]
  exact congrArg (Ideal.div · Spec.c128) (nsl_lanesum_apply (mulf (nslCenB v) (nslCenB v)) reduces_S2000x128_S2000 (.inl rfl) rfl p)

/-- A normalised entry. -/
theorem nslNormB_apply (v : FVec Ideal S2000x128 .f32) (p : Fin 2000) (o : Fin 128) :
    nslNormB v (ix2 p o)
      = nslCenB v (ix2 p o) * Ideal.rsqrt (Ideal.div (∑ o' : Fin 128, nslCenB v (ix2 p o') * nslCenB v (ix2 p o')) Spec.c128 + Spec.ceps) := by
  unfold nslNormB
  show nslCenB v (ix2 p o) * broadcastTo S2000x128 (rsqrt (addf (nslVarB v) (broadcast S2000x1 (Scalar.ofBits .f32 0x3727C5AC#32)))) broadcasts_S2000x1_S2000x128 (ix2 p o) = _
  rw [nsl_broadcastTo_a1_ab_apply]
  show nslCenB v (ix2 p o) * Ideal.rsqrt (nslVarB v (ix2 p (0 : Fin 1)) + Spec.ceps) = _
  rw [nslVarB_apply]

/-! ## The block's entries are the layer's -/

/-- Where row `p` of the blocks is row `n` of the arrays, the value before normalisation is the layer's. -/
theorem nsl_pre_eq (agg : Spec.SNx128.Idx → EReal) (cntA : S100000x1.Idx → EReal) (x : Spec.SNx128.Idx → EReal)
    (ws : Spec.SWs.Idx → EReal) (bs : Spec.SV.Idx → EReal)
    (x0 : Vec Ideal S2000x128 .f32) (x1 : Vec Ideal S2000x1 .f32) (x2 : Vec Ideal S2000x128 .f32)
    (x3 : Vec Ideal S128x128 .f32) (x4 : Vec Ideal S128 .f32) (n : Fin 100000) (p : Fin 2000)
    (h0 : ∀ o : Fin 128, x0 (ix2 p o) = agg (ix2 n o)) (h1 : x1 (ix2 p (0 : Fin 1)) = cntA (ix2 n (0 : Fin 1)))
    (h2 : ∀ d : Fin 128, x2 (ix2 p d) = x (ix2 n d)) (h3 : ∀ o d : Fin 128, x3 (ix2 o d) = ws (ix2 o d))
    (h4 : ∀ o : Fin 128, x4 (ix1 o) = bs (ix1 o)) (o : Fin 128) :
    nslPreB x0 x1 x2 x3 x4 (ix2 p o) = Spec.pre agg (fun n => cntA (ix2 n (0 : Fin 1))) x ws bs n o := by
  rw [nslPreB_apply, h0, h1, h4]
  unfold Spec.pre
  simp only [h2, h3]

/-- So the whole payload at `(p, o)` is the layer's entry `(n, o)`. -/
theorem nsl1_pay_at (agg : Spec.SNx128.Idx → EReal) (cntA : S100000x1.Idx → EReal) (x : Spec.SNx128.Idx → EReal)
    (ws : Spec.SWs.Idx → EReal) (bs g be : Spec.SV.Idx → EReal)
    (x0 : Vec Ideal S2000x128 .f32) (x1 : Vec Ideal S2000x1 .f32) (x2 : Vec Ideal S2000x128 .f32)
    (x3 : Vec Ideal S128x128 .f32) (x4 x5 x6 : Vec Ideal S128 .f32) (n : Fin 100000) (p : Fin 2000)
    (h0 : ∀ o : Fin 128, x0 (ix2 p o) = agg (ix2 n o)) (h1 : x1 (ix2 p (0 : Fin 1)) = cntA (ix2 n (0 : Fin 1)))
    (h2 : ∀ d : Fin 128, x2 (ix2 p d) = x (ix2 n d)) (h3 : ∀ o d : Fin 128, x3 (ix2 o d) = ws (ix2 o d))
    (h4 : ∀ o : Fin 128, x4 (ix1 o) = bs (ix1 o)) (h5 : ∀ o : Fin 128, x5 (ix1 o) = g (ix1 o))
    (h6 : ∀ o : Fin 128, x6 (ix1 o) = be (ix1 o)) (o : Fin 128) :
    k1_pay1 (F := Ideal) (k1_pay2 x0 x1 x2 x3 x4) (k1_pay3 x5) x6 (ix2 p o)
      = Spec.layerAt agg (fun n => cntA (ix2 n (0 : Fin 1))) x ws bs g be n o := by
  have hpre := nsl_pre_eq agg cntA x ws bs x0 x1 x2 x3 x4 n p h0 h1 h2 h3 h4
  have hcen : ∀ o' : Fin 128, nslCenB (nslPreB x0 x1 x2 x3 x4) (ix2 p o')
      = Spec.pre agg (fun n => cntA (ix2 n (0 : Fin 1))) x ws bs n o' - Spec.mean agg (fun n => cntA (ix2 n (0 : Fin 1))) x ws bs n := by
    intro o'
    rw [nslCenB_apply]
    simp only [hpre]
    rfl
  rw [nsl1_pay1_apply, nsl1_pay2_split, nslNormB_apply, h5, h6]
  simp only [hcen]
  rfl

/-- The second layer's payload likewise. -/
theorem nsl3_pay_at (agg : Spec.SNx128.Idx → EReal) (cntA : S100000x1.Idx → EReal) (x : Spec.SNx128.Idx → EReal)
    (ws : Spec.SWs.Idx → EReal) (bs g be : Spec.SV.Idx → EReal)
    (x0 : Vec Ideal S2000x128 .f32) (x1 : Vec Ideal S2000x1 .f32) (x2 : Vec Ideal S2000x128 .f32)
    (x3 : Vec Ideal S128x128 .f32) (x4 x5 x6 : Vec Ideal S128 .f32) (n : Fin 100000) (p : Fin 2000)
    (h0 : ∀ o : Fin 128, x0 (ix2 p o) = agg (ix2 n o)) (h1 : x1 (ix2 p (0 : Fin 1)) = cntA (ix2 n (0 : Fin 1)))
    (h2 : ∀ d : Fin 128, x2 (ix2 p d) = x (ix2 n d)) (h3 : ∀ o d : Fin 128, x3 (ix2 o d) = ws (ix2 o d))
    (h4 : ∀ o : Fin 128, x4 (ix1 o) = bs (ix1 o)) (h5 : ∀ o : Fin 128, x5 (ix1 o) = g (ix1 o))
    (h6 : ∀ o : Fin 128, x6 (ix1 o) = be (ix1 o)) (o : Fin 128) :
    k3_pay1 (F := Ideal) (k3_pay2 x0 x1 x2 x3 x4) x5 x6 (ix2 p o)
      = Spec.layerAt agg (fun n => cntA (ix2 n (0 : Fin 1))) x ws bs g be n o := by
  rw [nsl3_pay1_eq, nsl3_pay2_split, ← nsl1_pay2_split]
  exact nsl1_pay_at agg cntA x ws bs g be x0 x1 x2 x3 x4 x5 x6 n p h0 h1 h2 h3 h4 h5 h6 o

/-- The same against the layer's array at an index `i` whose row is row `p` of the blocks and whose lane is `o`. -/
theorem nsl1_entry (agg : Spec.SNx128.Idx → EReal) (cntA : S100000x1.Idx → EReal) (x : Spec.SNx128.Idx → EReal)
    (ws : Spec.SWs.Idx → EReal) (bs g be : Spec.SV.Idx → EReal)
    (x0 : Vec Ideal S2000x128 .f32) (x1 : Vec Ideal S2000x1 .f32) (x2 : Vec Ideal S2000x128 .f32)
    (x3 : Vec Ideal S128x128 .f32) (x4 x5 x6 : Vec Ideal S128 .f32) (i : Spec.SNx128.Idx) (p : Fin 2000) (o : Fin 128)
    (hi1 : (i 1).val = o.val)
    (h0 : ∀ o' : Fin 128, x0 (ix2 p o') = agg (ix2 (⟨(i 0).val, (i 0).isLt⟩ : Fin 100000) o'))
    (h1 : x1 (ix2 p (0 : Fin 1)) = cntA (ix2 (⟨(i 0).val, (i 0).isLt⟩ : Fin 100000) (0 : Fin 1)))
    (h2 : ∀ d : Fin 128, x2 (ix2 p d) = x (ix2 (⟨(i 0).val, (i 0).isLt⟩ : Fin 100000) d))
    (h3 : ∀ o' d : Fin 128, x3 (ix2 o' d) = ws (ix2 o' d))
    (h4 : ∀ o' : Fin 128, x4 (ix1 o') = bs (ix1 o')) (h5 : ∀ o' : Fin 128, x5 (ix1 o') = g (ix1 o'))
    (h6 : ∀ o' : Fin 128, x6 (ix1 o') = be (ix1 o')) :
    k1_pay1 (F := Ideal) (k1_pay2 x0 x1 x2 x3 x4) (k1_pay3 x5) x6 (ix2 p o)
      = Spec.layer agg (fun n => cntA (ix2 n (0 : Fin 1))) x ws bs g be i := by
  have ho : (⟨(i 1).val, (i 1).isLt⟩ : Fin 128) = o := Fin.ext hi1
  show _ = Spec.layerAt agg (fun n => cntA (ix2 n (0 : Fin 1))) x ws bs g be ⟨(i 0).val, (i 0).isLt⟩ ⟨(i 1).val, (i 1).isLt⟩
  rw [ho]
  exact nsl1_pay_at agg cntA x ws bs g be x0 x1 x2 x3 x4 x5 x6 ⟨(i 0).val, (i 0).isLt⟩ p h0 h1 h2 h3 h4 h5 h6 o

/-- The second layer's payload against the layer's array, likewise. -/
theorem nsl3_entry (agg : Spec.SNx128.Idx → EReal) (cntA : S100000x1.Idx → EReal) (x : Spec.SNx128.Idx → EReal)
    (ws : Spec.SWs.Idx → EReal) (bs g be : Spec.SV.Idx → EReal)
    (x0 : Vec Ideal S2000x128 .f32) (x1 : Vec Ideal S2000x1 .f32) (x2 : Vec Ideal S2000x128 .f32)
    (x3 : Vec Ideal S128x128 .f32) (x4 x5 x6 : Vec Ideal S128 .f32) (i : Spec.SNx128.Idx) (p : Fin 2000) (o : Fin 128)
    (hi1 : (i 1).val = o.val)
    (h0 : ∀ o' : Fin 128, x0 (ix2 p o') = agg (ix2 (⟨(i 0).val, (i 0).isLt⟩ : Fin 100000) o'))
    (h1 : x1 (ix2 p (0 : Fin 1)) = cntA (ix2 (⟨(i 0).val, (i 0).isLt⟩ : Fin 100000) (0 : Fin 1)))
    (h2 : ∀ d : Fin 128, x2 (ix2 p d) = x (ix2 (⟨(i 0).val, (i 0).isLt⟩ : Fin 100000) d))
    (h3 : ∀ o' d : Fin 128, x3 (ix2 o' d) = ws (ix2 o' d))
    (h4 : ∀ o' : Fin 128, x4 (ix1 o') = bs (ix1 o')) (h5 : ∀ o' : Fin 128, x5 (ix1 o') = g (ix1 o'))
    (h6 : ∀ o' : Fin 128, x6 (ix1 o') = be (ix1 o')) :
    k3_pay1 (F := Ideal) (k3_pay2 x0 x1 x2 x3 x4) x5 x6 (ix2 p o)
      = Spec.layer agg (fun n => cntA (ix2 n (0 : Fin 1))) x ws bs g be i := by
  rw [nsl3_pay1_eq, nsl3_pay2_split, ← nsl1_pay2_split]
  exact nsl1_entry agg cntA x ws bs g be x0 x1 x2 x3 x4 x5 x6 i p o hi1 h0 h1 h2 h3 h4 h5 h6

/-! ## From blocks to the array -/

/-- A whole-buffer access starts at offset zero on both axes … -/
theorem nsl_hz2 : (![0, 0] : Fin 2 → Nat) = fun _ => 0 := funext fun a => by fin_cases a <;> rfl
/-- … and on a vector's one axis. -/
theorem nsl_hz1 : (![0] : Fin 1 → Nat) = fun _ => 0 := funext fun a => by fin_cases a; rfl

/-- The index maps over the grid: the aggregate's, the count's, the features' and the output's blocks are block `t` of
    their arrays' rows; the weight, the bias, the scale and the shift are whole arrays at block 0. -/
theorem nsl1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 2) = t.val ∧ win1_7.index t (1 : Fin 2) = 0 :=
  (by decide +kernel : ∀ t : Fin grid1.N, _)

/-- What point `t` writes back is block `t` — rows `2000·t … 2000·t + 1999` — of the layer of the arrays the region finds:
    each input block is read where the output's rectangle says, the row blocks at the same rows, the parameters whole. -/
theorem nsl1_flushed (c : Dev nD) (t : Fin cfg1.N) :
    (dat1 (F := Ideal) V c).flushed 7 t
      = ((cfg1.win 7).blk t).view.read (Elt Ideal)
          (Spec.layer (V c main_v26) (fun n => V c main_v17 (ix2 n 0)) (V c main_arg1) (V c main_arg4) (V c main_arg5) (V c main_arg6) (V c main_arg7)) := by
  show (cfg1.win 7).cut (grid1.coords t) ((dat1 (F := Ideal) V c).after 7 t) = _
  rw [after1_7]
  unfold out1_7
  rw [View.canon_unit_zero nsl_hz2]
  simp only [View.ld_unit_zero (S := S2000x128) nsl_hz2, View.ld_unit_zero (S := S2000x1) nsl_hz2,
    View.ld_unit_zero (S := S128x128) nsl_hz2, View.ld_unit_zero (S := S128) nsl_hz1]
  funext j
  have hj0 : (j 0).val < 2000 := (j 0).isLt
  have hj1 : (j 1).val < 128 := (j 1).isLt
  obtain ⟨e00, e01, e10, e11, e20, e21, e30, e31, e4, e5, e6, e70, e71⟩ := nsl1_idx t
  have hx : (win1 7).xinj (grid1.coords t) j = ix2 (⟨(j 0).val, hj0⟩ : Fin 2000) (⟨(j 1).val, hj1⟩ : Fin 128) :=
    funext fun a => by match a with | ⟨0, _⟩ => rfl | ⟨1, _⟩ => rfl
  show k1_pay1 (F := Ideal) (k1_pay2 (iblk1 V c 0 t) (iblk1 V c 1 t) (iblk1 V c 2 t) (iblk1 V c 3 t) (iblk1 V c 4 t))
        (k1_pay3 (iblk1 V c 5 t)) (iblk1 V c 6 t) ((win1 7).xinj (grid1.coords t) j) = _
  rw [hx]
  show _ = Spec.layer (V c main_v26) (fun n => V c main_v17 (ix2 n (0 : Fin 1))) (V c main_arg1) (V c main_arg4) (V c main_arg5)
      (V c main_arg6) (V c main_arg7) (((cfg1.win 7).blk t).view.emb j)
  refine nsl1_entry (V c main_v26) (V c main_v17) (V c main_arg1) (V c main_arg4) (V c main_arg5) (V c main_arg6) (V c main_arg7)
    (iblk1 V c 0 t) (iblk1 V c 1 t) (iblk1 V c 2 t) (iblk1 V c 3 t) (iblk1 V c 4 t) (iblk1 V c 5 t) (iblk1 V c 6 t)
    (((cfg1.win 7).blk t).view.emb j) ⟨(j 0).val, hj0⟩ ⟨(j 1).val, hj1⟩ ?_ ?_ ?_ ?_ ?_ ?_ ?_ ?_
  · show win1_7.index t (1 : Fin 2) * 128 + 1 * (j 1).val = (j 1).val
    omega
  · intro o'
    show V c main_v26 (((cfg1.win 0).blk t).view.emb (ix2 (⟨(j 0).val, hj0⟩ : Fin 2000) o')) = _
    refine congrArg (V c main_v26) (funext fun a => Fin.ext ?_)
    match a with
    | ⟨0, _⟩ => show win1_0.index t (0 : Fin 2) * 2000 + 1 * (j 0).val = win1_7.index t (0 : Fin 2) * 2000 + 1 * (j 0).val; omega
    | ⟨1, _⟩ => show win1_0.index t (1 : Fin 2) * 128 + 1 * o'.val = o'.val; omega
  · show V c main_v17 (((cfg1.win 1).blk t).view.emb (ix2 (⟨(j 0).val, hj0⟩ : Fin 2000) (0 : Fin 1))) = _
    refine congrArg (V c main_v17) (funext fun a => Fin.ext ?_)
    match a with
    | ⟨0, _⟩ => show win1_1.index t (0 : Fin 2) * 2000 + 1 * (j 0).val = win1_7.index t (0 : Fin 2) * 2000 + 1 * (j 0).val; omega
    | ⟨1, _⟩ => show win1_1.index t (1 : Fin 2) * 1 + 1 * 0 = 0; omega
  · intro d
    show V c main_arg1 (((cfg1.win 2).blk t).view.emb (ix2 (⟨(j 0).val, hj0⟩ : Fin 2000) d)) = _
    refine congrArg (V c main_arg1) (funext fun a => Fin.ext ?_)
    match a with
    | ⟨0, _⟩ => show win1_2.index t (0 : Fin 2) * 2000 + 1 * (j 0).val = win1_7.index t (0 : Fin 2) * 2000 + 1 * (j 0).val; omega
    | ⟨1, _⟩ => show win1_2.index t (1 : Fin 2) * 128 + 1 * d.val = d.val; omega
  · intro o' d
    show V c main_arg4 (((cfg1.win 3).blk t).view.emb (ix2 o' d)) = _
    refine congrArg (V c main_arg4) (funext fun a => Fin.ext ?_)
    match a with
    | ⟨0, _⟩ => show win1_3.index t (0 : Fin 2) * 128 + 1 * o'.val = o'.val; omega
    | ⟨1, _⟩ => show win1_3.index t (1 : Fin 2) * 128 + 1 * d.val = d.val; omega
  · intro o'
    show V c main_arg5 (((cfg1.win 4).blk t).view.emb (ix1 o')) = _
    refine congrArg (V c main_arg5) (funext fun a => Fin.ext ?_)
    match a with
    | ⟨0, _⟩ => show win1_4.index t (0 : Fin 1) * 128 + 1 * o'.val = o'.val; omega
  · intro o'
    show V c main_arg6 (((cfg1.win 5).blk t).view.emb (ix1 o')) = _
    refine congrArg (V c main_arg6) (funext fun a => Fin.ext ?_)
    match a with
    | ⟨0, _⟩ => show win1_5.index t (0 : Fin 1) * 128 + 1 * o'.val = o'.val; omega
  · intro o'
    show V c main_arg7 (((cfg1.win 6).blk t).view.emb (ix1 o')) = _
    refine congrArg (V c main_arg7) (funext fun a => Fin.ext ?_)
    match a with
    | ⟨0, _⟩ => show win1_6.index t (0 : Fin 1) * 128 + 1 * o'.val = o'.val; omega

/-- An index of the output array is in point `t`'s block iff each coordinate is in the block's range on its axis. -/
theorem nsl1_mem_blk (t : Fin cfg1.N) (i : S100000x128.Idx) :
    i ∈ ((cfg1.win 7).blk t).view.set
      ↔ ∀ a : Fin 2, win1_7.index t a * S2000x128.size a ≤ (i a).val ∧ (i a).val < win1_7.index t a * S2000x128.size a + S2000x128.size a := by
  show i ∈ ((View.whole main_v27).slice (win1_7.rect t)).set ↔ _
  rw [View.set_slice_whole, Rect.mem_set_unit]
  exact Iff.rfl

/-- Row `r` of the output is in the block of point `r / 2000`. -/
theorem nsl1_cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 50 := N_1
  have ht : (i 0).val / 2000 < cfg1.N := by rw [hN]; omega
  obtain ⟨-, -, -, -, -, -, -, -, -, -, -, e70, e71⟩ := nsl1_idx ⟨(i 0).val / 2000, ht⟩
  refine ⟨⟨(i 0).val / 2000, ht⟩, flush1_7 _, ?_⟩
  rw [nsl1_mem_blk]
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    rw [e70]
    show (i 0).val / 2000 * 2000 ≤ (i 0).val ∧ (i 0).val < (i 0).val / 2000 * 2000 + 2000
    omega
  | ⟨1, _⟩ =>
    show win1_7.index ⟨(i 0).val / 2000, ht⟩ (1 : Fin 2) * 128 ≤ (i 1).val
      ∧ (i 1).val < win1_7.index ⟨(i 0).val / 2000, ht⟩ (1 : Fin 2) * 128 + 128
    rw [e71]
    omega

/-- Region 1 (the first layer's normalisation): its output array after the region. -/
theorem nsl1_final (c : Dev nD) :
    (dat1 (F := Ideal) V c).arrAt 7 cfg1.N
      = Spec.layer (V c main_v26) (fun n => V c main_v17 (ix2 n 0)) (V c main_arg1) (V c main_arg4) (V c main_arg5) (V c main_arg6) (V c main_arg7) := by
  exact (dat1 (F := Ideal) V c).arrAt_eq_of_cover 7
    (Spec.layer (V c main_v26) (fun n => V c main_v17 (ix2 n 0)) (V c main_arg1) (V c main_arg4) (V c main_arg5) (V c main_arg6) (V c main_arg7))
    (fun t _ => nsl1_flushed V c t) nsl1_cover

/-! ## The second layer's region: the same road over its own windows and arrays -/

/-- The index maps over the grid: the aggregate's, the count's, the features' and the output's blocks are block `t` of
    their arrays' rows; the weight, the bias, the scale and the shift are whole arrays at block 0. -/
theorem nsl3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0 ∧ win3_5.index t (0 : Fin 1) = 0 ∧ win3_6.index t (0 : Fin 1) = 0
    ∧ win3_7.index t (0 : Fin 2) = t.val ∧ win3_7.index t (1 : Fin 2) = 0 :=
  (by decide +kernel : ∀ t : Fin grid3.N, _)

/-- What point `t` writes back is block `t` of the layer of the arrays the region finds. -/
theorem nsl3_flushed (c : Dev nD) (t : Fin cfg3.N) :
    (dat3 (F := Ideal) V c).flushed 7 t
      = ((cfg3.win 7).blk t).view.read (Elt Ideal)
          (Spec.layer (V c main_v36) (fun n => V c main_v17 (ix2 n 0)) (V c main_v27) (V c main_arg10) (V c main_arg11) (V c main_arg12) (V c main_arg13)) := by
  show (cfg3.win 7).cut (grid3.coords t) ((dat3 (F := Ideal) V c).after 7 t) = _
  rw [after3_7]
  unfold out3_7
  rw [View.canon_unit_zero nsl_hz2]
  simp only [View.ld_unit_zero (S := S2000x128) nsl_hz2, View.ld_unit_zero (S := S2000x1) nsl_hz2,
    View.ld_unit_zero (S := S128x128) nsl_hz2, View.ld_unit_zero (S := S128) nsl_hz1]
  funext j
  have hj0 : (j 0).val < 2000 := (j 0).isLt
  have hj1 : (j 1).val < 128 := (j 1).isLt
  obtain ⟨e00, e01, e10, e11, e20, e21, e30, e31, e4, e5, e6, e70, e71⟩ := nsl3_idx t
  have hx : (win3 7).xinj (grid3.coords t) j = ix2 (⟨(j 0).val, hj0⟩ : Fin 2000) (⟨(j 1).val, hj1⟩ : Fin 128) :=
    funext fun a => by match a with | ⟨0, _⟩ => rfl | ⟨1, _⟩ => rfl
  show k3_pay1 (F := Ideal) (k3_pay2 (iblk3 V c 0 t) (iblk3 V c 1 t) (iblk3 V c 2 t) (iblk3 V c 3 t) (iblk3 V c 4 t))
        (iblk3 V c 5 t) (iblk3 V c 6 t) ((win3 7).xinj (grid3.coords t) j) = _
  rw [hx]
  show _ = Spec.layer (V c main_v36) (fun n => V c main_v17 (ix2 n (0 : Fin 1))) (V c main_v27) (V c main_arg10) (V c main_arg11)
      (V c main_arg12) (V c main_arg13) (((cfg3.win 7).blk t).view.emb j)
  refine nsl3_entry (V c main_v36) (V c main_v17) (V c main_v27) (V c main_arg10) (V c main_arg11) (V c main_arg12) (V c main_arg13)
    (iblk3 V c 0 t) (iblk3 V c 1 t) (iblk3 V c 2 t) (iblk3 V c 3 t) (iblk3 V c 4 t) (iblk3 V c 5 t) (iblk3 V c 6 t)
    (((cfg3.win 7).blk t).view.emb j) ⟨(j 0).val, hj0⟩ ⟨(j 1).val, hj1⟩ ?_ ?_ ?_ ?_ ?_ ?_ ?_ ?_
  · show win3_7.index t (1 : Fin 2) * 128 + 1 * (j 1).val = (j 1).val
    omega
  · intro o'
    show V c main_v36 (((cfg3.win 0).blk t).view.emb (ix2 (⟨(j 0).val, hj0⟩ : Fin 2000) o')) = _
    refine congrArg (V c main_v36) (funext fun a => Fin.ext ?_)
    match a with
    | ⟨0, _⟩ => show win3_0.index t (0 : Fin 2) * 2000 + 1 * (j 0).val = win3_7.index t (0 : Fin 2) * 2000 + 1 * (j 0).val; omega
    | ⟨1, _⟩ => show win3_0.index t (1 : Fin 2) * 128 + 1 * o'.val = o'.val; omega
  · show V c main_v17 (((cfg3.win 1).blk t).view.emb (ix2 (⟨(j 0).val, hj0⟩ : Fin 2000) (0 : Fin 1))) = _
    refine congrArg (V c main_v17) (funext fun a => Fin.ext ?_)
    match a with
    | ⟨0, _⟩ => show win3_1.index t (0 : Fin 2) * 2000 + 1 * (j 0).val = win3_7.index t (0 : Fin 2) * 2000 + 1 * (j 0).val; omega
    | ⟨1, _⟩ => show win3_1.index t (1 : Fin 2) * 1 + 1 * 0 = 0; omega
  · intro d
    show V c main_v27 (((cfg3.win 2).blk t).view.emb (ix2 (⟨(j 0).val, hj0⟩ : Fin 2000) d)) = _
    refine congrArg (V c main_v27) (funext fun a => Fin.ext ?_)
    match a with
    | ⟨0, _⟩ => show win3_2.index t (0 : Fin 2) * 2000 + 1 * (j 0).val = win3_7.index t (0 : Fin 2) * 2000 + 1 * (j 0).val; omega
    | ⟨1, _⟩ => show win3_2.index t (1 : Fin 2) * 128 + 1 * d.val = d.val; omega
  · intro o' d
    show V c main_arg10 (((cfg3.win 3).blk t).view.emb (ix2 o' d)) = _
    refine congrArg (V c main_arg10) (funext fun a => Fin.ext ?_)
    match a with
    | ⟨0, _⟩ => show win3_3.index t (0 : Fin 2) * 128 + 1 * o'.val = o'.val; omega
    | ⟨1, _⟩ => show win3_3.index t (1 : Fin 2) * 128 + 1 * d.val = d.val; omega
  · intro o'
    show V c main_arg11 (((cfg3.win 4).blk t).view.emb (ix1 o')) = _
    refine congrArg (V c main_arg11) (funext fun a => Fin.ext ?_)
    match a with
    | ⟨0, _⟩ => show win3_4.index t (0 : Fin 1) * 128 + 1 * o'.val = o'.val; omega
  · intro o'
    show V c main_arg12 (((cfg3.win 5).blk t).view.emb (ix1 o')) = _
    refine congrArg (V c main_arg12) (funext fun a => Fin.ext ?_)
    match a with
    | ⟨0, _⟩ => show win3_5.index t (0 : Fin 1) * 128 + 1 * o'.val = o'.val; omega
  · intro o'
    show V c main_arg13 (((cfg3.win 6).blk t).view.emb (ix1 o')) = _
    refine congrArg (V c main_arg13) (funext fun a => Fin.ext ?_)
    match a with
    | ⟨0, _⟩ => show win3_6.index t (0 : Fin 1) * 128 + 1 * o'.val = o'.val; omega

/-- An index of the output array is in point `t`'s block iff each coordinate is in the block's range on its axis. -/
theorem nsl3_mem_blk (t : Fin cfg3.N) (i : S100000x128.Idx) :
    i ∈ ((cfg3.win 7).blk t).view.set
      ↔ ∀ a : Fin 2, win3_7.index t a * S2000x128.size a ≤ (i a).val ∧ (i a).val < win3_7.index t a * S2000x128.size a + S2000x128.size a := by
  show i ∈ ((View.whole main_v37).slice (win3_7.rect t)).set ↔ _
  rw [View.set_slice_whole, Rect.mem_set_unit]
  exact Iff.rfl

/-- Row `r` of the output is in the block of point `r / 2000`. -/
theorem nsl3_cover (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 50 := N_3
  have ht : (i 0).val / 2000 < cfg3.N := by rw [hN]; omega
  obtain ⟨-, -, -, -, -, -, -, -, -, -, -, e70, e71⟩ := nsl3_idx ⟨(i 0).val / 2000, ht⟩
  refine ⟨⟨(i 0).val / 2000, ht⟩, flush3_7 _, ?_⟩
  rw [nsl3_mem_blk]
  intro a
  match a with
  | ⟨0, _⟩ =>
    show win3_7.index ⟨(i 0).val / 2000, ht⟩ (0 : Fin 2) * 2000 ≤ (i 0).val
      ∧ (i 0).val < win3_7.index ⟨(i 0).val / 2000, ht⟩ (0 : Fin 2) * 2000 + 2000
    rw [e70]
    show (i 0).val / 2000 * 2000 ≤ (i 0).val ∧ (i 0).val < (i 0).val / 2000 * 2000 + 2000
    omega
  | ⟨1, _⟩ =>
    show win3_7.index ⟨(i 0).val / 2000, ht⟩ (1 : Fin 2) * 128 ≤ (i 1).val
      ∧ (i 1).val < win3_7.index ⟨(i 0).val / 2000, ht⟩ (1 : Fin 2) * 128 + 128
    rw [e71]
    omega

/-- Region 3 (the second layer's normalisation), likewise. -/
theorem nsl3_final (c : Dev nD) :
    (dat3 (F := Ideal) V c).arrAt 7 cfg3.N
      = Spec.layer (V c main_v36) (fun n => V c main_v17 (ix2 n 0)) (V c main_v27) (V c main_arg10) (V c main_arg11) (V c main_arg12) (V c main_arg13) := by
  exact (dat3 (F := Ideal) V c).arrAt_eq_of_cover 7
    (Spec.layer (V c main_v36) (fun n => V c main_v17 (ix2 n 0)) (V c main_v27) (V c main_arg10) (V c main_arg11) (V c main_arg12) (V c main_arg13))
    (fun t _ => nsl3_flushed V c t) nsl3_cover

end Cert.KernelIdeal.Hand

end
-- ==== Proof.KFold.lean ====
/-
  The kernel program's result buffer, read back through the whole of @main: the last region's output array is
  `Spec.layer` of what the host operations before it computed, those are the scatter-add of the gathered rows of the
  previous projection, and so on back to the launch memory: `kSpec` of the fourteen argument arrays.

  The walk goes boundary by boundary. A region changes only its output array (to the projection, or to the normalised
  layer, of the arrays it finds); a stretch of host operations changes only its own results, and each result that is read
  later is one of the host functions of KDefs.lean applied to what the stretch finds. Every buffer that is read at some
  boundary is therefore followed from the boundary that last wrote it, and the last region's seven inputs turn out to
  be exactly the arguments of the outer `Spec.layer` in `kSpec`.
-/
import proofs.«420726_j90924457657027_1_alg».proof.Proof.Gen.KernelIdeal.Frame
import proofs.«420726_j90924457657027_1_alg».proof.Proof.KDefs
import proofs.«420726_j90924457657027_1_alg».proof.Proof.ProjValue
import proofs.«420726_j90924457657027_1_alg».proof.Proof.NslValue
import Idealize.ShloMosaic.Lib.StableHlo.Run

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## What each stretch of host operations writes

Every operation writes exactly its result buffer, so a stretch leaves every buffer outside the list of its results
as it found it. -/

/-- Closes "each operation of the stretch writes into the listed references". -/
local macro "writes_listed" : tactic =>
  `(tactic| (simp only [List.Forall]
             repeat' apply And.intro
             all_goals
               (simp only [StableHlo.nullary_writes, StableHlo.unary_writes, StableHlo.binary_writes, StableHlo.ternary_writes,
                  StableHlo.reshape_writes, Finset.singleton_subset_iff, List.mem_toFinset]
                exact List.mem_map_of_mem (by decide))))

section Writes
variable (Vv : Valuation τ sig (Elt Ideal))

/-- The results of the first stretch (edge columns, bucket, in-degree). -/
abbrev wr0 : List (Ref sig .tc) :=
  [main_v0, main_v1, main_v2, main_v3, main_v4, main_v5, main_c, main_v6, main_v7, main_v8, main_c_0, main_v9, main_v10, main_v11, main_v12, main_cst, main_v13, main_cst_1, main_v14, main_v15, main_v16, main_v17]
theorem writes0 : (hostOps0 : List (HloOp τ sig (Elt Ideal))).Forall fun op => op.writes ⊆ (wr0.map (Proc.devRef (τ := τ) .tc)).toFinset := by
  writes_listed
/-- A buffer outside that list is as the stretch found it. -/
theorem keep0 (r : Ref sig .tc) (h : r ∉ wr0) :
    StableHlo.after hostOps0 Vv (Proc.devRef .tc r) = Vv (Proc.devRef .tc r) :=
  StableHlo.after_of_writes_sub hostOps0 _ writes0 h

/-- The results of the stretch after the first projection (row layout and row index). -/
abbrev wr1 : List (Ref sig .tc) :=
  [main_v19, main_c_2, main_v20, main_v21, main_v22]
theorem writes1 : (hostOps1 : List (HloOp τ sig (Elt Ideal))).Forall fun op => op.writes ⊆ (wr1.map (Proc.devRef (τ := τ) .tc)).toFinset := by
  writes_listed
/-- A buffer outside that list is as the stretch found it. -/
theorem keep1 (r : Ref sig .tc) (h : r ∉ wr1) :
    StableHlo.after hostOps1 Vv (Proc.devRef .tc r) = Vv (Proc.devRef .tc r) :=
  StableHlo.after_of_writes_sub hostOps1 _ writes1 h

/-- The results of the first row gather. -/
abbrev wr1_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v23]
theorem writes1_1 : (hostOps1_1 : List (HloOp τ sig (Elt Ideal))).Forall fun op => op.writes ⊆ (wr1_1.map (Proc.devRef (τ := τ) .tc)).toFinset := by
  writes_listed
/-- A buffer outside that list is as the stretch found it. -/
theorem keep1_1 (r : Ref sig .tc) (h : r ∉ wr1_1) :
    StableHlo.after hostOps1_1 Vv (Proc.devRef .tc r) = Vv (Proc.devRef .tc r) :=
  StableHlo.after_of_writes_sub hostOps1_1 _ writes1_1 h

/-- The results of the first scatter-add. -/
abbrev wr1_2 : List (Ref sig .tc) :=
  [main_cst_3, main_v24, main_v25, main_v26]
theorem writes1_2 : (hostOps1_2 : List (HloOp τ sig (Elt Ideal))).Forall fun op => op.writes ⊆ (wr1_2.map (Proc.devRef (τ := τ) .tc)).toFinset := by
  writes_listed
/-- A buffer outside that list is as the stretch found it. -/
theorem keep1_2 (r : Ref sig .tc) (h : r ∉ wr1_2) :
    StableHlo.after hostOps1_2 Vv (Proc.devRef .tc r) = Vv (Proc.devRef .tc r) :=
  StableHlo.after_of_writes_sub hostOps1_2 _ writes1_2 h

/-- The results of the stretch after the second projection (row layout and row index). -/
abbrev wr3 : List (Ref sig .tc) :=
  [main_v29, main_c_4, main_v30, main_v31, main_v32]
theorem writes3 : (hostOps3 : List (HloOp τ sig (Elt Ideal))).Forall fun op => op.writes ⊆ (wr3.map (Proc.devRef (τ := τ) .tc)).toFinset := by
  writes_listed
/-- A buffer outside that list is as the stretch found it. -/
theorem keep3 (r : Ref sig .tc) (h : r ∉ wr3) :
    StableHlo.after hostOps3 Vv (Proc.devRef .tc r) = Vv (Proc.devRef .tc r) :=
  StableHlo.after_of_writes_sub hostOps3 _ writes3 h

/-- The results of the second row gather. -/
abbrev wr3_1 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v33]
theorem writes3_1 : (hostOps3_1 : List (HloOp τ sig (Elt Ideal))).Forall fun op => op.writes ⊆ (wr3_1.map (Proc.devRef (τ := τ) .tc)).toFinset := by
  writes_listed
/-- A buffer outside that list is as the stretch found it. -/
theorem keep3_1 (r : Ref sig .tc) (h : r ∉ wr3_1) :
    StableHlo.after hostOps3_1 Vv (Proc.devRef .tc r) = Vv (Proc.devRef .tc r) :=
  StableHlo.after_of_writes_sub hostOps3_1 _ writes3_1 h

/-- The results of the second scatter-add. -/
abbrev wr3_2 : List (Ref sig .tc) :=
  [main_cst_5, main_v34, main_v35, main_v36]
theorem writes3_2 : (hostOps3_2 : List (HloOp τ sig (Elt Ideal))).Forall fun op => op.writes ⊆ (wr3_2.map (Proc.devRef (τ := τ) .tc)).toFinset := by
  writes_listed
/-- A buffer outside that list is as the stretch found it. -/
theorem keep3_2 (r : Ref sig .tc) (h : r ∉ wr3_2) :
    StableHlo.after hostOps3_2 Vv (Proc.devRef .tc r) = Vv (Proc.devRef .tc r) :=
  StableHlo.after_of_writes_sub hostOps3_2 _ writes3_2 h

end Writes

/-! ## What each stretch computes, over any contents it finds -/

section Host
variable (Vv : Valuation τ sig (Elt Ideal))

/-- The gathered rows as a function of the 300000-row layout and of the row indices. -/
def takeRaw (y3 : FVec Ideal S300000x128 .f32) (i : IVec S1600000 32) : FVec Ideal S1600000x128 .f32 :=
  select (broadcastInDim S1600000x128 ![0] bcast_S1600000_S1600000x128_0 (inbK (wrapK i)))
    (Host.gather gather_S300000x128_S1600000x1_S1600000x128_1_0_n_n_0_1_1128 y3 (wrapK i))
    (broadcastInDim S1600000x128 ![] bcast_S_S1600000x128 (constant (F := Ideal) S_ .f32 0x7FC00000#32))

/-- The scatter-add of message rows onto the destination nodes. -/
def aggRaw (d : IVec S1600000 32) (u : FVec Ideal S1600000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d) u

/-- The row index from the source and bucket columns. -/
def idxRaw (s b : IVec S1600000 32) : IVec S1600000 32 :=
  addi (muli s (broadcastInDim S1600000 ![] bcast_S_S1600000 (constantI S_ 32 3#32))) b

/-- Contents moved to a typed reference's buffer type and back are the contents. -/
theorem ofBuf_toBuf {T : BufTy} (x : StableHlo.TRef sig T) (v : T.Contents (Elt Ideal)) : x.ofBuf (x.toBuf v) = v := by
  obtain ⟨r, rfl, _, _⟩ := x; rfl

/-- The aggregate of KDefs.lean, spelled through the three functions above. -/
theorem aggK_eq (y : FVec Ideal S100000x384 .f32) (e : IVec S1600000x3 32) :
    aggK (F := Ideal) y e
      = aggRaw (dstK e) (takeRaw (shapeCast S300000x128 y shapeCasts_S100000x384_S300000x128) (idxRaw (srcK e) (bucketK e))) := rfl

/-! The first stretch: the source, destination and bucket columns and the in-degree, of the edge list it finds. -/

theorem host0_v1 : StableHlo.after hostOps0 Vv (Proc.devRef .tc main_v1) = srcK (Vv (Proc.devRef .tc main_arg0)) := by
  after_results; rfl
theorem host0_v5 : StableHlo.after hostOps0 Vv (Proc.devRef .tc main_v5) = dstK (Vv (Proc.devRef .tc main_arg0)) := by
  after_results; rfl
theorem host0_v12 : StableHlo.after hostOps0 Vv (Proc.devRef .tc main_v12) = bucketK (Vv (Proc.devRef .tc main_arg0)) := by
  after_results; rfl
theorem host0_v17 : StableHlo.after hostOps0 Vv (Proc.devRef .tc main_v17) = cntK (F := Ideal) (Vv (Proc.devRef .tc main_arg0)) := by
  after_results; rfl

/-! The stretches between the first projection and the first normalisation: the projection re-laid as 300000 rows,
    the row index, the gathered rows, and their sum onto the destinations. -/

theorem host1_v19 : StableHlo.after hostOps1 Vv (Proc.devRef .tc main_v19)
    = shapeCast S300000x128 (Vv (Proc.devRef .tc main_v18)) shapeCasts_S100000x384_S300000x128 := by
  after_results; rfl
theorem host1_v22 : StableHlo.after hostOps1 Vv (Proc.devRef .tc main_v22)
    = idxRaw (Vv (Proc.devRef .tc main_v1)) (Vv (Proc.devRef .tc main_v12)) := by
  after_results; rfl
/-- The gather's operations are stated over typed references; read at those types the moves between a buffer's
    type and the value's type cancel in pairs. -/
theorem host1_1_typed :
    (.of main_v23 : StableHlo.TRef sig ⟨S1600000x128, .f32⟩).ofBuf (StableHlo.after hostOps1_1 Vv (Proc.devRef .tc main_v23))
      = takeRaw ((.of main_v19 : StableHlo.TRef sig ⟨S300000x128, .f32⟩).ofBuf (Vv (Proc.devRef .tc main_v19)))
          ((.of main_v22 : StableHlo.TRef sig ⟨S1600000, .i32⟩).ofBuf (Vv (Proc.devRef .tc main_v22))) := by
  after_results_simp
  simp only [ofBuf_toBuf]
  rfl
theorem host1_1_v23 : StableHlo.after hostOps1_1 Vv (Proc.devRef .tc main_v23)
    = takeRaw (Vv (Proc.devRef .tc main_v19)) (Vv (Proc.devRef .tc main_v22)) := host1_1_typed Vv
theorem host1_2_v26 : StableHlo.after hostOps1_2 Vv (Proc.devRef .tc main_v26)
    = aggRaw (Vv (Proc.devRef .tc main_v5)) (Vv (Proc.devRef .tc main_v23)) := by
  after_results; rfl

/-! The same three stretches after the second projection. -/

theorem host3_v29 : StableHlo.after hostOps3 Vv (Proc.devRef .tc main_v29)
    = shapeCast S300000x128 (Vv (Proc.devRef .tc main_v28)) shapeCasts_S100000x384_S300000x128 := by
  after_results; rfl
theorem host3_v32 : StableHlo.after hostOps3 Vv (Proc.devRef .tc main_v32)
    = idxRaw (Vv (Proc.devRef .tc main_v1)) (Vv (Proc.devRef .tc main_v12)) := by
  after_results; rfl
theorem host3_1_typed :
    (.of main_v33 : StableHlo.TRef sig ⟨S1600000x128, .f32⟩).ofBuf (StableHlo.after hostOps3_1 Vv (Proc.devRef .tc main_v33))
      = takeRaw ((.of main_v29 : StableHlo.TRef sig ⟨S300000x128, .f32⟩).ofBuf (Vv (Proc.devRef .tc main_v29)))
          ((.of main_v32 : StableHlo.TRef sig ⟨S1600000, .i32⟩).ofBuf (Vv (Proc.devRef .tc main_v32))) := by
  after_results_simp
  simp only [ofBuf_toBuf]
  rfl
theorem host3_1_v33 : StableHlo.after hostOps3_1 Vv (Proc.devRef .tc main_v33)
    = takeRaw (Vv (Proc.devRef .tc main_v29)) (Vv (Proc.devRef .tc main_v32)) := host3_1_typed Vv
theorem host3_2_v36 : StableHlo.after hostOps3_2 Vv (Proc.devRef .tc main_v36)
    = aggRaw (Vv (Proc.devRef .tc main_v5)) (Vv (Proc.devRef .tc main_v33)) := by
  after_results; rfl

end Host

/-! ## The named stages of the program, as functions of the launch contents -/

section Stages
variable (c : Dev nD)

/-- The first projection of the launched features. -/
def P1 : FVec Ideal S100000x384 .f32 :=
  Spec.proj (m ((c : Thread nD τ).loc main_arg1)) (m ((c : Thread nD τ).loc main_arg2)) (m ((c : Thread nD τ).loc main_arg3))
/-- Its rows gathered along the edges and summed onto the destinations. -/
def G1 : FVec Ideal S100000x128 .f32 := aggK (F := Ideal) (P1 m c) (m ((c : Thread nD τ).loc main_arg0))
/-- The first layer's output. -/
def L1 : FVec Ideal S100000x128 .f32 :=
  Spec.layer (G1 m c) (fun n => cntK (F := Ideal) (m ((c : Thread nD τ).loc main_arg0)) (ix2 n 0)) (m ((c : Thread nD τ).loc main_arg1))
    (m ((c : Thread nD τ).loc main_arg4)) (m ((c : Thread nD τ).loc main_arg5)) (m ((c : Thread nD τ).loc main_arg6)) (m ((c : Thread nD τ).loc main_arg7))
/-- The second projection, of the first layer's output. -/
def P2 : FVec Ideal S100000x384 .f32 := Spec.proj (L1 m c) (m ((c : Thread nD τ).loc main_arg8)) (m ((c : Thread nD τ).loc main_arg9))
/-- Its rows gathered and summed. -/
def G2 : FVec Ideal S100000x128 .f32 := aggK (F := Ideal) (P2 m c) (m ((c : Thread nD τ).loc main_arg0))

end Stages

/-! ## The fold, boundary by boundary

`W0` is the launch memory; `W1` follows the first stretch; `W2` the first projection; `W3`, `W4`, `W5` the three stretches
that gather and sum; `W6` the first normalisation; `W7` the second projection; `W8`, `W9`, `W10` the second gather and sum;
`W11` the second normalisation. A buffer is followed from the boundary that last wrote it to the boundary that reads it. -/

section Fold
variable (c : Dev nD)

/-! ### After the first stretch -/

theorem W1_v1 : W1 m ρ c (Proc.devRef .tc main_v1) = srcK (m ((c : Thread nD τ).loc main_arg0)) := host0_v1 (W0 m ρ c)
theorem W1_v5 : W1 m ρ c (Proc.devRef .tc main_v5) = dstK (m ((c : Thread nD τ).loc main_arg0)) := host0_v5 (W0 m ρ c)
theorem W1_v12 : W1 m ρ c (Proc.devRef .tc main_v12) = bucketK (m ((c : Thread nD τ).loc main_arg0)) := host0_v12 (W0 m ρ c)
theorem W1_v17 : W1 m ρ c (Proc.devRef .tc main_v17) = cntK (F := Ideal) (m ((c : Thread nD τ).loc main_arg0)) := host0_v17 (W0 m ρ c)
theorem W1_arg1 : W1 m ρ c (Proc.devRef .tc main_arg1) = (m ((c : Thread nD τ).loc main_arg1)) := keep0 (W0 m ρ c) main_arg1 (by decide)
theorem W1_arg2 : W1 m ρ c (Proc.devRef .tc main_arg2) = (m ((c : Thread nD τ).loc main_arg2)) := keep0 (W0 m ρ c) main_arg2 (by decide)
theorem W1_arg3 : W1 m ρ c (Proc.devRef .tc main_arg3) = (m ((c : Thread nD τ).loc main_arg3)) := keep0 (W0 m ρ c) main_arg3 (by decide)
theorem W1_arg4 : W1 m ρ c (Proc.devRef .tc main_arg4) = (m ((c : Thread nD τ).loc main_arg4)) := keep0 (W0 m ρ c) main_arg4 (by decide)
theorem W1_arg5 : W1 m ρ c (Proc.devRef .tc main_arg5) = (m ((c : Thread nD τ).loc main_arg5)) := keep0 (W0 m ρ c) main_arg5 (by decide)
theorem W1_arg6 : W1 m ρ c (Proc.devRef .tc main_arg6) = (m ((c : Thread nD τ).loc main_arg6)) := keep0 (W0 m ρ c) main_arg6 (by decide)
theorem W1_arg7 : W1 m ρ c (Proc.devRef .tc main_arg7) = (m ((c : Thread nD τ).loc main_arg7)) := keep0 (W0 m ρ c) main_arg7 (by decide)
theorem W1_arg8 : W1 m ρ c (Proc.devRef .tc main_arg8) = (m ((c : Thread nD τ).loc main_arg8)) := keep0 (W0 m ρ c) main_arg8 (by decide)
theorem W1_arg9 : W1 m ρ c (Proc.devRef .tc main_arg9) = (m ((c : Thread nD τ).loc main_arg9)) := keep0 (W0 m ρ c) main_arg9 (by decide)

/-! ### After the first projection -/

theorem V1_arg1 : V1 m ρ c main_arg1 = (m ((c : Thread nD τ).loc main_arg1)) := W1_arg1 m ρ c
theorem V1_arg2 : V1 m ρ c main_arg2 = (m ((c : Thread nD τ).loc main_arg2)) := W1_arg2 m ρ c
theorem V1_arg3 : V1 m ρ c main_arg3 = (m ((c : Thread nD τ).loc main_arg3)) := W1_arg3 m ρ c

theorem W2_v18 : W2 m ρ c (Proc.devRef .tc main_v18) = P1 m c :=
  (W2_arr m ρ c 3).trans ((proj0_final (V1 m ρ) c).trans (by rw [V1_arg1, V1_arg2, V1_arg3]; rfl))
theorem W2_v1 : W2 m ρ c (Proc.devRef .tc main_v1) = srcK (m ((c : Thread nD τ).loc main_arg0)) := (W2_of_ne m ρ c main_v1 (by decide)).trans (W1_v1 m ρ c)
theorem W2_v5 : W2 m ρ c (Proc.devRef .tc main_v5) = dstK (m ((c : Thread nD τ).loc main_arg0)) := (W2_of_ne m ρ c main_v5 (by decide)).trans (W1_v5 m ρ c)
theorem W2_v12 : W2 m ρ c (Proc.devRef .tc main_v12) = bucketK (m ((c : Thread nD τ).loc main_arg0)) := (W2_of_ne m ρ c main_v12 (by decide)).trans (W1_v12 m ρ c)
theorem W2_v17 : W2 m ρ c (Proc.devRef .tc main_v17) = cntK (F := Ideal) (m ((c : Thread nD τ).loc main_arg0)) := (W2_of_ne m ρ c main_v17 (by decide)).trans (W1_v17 m ρ c)
theorem W2_arg1 : W2 m ρ c (Proc.devRef .tc main_arg1) = (m ((c : Thread nD τ).loc main_arg1)) :=
  ((W2_arr m ρ c 0).trans (((dat0 (V1 m ρ) c).arrAt_in 0 rfl _).trans (A_eq0 (V1 m ρ) c 0))).trans (W1_arg1 m ρ c)
theorem W2_arg4 : W2 m ρ c (Proc.devRef .tc main_arg4) = (m ((c : Thread nD τ).loc main_arg4)) := (W2_of_ne m ρ c main_arg4 (by decide)).trans (W1_arg4 m ρ c)
theorem W2_arg5 : W2 m ρ c (Proc.devRef .tc main_arg5) = (m ((c : Thread nD τ).loc main_arg5)) := (W2_of_ne m ρ c main_arg5 (by decide)).trans (W1_arg5 m ρ c)
theorem W2_arg6 : W2 m ρ c (Proc.devRef .tc main_arg6) = (m ((c : Thread nD τ).loc main_arg6)) := (W2_of_ne m ρ c main_arg6 (by decide)).trans (W1_arg6 m ρ c)
theorem W2_arg7 : W2 m ρ c (Proc.devRef .tc main_arg7) = (m ((c : Thread nD τ).loc main_arg7)) := (W2_of_ne m ρ c main_arg7 (by decide)).trans (W1_arg7 m ρ c)
theorem W2_arg8 : W2 m ρ c (Proc.devRef .tc main_arg8) = (m ((c : Thread nD τ).loc main_arg8)) := (W2_of_ne m ρ c main_arg8 (by decide)).trans (W1_arg8 m ρ c)
theorem W2_arg9 : W2 m ρ c (Proc.devRef .tc main_arg9) = (m ((c : Thread nD τ).loc main_arg9)) := (W2_of_ne m ρ c main_arg9 (by decide)).trans (W1_arg9 m ρ c)

/-! ### Through the first gather and sum -/

/-- A buffer none of the three stretches writes. -/
theorem keepA (r : Ref sig .tc) (h1 : r ∉ wr1) (h2 : r ∉ wr1_1) (h3 : r ∉ wr1_2) :
    W5 m ρ c (Proc.devRef .tc r) = W2 m ρ c (Proc.devRef .tc r) :=
  (keep1_2 (W4 m ρ c) r h3).trans ((keep1_1 (W3 m ρ c) r h2).trans (keep1 (W2 m ρ c) r h1))

theorem W3_v19 : W3 m ρ c (Proc.devRef .tc main_v19) = shapeCast S300000x128 (P1 m c) shapeCasts_S100000x384_S300000x128 :=
  (host1_v19 (W2 m ρ c)).trans (by rw [W2_v18])
theorem W3_v22 : W3 m ρ c (Proc.devRef .tc main_v22) = idxRaw (srcK (m ((c : Thread nD τ).loc main_arg0))) (bucketK (m ((c : Thread nD τ).loc main_arg0))) :=
  (host1_v22 (W2 m ρ c)).trans (by rw [W2_v1, W2_v12])
theorem W4_v23 : W4 m ρ c (Proc.devRef .tc main_v23)
    = takeRaw (shapeCast S300000x128 (P1 m c) shapeCasts_S100000x384_S300000x128) (idxRaw (srcK (m ((c : Thread nD τ).loc main_arg0))) (bucketK (m ((c : Thread nD τ).loc main_arg0)))) :=
  (host1_1_v23 (W3 m ρ c)).trans (by rw [W3_v19, W3_v22])
theorem W4_v5 : W4 m ρ c (Proc.devRef .tc main_v5) = dstK (m ((c : Thread nD τ).loc main_arg0)) :=
  (keep1_1 (W3 m ρ c) main_v5 (by decide)).trans ((keep1 (W2 m ρ c) main_v5 (by decide)).trans (W2_v5 m ρ c))
theorem W5_v26 : W5 m ρ c (Proc.devRef .tc main_v26) = G1 m c :=
  (host1_2_v26 (W4 m ρ c)).trans (by rw [W4_v5, W4_v23, G1, aggK_eq])
theorem W5_v1 : W5 m ρ c (Proc.devRef .tc main_v1) = srcK (m ((c : Thread nD τ).loc main_arg0)) := (keepA m ρ c main_v1 (by decide) (by decide) (by decide)).trans (W2_v1 m ρ c)
theorem W5_v5 : W5 m ρ c (Proc.devRef .tc main_v5) = dstK (m ((c : Thread nD τ).loc main_arg0)) := (keepA m ρ c main_v5 (by decide) (by decide) (by decide)).trans (W2_v5 m ρ c)
theorem W5_v12 : W5 m ρ c (Proc.devRef .tc main_v12) = bucketK (m ((c : Thread nD τ).loc main_arg0)) := (keepA m ρ c main_v12 (by decide) (by decide) (by decide)).trans (W2_v12 m ρ c)
theorem W5_v17 : W5 m ρ c (Proc.devRef .tc main_v17) = cntK (F := Ideal) (m ((c : Thread nD τ).loc main_arg0)) := (keepA m ρ c main_v17 (by decide) (by decide) (by decide)).trans (W2_v17 m ρ c)
theorem W5_arg1 : W5 m ρ c (Proc.devRef .tc main_arg1) = (m ((c : Thread nD τ).loc main_arg1)) := (keepA m ρ c main_arg1 (by decide) (by decide) (by decide)).trans (W2_arg1 m ρ c)
theorem W5_arg4 : W5 m ρ c (Proc.devRef .tc main_arg4) = (m ((c : Thread nD τ).loc main_arg4)) := (keepA m ρ c main_arg4 (by decide) (by decide) (by decide)).trans (W2_arg4 m ρ c)
theorem W5_arg5 : W5 m ρ c (Proc.devRef .tc main_arg5) = (m ((c : Thread nD τ).loc main_arg5)) := (keepA m ρ c main_arg5 (by decide) (by decide) (by decide)).trans (W2_arg5 m ρ c)
theorem W5_arg6 : W5 m ρ c (Proc.devRef .tc main_arg6) = (m ((c : Thread nD τ).loc main_arg6)) := (keepA m ρ c main_arg6 (by decide) (by decide) (by decide)).trans (W2_arg6 m ρ c)
theorem W5_arg7 : W5 m ρ c (Proc.devRef .tc main_arg7) = (m ((c : Thread nD τ).loc main_arg7)) := (keepA m ρ c main_arg7 (by decide) (by decide) (by decide)).trans (W2_arg7 m ρ c)
theorem W5_arg8 : W5 m ρ c (Proc.devRef .tc main_arg8) = (m ((c : Thread nD τ).loc main_arg8)) := (keepA m ρ c main_arg8 (by decide) (by decide) (by decide)).trans (W2_arg8 m ρ c)
theorem W5_arg9 : W5 m ρ c (Proc.devRef .tc main_arg9) = (m ((c : Thread nD τ).loc main_arg9)) := (keepA m ρ c main_arg9 (by decide) (by decide) (by decide)).trans (W2_arg9 m ρ c)

/-! ### After the first normalisation -/

theorem V5_v26 : V5 m ρ c main_v26 = G1 m c := W5_v26 m ρ c
theorem V5_v17 : V5 m ρ c main_v17 = cntK (F := Ideal) (m ((c : Thread nD τ).loc main_arg0)) := W5_v17 m ρ c
theorem V5_arg1 : V5 m ρ c main_arg1 = (m ((c : Thread nD τ).loc main_arg1)) := W5_arg1 m ρ c
theorem V5_arg4 : V5 m ρ c main_arg4 = (m ((c : Thread nD τ).loc main_arg4)) := W5_arg4 m ρ c
theorem V5_arg5 : V5 m ρ c main_arg5 = (m ((c : Thread nD τ).loc main_arg5)) := W5_arg5 m ρ c
theorem V5_arg6 : V5 m ρ c main_arg6 = (m ((c : Thread nD τ).loc main_arg6)) := W5_arg6 m ρ c
theorem V5_arg7 : V5 m ρ c main_arg7 = (m ((c : Thread nD τ).loc main_arg7)) := W5_arg7 m ρ c

theorem W6_v27 : W6 m ρ c (Proc.devRef .tc main_v27) = L1 m c :=
  (W6_arr m ρ c 7).trans ((nsl1_final (V5 m ρ) c).trans
    (by rw [V5_v26, V5_v17, V5_arg1, V5_arg4, V5_arg5, V5_arg6, V5_arg7]; rfl))
theorem W6_v1 : W6 m ρ c (Proc.devRef .tc main_v1) = srcK (m ((c : Thread nD τ).loc main_arg0)) := (W6_of_ne m ρ c main_v1 (by decide)).trans (W5_v1 m ρ c)
theorem W6_v5 : W6 m ρ c (Proc.devRef .tc main_v5) = dstK (m ((c : Thread nD τ).loc main_arg0)) := (W6_of_ne m ρ c main_v5 (by decide)).trans (W5_v5 m ρ c)
theorem W6_v12 : W6 m ρ c (Proc.devRef .tc main_v12) = bucketK (m ((c : Thread nD τ).loc main_arg0)) := (W6_of_ne m ρ c main_v12 (by decide)).trans (W5_v12 m ρ c)
theorem W6_v17 : W6 m ρ c (Proc.devRef .tc main_v17) = cntK (F := Ideal) (m ((c : Thread nD τ).loc main_arg0)) :=
  ((W6_arr m ρ c 1).trans (((dat1 (V5 m ρ) c).arrAt_in 1 rfl _).trans (A_eq1 (V5 m ρ) c 1))).trans (W5_v17 m ρ c)
theorem W6_arg8 : W6 m ρ c (Proc.devRef .tc main_arg8) = (m ((c : Thread nD τ).loc main_arg8)) := (W6_of_ne m ρ c main_arg8 (by decide)).trans (W5_arg8 m ρ c)
theorem W6_arg9 : W6 m ρ c (Proc.devRef .tc main_arg9) = (m ((c : Thread nD τ).loc main_arg9)) := (W6_of_ne m ρ c main_arg9 (by decide)).trans (W5_arg9 m ρ c)

/-! ### After the second projection -/

theorem V6_v27 : V6 m ρ c main_v27 = L1 m c := W6_v27 m ρ c
theorem V6_arg8 : V6 m ρ c main_arg8 = (m ((c : Thread nD τ).loc main_arg8)) := W6_arg8 m ρ c
theorem V6_arg9 : V6 m ρ c main_arg9 = (m ((c : Thread nD τ).loc main_arg9)) := W6_arg9 m ρ c

theorem W7_v28 : W7 m ρ c (Proc.devRef .tc main_v28) = P2 m c :=
  (W7_arr m ρ c 3).trans ((proj2_final (V6 m ρ) c).trans (by rw [V6_v27, V6_arg8, V6_arg9]; rfl))
theorem W7_v27 : W7 m ρ c (Proc.devRef .tc main_v27) = L1 m c :=
  ((W7_arr m ρ c 0).trans (((dat2 (V6 m ρ) c).arrAt_in 0 rfl _).trans (A_eq2 (V6 m ρ) c 0))).trans (W6_v27 m ρ c)
theorem W7_v1 : W7 m ρ c (Proc.devRef .tc main_v1) = srcK (m ((c : Thread nD τ).loc main_arg0)) := (W7_of_ne m ρ c main_v1 (by decide)).trans (W6_v1 m ρ c)
theorem W7_v5 : W7 m ρ c (Proc.devRef .tc main_v5) = dstK (m ((c : Thread nD τ).loc main_arg0)) := (W7_of_ne m ρ c main_v5 (by decide)).trans (W6_v5 m ρ c)
theorem W7_v12 : W7 m ρ c (Proc.devRef .tc main_v12) = bucketK (m ((c : Thread nD τ).loc main_arg0)) := (W7_of_ne m ρ c main_v12 (by decide)).trans (W6_v12 m ρ c)
theorem W7_v17 : W7 m ρ c (Proc.devRef .tc main_v17) = cntK (F := Ideal) (m ((c : Thread nD τ).loc main_arg0)) := (W7_of_ne m ρ c main_v17 (by decide)).trans (W6_v17 m ρ c)

/-! ### Through the second gather and sum -/

/-- A buffer none of the three stretches writes. -/
theorem keepB (r : Ref sig .tc) (h1 : r ∉ wr3) (h2 : r ∉ wr3_1) (h3 : r ∉ wr3_2) :
    W10 m ρ c (Proc.devRef .tc r) = W7 m ρ c (Proc.devRef .tc r) :=
  (keep3_2 (W9 m ρ c) r h3).trans ((keep3_1 (W8 m ρ c) r h2).trans (keep3 (W7 m ρ c) r h1))

theorem W8_v29 : W8 m ρ c (Proc.devRef .tc main_v29) = shapeCast S300000x128 (P2 m c) shapeCasts_S100000x384_S300000x128 :=
  (host3_v29 (W7 m ρ c)).trans (by rw [W7_v28])
theorem W8_v32 : W8 m ρ c (Proc.devRef .tc main_v32) = idxRaw (srcK (m ((c : Thread nD τ).loc main_arg0))) (bucketK (m ((c : Thread nD τ).loc main_arg0))) :=
  (host3_v32 (W7 m ρ c)).trans (by rw [W7_v1, W7_v12])
theorem W9_v33 : W9 m ρ c (Proc.devRef .tc main_v33)
    = takeRaw (shapeCast S300000x128 (P2 m c) shapeCasts_S100000x384_S300000x128) (idxRaw (srcK (m ((c : Thread nD τ).loc main_arg0))) (bucketK (m ((c : Thread nD τ).loc main_arg0)))) :=
  (host3_1_v33 (W8 m ρ c)).trans (by rw [W8_v29, W8_v32])
theorem W9_v5 : W9 m ρ c (Proc.devRef .tc main_v5) = dstK (m ((c : Thread nD τ).loc main_arg0)) :=
  (keep3_1 (W8 m ρ c) main_v5 (by decide)).trans ((keep3 (W7 m ρ c) main_v5 (by decide)).trans (W7_v5 m ρ c))
theorem W10_v36 : W10 m ρ c (Proc.devRef .tc main_v36) = G2 m c :=
  (host3_2_v36 (W9 m ρ c)).trans (by rw [W9_v5, W9_v33, G2, aggK_eq])
theorem W10_v17 : W10 m ρ c (Proc.devRef .tc main_v17) = cntK (F := Ideal) (m ((c : Thread nD τ).loc main_arg0)) :=
  (keepB m ρ c main_v17 (by decide) (by decide) (by decide)).trans (W7_v17 m ρ c)
theorem W10_v27 : W10 m ρ c (Proc.devRef .tc main_v27) = L1 m c :=
  (keepB m ρ c main_v27 (by decide) (by decide) (by decide)).trans (W7_v27 m ρ c)
theorem W10_arg10 : W10 m ρ c (Proc.devRef .tc main_arg10) = (m ((c : Thread nD τ).loc main_arg10)) :=
  ((W11_arr m ρ c 3).trans (((dat3 (V10 m ρ) c).arrAt_in 3 rfl _).trans (A_eq3 (V10 m ρ) c 3))).symm.trans (W11_main_arg10 m ρ c)
theorem W10_arg11 : W10 m ρ c (Proc.devRef .tc main_arg11) = (m ((c : Thread nD τ).loc main_arg11)) :=
  ((W11_arr m ρ c 4).trans (((dat3 (V10 m ρ) c).arrAt_in 4 rfl _).trans (A_eq3 (V10 m ρ) c 4))).symm.trans (W11_main_arg11 m ρ c)
theorem W10_arg12 : W10 m ρ c (Proc.devRef .tc main_arg12) = (m ((c : Thread nD τ).loc main_arg12)) :=
  ((W11_arr m ρ c 5).trans (((dat3 (V10 m ρ) c).arrAt_in 5 rfl _).trans (A_eq3 (V10 m ρ) c 5))).symm.trans (W11_main_arg12 m ρ c)
theorem W10_arg13 : W10 m ρ c (Proc.devRef .tc main_arg13) = (m ((c : Thread nD τ).loc main_arg13)) :=
  ((W11_arr m ρ c 6).trans (((dat3 (V10 m ρ) c).arrAt_in 6 rfl _).trans (A_eq3 (V10 m ρ) c 6))).symm.trans (W11_main_arg13 m ρ c)

/-! ### After the second normalisation -/

theorem V10_v36 : V10 m ρ c main_v36 = G2 m c := W10_v36 m ρ c
theorem V10_v17 : V10 m ρ c main_v17 = cntK (F := Ideal) (m ((c : Thread nD τ).loc main_arg0)) := W10_v17 m ρ c
theorem V10_v27 : V10 m ρ c main_v27 = L1 m c := W10_v27 m ρ c
theorem V10_arg10 : V10 m ρ c main_arg10 = (m ((c : Thread nD τ).loc main_arg10)) := W10_arg10 m ρ c
theorem V10_arg11 : V10 m ρ c main_arg11 = (m ((c : Thread nD τ).loc main_arg11)) := W10_arg11 m ρ c
theorem V10_arg12 : V10 m ρ c main_arg12 = (m ((c : Thread nD τ).loc main_arg12)) := W10_arg12 m ρ c
theorem V10_arg13 : V10 m ρ c main_arg13 = (m ((c : Thread nD τ).loc main_arg13)) := W10_arg13 m ρ c

end Fold

/-- The result buffer after the last region holds `kSpec` of the launch contents of the arguments. -/
theorem kernel_result (c : Dev nD) :
    W11 (F := Ideal) m ρ c (Proc.devRef .tc main_v37)
      = kSpec (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) := by
  refine (W11_arr m ρ c 7).trans ((nsl3_final (V10 m ρ) c).trans ?_)
  rw [V10_v36, V10_v17, V10_v27, V10_arg10, V10_arg11, V10_arg12, V10_arg13]
  unfold kSpec G2 P2 L1 G1 P1
  rfl

end Cert.KernelIdeal.Hand

end
-- ==== Proof.RDefs.lean ====
/-
  The reference program's operations grouped into the functions the mathematics speaks of: the edge columns and the
  relation bucket, the three branches' projections Y[r, n, o], the (branch, source) index pairs with negative values
  wrapped, the gathered messages, the aggregate and the in-degree count, and one whole layer after the aggregate
  (degree normalisation, rectifier, skip projection, layer normalisation). `refSpec` composes two rounds.
-/
import proofs.«420726_j90924457657027_1_alg».proof.Proof.Gen.ReferenceIdeal

noncomputable section

namespace Cert.ReferenceIdeal.Hand

open Idealize.ShloMosaic Cert.ReferenceIdeal Cert.ReferenceIdeal.Gen

variable {F : FTy → Type} [FloatOps F]

/-- Column 0 of the edge list: the source node of each edge. -/
def srcR (e : IVec S1600000x3 32) : IVec S1600000 32 :=
  shapeCast S1600000 (extractStridedSlice S1600000x1 ![0, 0] e slices_S1600000x3_S1600000x1_0_0) shapeCasts_S1600000x1_S1600000
/-- Column 1: the relation of each edge. -/
def relR (e : IVec S1600000x3 32) : IVec S1600000 32 :=
  shapeCast S1600000 (extractStridedSlice S1600000x1 ![0, 1] e slices_S1600000x3_S1600000x1_0_1) shapeCasts_S1600000x1_S1600000
/-- Column 2: the destination node of each edge. -/
def dstR (e : IVec S1600000x3 32) : IVec S1600000 32 :=
  shapeCast S1600000 (extractStridedSlice S1600000x1 ![0, 2] e slices_S1600000x3_S1600000x1_0_2) shapeCasts_S1600000x1_S1600000

/-- The relation bucket: [rel ≥ 400] + [rel ≥ 800]. -/
def bucketR (e : IVec S1600000x3 32) : IVec S1600000 32 :=
  addi (extui 32 (cmpi .sge (relR e) (broadcastInDim S1600000 ![] bcast_S_S1600000 (constantI S_ 32 400#32))) natLt_1_32)
    (extui 32 (cmpi .sge (relR e) (broadcastInDim S1600000 ![] bcast_S_S1600000 (constantI S_ 32 800#32))) natLt_1_32)

/-- The three branches' projections, Y[r, n, o] = Σ_d W[r, o, d] · x[n, d] + b[r, o]. -/
def yR (x : FVec F S100000x128 .f32) (W : FVec F S3x128x128 .f32) (b : FVec F S3x128 .f32) : FVec F S3x100000x128 .f32 :=
  addf (transpose S3x100000x128 [0, 2, 1] (Host.dotGeneral dot_S3x128x128_S100000x128_S3x128x100000_2_1_01_0_n_n none W x) transposes_S3x128x100000_S3x100000x128_0_2_1)
    (broadcastInDim S3x100000x128 ![0, 1, 2] bcast_S3x1x128_S3x100000x128_0_1_2 (broadcastInDim S3x1x128 ![0, 2] bcast_S3x128_S3x1x128_0_2 b))

/-- The (branch, source) start-index pairs, a negative branch wrapped by 3 and a negative source by 100000. -/
def idxR (e : IVec S1600000x3 32) : IVec S1600000x2 32 :=
  concatenate S1600000x2 1
    [⟨S1600000x1, broadcastInDim S1600000x1 ![0] bcast_S1600000_S1600000x1_0
        (select (cmpi .slt (bucketR e) (broadcastInDim S1600000 ![] bcast_S_S1600000 (constantI S_ 32 0#32)))
          (addi (bucketR e) (broadcastInDim S1600000 ![] bcast_S_S1600000 (constantI S_ 32 3#32))) (bucketR e))⟩,
     ⟨S1600000x1, broadcastInDim S1600000x1 ![0] bcast_S1600000_S1600000x1_0
        (select (cmpi .slt (srcR e) (broadcastInDim S1600000 ![] bcast_S_S1600000 (constantI S_ 32 0#32)))
          (addi (srcR e) (broadcastInDim S1600000 ![] bcast_S_S1600000 (constantI S_ 32 100000#32))) (srcR e))⟩]
    concatenates_S1600000x1_S1600000x1_S1600000x2_d1

/-- The gathered messages Y[bucket, src, :]. -/
def msgsR (x : FVec F S100000x128 .f32) (W : FVec F S3x128x128 .f32) (b : FVec F S3x128 .f32) (e : IVec S1600000x3 32) : FVec F S1600000x128 .f32 :=
  Host.gather gather_S3x100000x128_S1600000x2_S1600000x128_1_01_n_n_01_1_11128 (yR x W b) (idxR e)

/-- The aggregate: messages summed onto their destination nodes. -/
def aggR (msgs : FVec F S1600000x128 .f32) (e : IVec S1600000x3 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstR e)) msgs

/-- The in-degree of every node: ones scattered onto the destinations. -/
def cntR (e : IVec S1600000x3 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (dstR e))
    (broadcastInDim S1600000 ![] bcast_S_S1600000 (constant S_ .f32 0x3F800000#32))

/-- The row entries before normalisation: relu (agg / max cnt 1) + x · wsᵀ, then + bs. -/
def preR (agg : FVec F S100000x128 .f32) (cnt : FVec F S100000 .f32) (x : FVec F S100000x128 .f32) (ws : FVec F S128x128 .f32)
    (bs : FVec F S128 .f32) : FVec F S100000x128 .f32 :=
  addf (addf
      (maximumf (Host.divf agg (broadcastInDim S100000x128 ![0, 1] bcast_S100000x1_S100000x128_0_1 (broadcastInDim S100000x1 ![0] bcast_S100000_S100000x1_0
          (maximumf cnt (broadcastInDim S100000 ![] bcast_S_S100000 (constant S_ .f32 0x3F800000#32))))))
        (broadcastInDim S100000x128 ![] bcast_S_S100000x128 (constant S_ .f32 0x00000000#32)))
      (Host.dotGeneral dot_S100000x128_S128x128_S100000x128_1_0_0_1_n_n none x (transpose S128x128 [1, 0] ws transposes_S128x128_S128x128_1_0)))
    (broadcastInDim S100000x128 ![0, 1] bcast_S1x128_S100000x128_0_1 (broadcastInDim S1x128 ![1] bcast_S128_S1x128_1 bs))

/-- A row's mean, as a column. -/
def meanR (p : FVec F S100000x128 .f32) : FVec F S100000x1 .f32 :=
  Host.divf (broadcastInDim S100000x1 ![0] bcast_S100000_S100000x1_0 (Host.reduceAdd p (constant S_ .f32 0x00000000#32) reducesTo_S100000x128_S100000_d1 h_S_))
    (broadcastInDim S100000x1 ![] bcast_S_S100000x1 (constant S_ .f32 0x43000000#32))

/-- The layer normalisation of the rows `p`. -/
def normR (p : FVec F S100000x128 .f32) (g be : FVec F S128 .f32) : FVec F S100000x128 .f32 :=
  addf (mulf (mulf (subf p (broadcastInDim S100000x128 ![0, 1] bcast_S100000x1_S100000x128_0_1 (meanR p)))
        (broadcastInDim S100000x128 ![0, 1] bcast_S100000x1_S100000x128_0_1 (Host.rsqrt (addf
          (Host.divf (broadcastInDim S100000x1 ![0] bcast_S100000_S100000x1_0 (Host.reduceAdd
              (mulf (subf p (broadcastInDim S100000x128 ![0, 1] bcast_S100000x1_S100000x128_0_1 (meanR p))) (subf p (broadcastInDim S100000x128 ![0, 1] bcast_S100000x1_S100000x128_0_1 (meanR p))))
              (constant S_ .f32 0x00000000#32) reducesTo_S100000x128_S100000_d1 h_S_))
            (broadcastInDim S100000x1 ![] bcast_S_S100000x1 (constant S_ .f32 0x43000000#32)))
          (broadcastInDim S100000x1 ![] bcast_S_S100000x1 (constant S_ .f32 0x3727C5AC#32))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 be))

/-- One whole layer after the aggregate. -/
def layerR (agg : FVec F S100000x128 .f32) (cnt : FVec F S100000 .f32) (x : FVec F S100000x128 .f32) (ws : FVec F S128x128 .f32)
    (bs g be : FVec F S128 .f32) : FVec F S100000x128 .f32 :=
  normR (preR agg cnt x ws bs) g be

/-- The reference's result: two rounds of project, gather, aggregate and normalise. -/
def refSpec (e : IVec S1600000x3 32) (x : FVec F S100000x128 .f32)
    (W1 : FVec F S3x128x128 .f32) (b1 : FVec F S3x128 .f32) (Ws1 : FVec F S128x128 .f32) (bs1 g1 be1 : FVec F S128 .f32)
    (W2 : FVec F S3x128x128 .f32) (b2 : FVec F S3x128 .f32) (Ws2 : FVec F S128x128 .f32) (bs2 g2 be2 : FVec F S128 .f32) :
    FVec F S100000x128 .f32 :=
  layerR (aggR (msgsR (layerR (aggR (msgsR x W1 b1 e) e) (cntR e) x Ws1 bs1 g1 be1) W2 b2 e) e) (cntR e)
    (layerR (aggR (msgsR x W1 b1 e) e) (cntR e) x Ws1 bs1 g1 be1) Ws2 bs2 g2 be2

end Cert.ReferenceIdeal.Hand

end
-- ==== Proof.RRes.lean ====
/-
  The reference run's result term is `refSpec` of the argument arrays: the run states the composed term of the 169
  operations, and grouping them into the functions of RDefs.lean changes nothing.
-/
import proofs.«420726_j90924457657027_1_alg».proof.Proof.Gen.ReferenceIdeal.Run
import proofs.«420726_j90924457657027_1_alg».proof.Proof.RDefs
import Idealize.ShloMosaic.Lib.ValueIdx

noncomputable section

namespace Cert.ReferenceIdeal.Hand

open Idealize.ShloMosaic Idealize.ShloMosaic.TcCoe Idealize.ShloMosaic.ValueIdx Idealize.SL.Sem
open Cert.ReferenceIdeal Cert.ReferenceIdeal.Gen

variable {F : FTy → Type} [FloatOps F]

set_option maxRecDepth 8192 in
/-- The run's result term, grouped. -/
theorem res_eq (m : (ℓ : Loc nD τ sig) → Buf (Elt F) ℓ) (c : Dev nD) :
    Cert.ReferenceIdeal.Value.res_main_v136 (F := F) m c
      = refSpec (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) := by
  unfold Cert.ReferenceIdeal.Value.res_main_v136 refSpec layerR normR meanR preR aggR msgsR cntR idxR yR bucketR srcR relR dstR
  rfl

end Cert.ReferenceIdeal.Hand

end
-- ==== Proof.RLayer.lean ====
/-
  One layer of the reference after the aggregate, read index by index on the extended reals, is `Spec.layer`:
  the host's divide, maximum, dot product, row sums and rsqrt are the textbook operations, and the two additions
  (aggregate + skip product) + bias re-associate.
-/
import proofs.«420726_j90924457657027_1_alg».proof.Proof.RDefs
import proofs.«420726_j90924457657027_1_alg».proof.Proof.Spec
import Idealize.ShloMosaic.Lib.Pipeline.Value
import Idealize.ShloMosaic.Lib.ValueLayout
import Idealize.ShloMosaic.PureOps.Ideal.Laws

noncomputable section

namespace Cert.ReferenceIdeal.Hand

open Idealize.ShloMosaic Idealize.ShloMosaic.TcCoe Idealize.ShloMosaic.ValueIdx Idealize.SL.Sem
open Cert.ReferenceIdeal Cert.ReferenceIdeal.Gen

/-! ## The layout operations of the layer, read at an index -/

/-- A scalar constant broadcast to any shape reads the extended real its word denotes, everywhere. -/
theorem bcastConst_apply {T : Shape} (h : S_.BroadcastsInDim T ![]) (w : BitVec 32) (j : T.Idx) :
    broadcastInDim T ![] h (constant (F := Ideal) S_ .f32 w) j = Ideal.ofBits .f32 w :=
  broadcastInDim_apply ![] h (constant (F := Ideal) S_ .f32 w) j ix0 (fun a => a.elim0)

/-- A per-node vector made a column: entry (n, 0) is the vector's entry n. -/
theorem bcastVecCol_apply (v : FVec Ideal S100000 .f32) (n : Fin 100000) :
    broadcastInDim S100000x1 ![0] bcast_S100000_S100000x1_0 v (ix2 n (0 : Fin 1)) = v (ix1 n) :=
  broadcastInDim_apply ![0] bcast_S100000_S100000x1_0 v (ix2 n (0 : Fin 1)) (ix1 n) (fun a => by
    match a with
    | ⟨0, _⟩ => rfl)

/-- A column laid along the 128 features: entry (n, o) is the column's entry (n, 0). -/
theorem bcastCol_apply (c : FVec Ideal S100000x1 .f32) (n : Fin 100000) (o : Fin 128) :
    broadcastInDim S100000x128 ![0, 1] bcast_S100000x1_S100000x128_0_1 c (ix2 n o) = c (ix2 n (0 : Fin 1)) :=
  broadcastInDim_apply ![0, 1] bcast_S100000x1_S100000x128_0_1 c (ix2 n o) (ix2 n (0 : Fin 1)) (fun a => by
    match a with
    | ⟨0, _⟩ => rfl
    | ⟨1, _⟩ => rfl)

/-- A per-feature vector laid along every node's row: entry (n, o) is the vector's entry o. -/
theorem bcastRow_apply (v : FVec Ideal S128 .f32) (n : Fin 100000) (o : Fin 128) :
    broadcastInDim S100000x128 ![0, 1] bcast_S1x128_S100000x128_0_1 (broadcastInDim S1x128 ![1] bcast_S128_S1x128_1 v) (ix2 n o)
      = v (ix1 o) := by
  rw [broadcastInDim_apply ![0, 1] bcast_S1x128_S100000x128_0_1 _ (ix2 n o) (ix2 (0 : Fin 1) o) (fun a => by
    match a with
    | ⟨0, _⟩ => rfl
    | ⟨1, _⟩ => rfl)]
  exact broadcastInDim_apply ![1] bcast_S128_S1x128_1 v (ix2 (0 : Fin 1) o) (ix1 o) (fun a => by
    match a with
    | ⟨0, _⟩ => rfl)

/-! ## The row sums and the skip product, read at an index -/

/-- The host's sum over the feature axis from the zero word is the row's sum. -/
theorem rowSum_apply (p : FVec Ideal S100000x128 .f32) (n : Fin 100000) :
    Host.reduceAdd p (constant (F := Ideal) S_ .f32 0x00000000#32) reducesTo_S100000x128_S100000_d1 h_S_ (ix1 n)
      = ∑ o : Fin 128, p (ix2 n o) := by
  show Ideal.hostReduceAdd reducesTo_S100000x128_S100000_d1 p (Ideal.ofBits .f32 0x00000000#32) (ix1 n) = _
  rw [Ideal.hostReduceAdd_single reducesTo_S100000x128_S100000_d1 (by decide : S100000x128.Reduces [1] S100000),
    Ideal.ofBits_zero_f32, zero_add]
  refine Finset.sum_congr rfl fun o _ => congrArg p ?_
  funext a
  match a with
  | ⟨0, _⟩ => rfl
  | ⟨1, _⟩ => rfl

/-- The skip product's left operand index: the node on axis 0 … -/
theorem skip_lhs_0 (j : S100000x128.Idx) (k : dot_S100000x128_S128x128_S100000x128_1_0_0_1_n_n.contr.Idx) :
    (dot_S100000x128_S128x128_S100000x128_1_0_0_1_n_n.lhsIdx j k 0).val = (j 0).val := by
  unfold DotDims.lhsIdx
  rw [dif_neg (show ¬ (0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- … and the contracted coordinate on axis 1. -/
theorem skip_lhs_1 (j : S100000x128.Idx) (k : dot_S100000x128_S128x128_S100000x128_1_0_0_1_n_n.contr.Idx) :
    (dot_S100000x128_S128x128_S100000x128_1_0_0_1_n_n.lhsIdx j k 1).val = (k ⟨0, by decide⟩).val :=
  DotDims.lhsIdx_val_of_single dot_S100000x128_S128x128_S100000x128_1_0_0_1_n_n (cl := 1) rfl j k

/-- The right operand index: the contracted coordinate on axis 0 … -/
theorem skip_rhs_0 (j : S100000x128.Idx) (k : dot_S100000x128_S128x128_S100000x128_1_0_0_1_n_n.contr.Idx) :
    (dot_S100000x128_S128x128_S100000x128_1_0_0_1_n_n.rhsIdx j k 0).val = (k ⟨0, by decide⟩).val :=
  DotDims.rhsIdx_val_of_single dot_S100000x128_S128x128_S100000x128_1_0_0_1_n_n (cr := 0) rfl j k

/-- … and the output feature on axis 1. -/
theorem skip_rhs_1 (j : S100000x128.Idx) (k : dot_S100000x128_S128x128_S100000x128_1_0_0_1_n_n.contr.Idx) :
    (dot_S100000x128_S128x128_S100000x128_1_0_0_1_n_n.rhsIdx j k 1).val = (j 1).val := by
  unfold DotDims.rhsIdx
  rw [dif_neg (show ¬ (1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The host's product of the features with the transposed skip matrix, at (n, o), is Σ_d x[n, d] · ws[o, d]. -/
theorem skipDot_apply (x : FVec Ideal S100000x128 .f32) (ws : FVec Ideal S128x128 .f32) (n : Fin 100000) (o : Fin 128) :
    Host.dotGeneral dot_S100000x128_S128x128_S100000x128_1_0_0_1_n_n none x (transpose S128x128 [1, 0] ws transposes_S128x128_S128x128_1_0) (ix2 n o)
      = ∑ d : Fin 128, x (ix2 n d) * ws (ix2 o d) := by
  show FloatOps.dotGeneral dot_S100000x128_S128x128_S100000x128_1_0_0_1_n_n none _ x _ (ix2 n o) = _
  rw [Ideal.dotGeneral_apply, ← Equiv.sum_comp (contrEquiv1 dot_S100000x128_S128x128_S100000x128_1_0_0_1_n_n 128 rfl rfl).symm]
  refine Finset.sum_congr rfl fun d _ => ?_
  have hd := contrEquiv1_symm_val dot_S100000x128_S128x128_S100000x128_1_0_0_1_n_n 128 rfl rfl d
  have hl : dot_S100000x128_S128x128_S100000x128_1_0_0_1_n_n.lhsIdx (ix2 n o) ((contrEquiv1 dot_S100000x128_S128x128_S100000x128_1_0_0_1_n_n 128 rfl rfl).symm d) = ix2 n d := by
    funext a
    apply Fin.ext
    match a with
    | ⟨0, _⟩ => exact skip_lhs_0 _ _
    | ⟨1, _⟩ => exact (skip_lhs_1 _ _).trans hd
  rw [hl]
  refine congrArg (x (ix2 n d) * ·) ?_
  refine transpose_apply [1, 0] ws transposes_S128x128_S128x128_1_0 _ (ix2 o d) (fun b => ?_)
  match b with
  | ⟨0, _⟩ => exact ((skip_rhs_0 (ix2 n o) _).trans hd).symm
  | ⟨1, _⟩ => exact (skip_rhs_1 (ix2 n o) _).symm

/-! ## The layer, read at an index -/

/-- The host's quotient at an index divides the entries. -/
theorem hostDivf_at {s : Shape} (a b : FVec Ideal s .f32) (i : s.Idx) : Host.divf a b i = Ideal.div (a i) (b i) := rfl

/-- The host's reciprocal square root at an index is the extended reals' one of the entry. -/
theorem hostRsqrt_at {s : Shape} (a : FVec Ideal s .f32) (i : s.Idx) : Host.rsqrt a i = Ideal.rsqrt (a i) := rfl

/-- A row entry before normalisation: the reference adds the bias last, the specification adds it to the skip
    product first; addition on the extended reals is associative. -/
theorem preR_apply (agg : FVec Ideal S100000x128 .f32) (cnt : FVec Ideal S100000 .f32) (x : FVec Ideal S100000x128 .f32)
    (ws : FVec Ideal S128x128 .f32) (bs : FVec Ideal S128 .f32) (n : Fin 100000) (o : Fin 128) :
    preR (F := Ideal) agg cnt x ws bs (ix2 n o) = Spec.pre agg (fun n => cnt (ix1 n)) x ws bs n o := by
  unfold preR Spec.pre
  rw [addf_apply, addf_apply, maximumf_apply, hostDivf_at, bcastCol_apply, bcastVecCol_apply, maximumf_apply,
    bcastConst_apply, bcastConst_apply, skipDot_apply, bcastRow_apply, add_assoc]

/-- A row's mean, read off the column. -/
theorem meanR_apply (p : FVec Ideal S100000x128 .f32) (n : Fin 100000) :
    meanR (F := Ideal) p (ix2 n (0 : Fin 1)) = Ideal.div (∑ o : Fin 128, p (ix2 n o)) Spec.c128 := by
  unfold meanR
  rw [hostDivf_at, bcastVecCol_apply, rowSum_apply, bcastConst_apply]

/-- A centred entry: the row's mean taken off. -/
theorem centredR_apply (p : FVec Ideal S100000x128 .f32) (n : Fin 100000) (o : Fin 128) :
    subf p (broadcastInDim S100000x128 ![0, 1] bcast_S100000x1_S100000x128_0_1 (meanR p)) (ix2 n o)
      = p (ix2 n o) - Ideal.div (∑ o' : Fin 128, p (ix2 n o')) Spec.c128 := by
  rw [subf_apply, bcastCol_apply, meanR_apply]

/-- The row sum of the squared centred entries. -/
theorem varSumR_apply (p : FVec Ideal S100000x128 .f32) (n : Fin 100000) :
    Host.reduceAdd
        (mulf (subf p (broadcastInDim S100000x128 ![0, 1] bcast_S100000x1_S100000x128_0_1 (meanR p)))
          (subf p (broadcastInDim S100000x128 ![0, 1] bcast_S100000x1_S100000x128_0_1 (meanR p))))
        (constant (F := Ideal) S_ .f32 0x00000000#32) reducesTo_S100000x128_S100000_d1 h_S_ (ix1 n)
      = ∑ o : Fin 128, (p (ix2 n o) - Ideal.div (∑ o' : Fin 128, p (ix2 n o')) Spec.c128)
          * (p (ix2 n o) - Ideal.div (∑ o' : Fin 128, p (ix2 n o')) Spec.c128) := by
  rw [rowSum_apply]
  refine Finset.sum_congr rfl fun o _ => ?_
  rw [mulf_apply, centredR_apply]

/-- The layer normalisation of the rows `p`, at (n, o). -/
theorem normR_apply (p : FVec Ideal S100000x128 .f32) (g be : FVec Ideal S128 .f32) (n : Fin 100000) (o : Fin 128) :
    normR (F := Ideal) p g be (ix2 n o)
      = (p (ix2 n o) - Ideal.div (∑ o' : Fin 128, p (ix2 n o')) Spec.c128)
          * Ideal.rsqrt (Ideal.div (∑ o₁ : Fin 128, (p (ix2 n o₁) - Ideal.div (∑ o' : Fin 128, p (ix2 n o')) Spec.c128)
              * (p (ix2 n o₁) - Ideal.div (∑ o' : Fin 128, p (ix2 n o')) Spec.c128)) Spec.c128 + Spec.ceps)
          * g (ix1 o) + be (ix1 o) := by
  unfold normR
  rw [addf_apply, mulf_apply, mulf_apply, centredR_apply, bcastCol_apply, hostRsqrt_at, addf_apply, hostDivf_at,
    bcastVecCol_apply, varSumR_apply, bcastConst_apply, bcastConst_apply, bcastRow_apply, bcastRow_apply]

/-- The reference's layer is the specification's, the count read as a vector. -/
theorem layerR_eq (agg : FVec Ideal S100000x128 .f32) (cnt : FVec Ideal S100000 .f32) (x : FVec Ideal S100000x128 .f32)
    (ws : FVec Ideal S128x128 .f32) (bs g be : FVec Ideal S128 .f32) :
    layerR (F := Ideal) agg cnt x ws bs g be = Spec.layer agg (fun n => cnt (ix1 n)) x ws bs g be := by
  funext i
  obtain ⟨n, o, rfl⟩ : ∃ (n : Fin 100000) (o : Fin 128), i = ix2 n o := ⟨i 0, i 1, eq_ix2 i⟩
  unfold layerR
  rw [normR_apply]
  simp only [preR_apply]
  rfl

end Cert.ReferenceIdeal.Hand

end
-- ==== Proof.Msgs.lean ====
/-
  The two programs gather the same messages when every source index lies in 0 … 99999: the kernel reads row
  3·src + bucket of the lane-dense projection laid out as 300000 rows of 128, the reference reads Y[bucket, src, :],
  and both are Σ_d x[src, d] · W[bucket, :, d] + b[bucket, :]. Hence equal aggregates; and the in-degree counts are
  one scatter-add.
-/
import proofs.«420726_j90924457657027_1_alg».proof.Proof.KDefs
import proofs.«420726_j90924457657027_1_alg».proof.Proof.RDefs
import Idealize.ShloMosaic.Lib.Pipeline.Value
import Idealize.ShloMosaic.Lib.ValueLayout
import Idealize.ShloMosaic.Lib.StableHlo.Predicate
import Idealize.ShloMosaic.PureOps.Ideal.Laws

noncomputable section

namespace Cert.Bridge

open Idealize.ShloMosaic Idealize.ShloMosaic.ValueIdx

open Idealize.ShloMosaic.StableHlo.Predicate Cert.KernelIdeal.Hand Cert.ReferenceIdeal.Hand

/-- A 32-bit word whose signed value lies in 0 … 99999 has that value unsigned. -/
theorem toNat_of_src (s : BitVec 32) (h0 : 0 ≤ s.toInt) (h1 : s.toInt < 100000) : s.toNat < 100000 := by
  have := s.isLt
  rw [BitVec.toInt_eq_toNat_cond] at h0 h1
  split at h0 <;> omega

/-- The sum of two widened bits is 0, 1 or 2. -/
theorem bucket_le (c1 c2 : BitVec 1) : (IntOp.addi (c1.setWidth 32) (c2.setWidth 32)).toNat ≤ 2 := by
  have h1 := toNat_setWidth_bit c1
  have h2 := toNat_setWidth_bit c2
  unfold IntOp.addi
  rw [BitVec.toNat_add, h1, h2]
  split <;> split <;> omega

/-- The row index 3·s + t of a source below 100000 and a bucket at most 2 does not wrap. -/
theorem row_toNat (s t : BitVec 32) (hs : s.toNat < 100000) (ht : t.toNat ≤ 2) :
    (IntOp.addi (IntOp.muli s 3#32) t).toNat = 3 * s.toNat + t.toNat := by
  unfold IntOp.addi IntOp.muli
  rw [BitVec.toNat_add, BitVec.toNat_mul]
  simp only [BitVec.toNat_ofNat]
  omega

/-- A word below 2³¹ is not negative: the wrap of negative indices leaves it alone. -/
theorem wrap_id (i c : BitVec 32) (hi : i.toNat < 2 ^ 31) :
    Scalar.select (IntOp.cmpi .slt i 0#32) (IntOp.addi i c) i = i := by
  have : ¬ IntOp.cmpi .slt i 0#32 = 1#1 := by
    rw [slt_iff_toNat hi (by decide)]
    simp
  exact if_neg this

/-- … and it passes the range test 0 ≤ i ≤ hi when its value is at most hi. -/
theorem inrange_one (i hi : BitVec 32) (hh : hi.toNat < 2 ^ 31) (hi' : i.toNat ≤ hi.toNat) :
    IntOp.andi (IntOp.cmpi .sge i 0#32) (IntOp.cmpi .sle i hi) = 1#1 := by
  have h1 : IntOp.cmpi .sge i 0#32 = 1#1 := (sge_iff_toNat (by omega) (by decide)).2 (by simp)
  have h2 : IntOp.cmpi .sle i hi = 1#1 := (sle_iff_toNat (by omega) hh).2 hi'
  rw [h1, h2]; rfl

/-- The clamped start of a word in range is its value. -/
theorem start_eq (i : BitVec 32) (n m : Nat) (hi : i.toNat = n) (hn : n ≤ m) (hm : m < 2 ^ 31) :
    min i.toInt.toNat m = n := by
  rw [toInt_eq_toNat_of_lt (by omega), Int.toNat_natCast, hi]
  omega

section
variable {α : Type}

/-- The kernel's row gather at (k, o): the operand's row at the clamped start index of edge k, column o. -/
theorem gatherK_apply (y : Cert.KernelIdeal.S300000x128.Idx → α) (idx : IVec Cert.KernelIdeal.S1600000x1 32)
    (k : Fin 1600000) (o : Fin 128) :
    Host.gather Cert.KernelIdeal.gather_S300000x128_S1600000x1_S1600000x128_1_0_n_n_0_1_1128 y idx (ix2 k o)
      = y (ix2 ⟨min (idx (ix2 k 0)).toInt.toNat 299999, by omega⟩ o) := by
  unfold Host.gather
  congr 1
  funext a
  refine Fin.ext ?_
  match a with
  | ⟨0, _⟩ =>
    show Cert.KernelIdeal.gather_S300000x128_S1600000x1_S1600000x128_1_0_n_n_0_1_1128.start (ix2 k o) idx 0 + Cert.KernelIdeal.gather_S300000x128_S1600000x1_S1600000x128_1_0_n_n_0_1_1128.batchCoord (ix2 k o) 0 + Cert.KernelIdeal.gather_S300000x128_S1600000x1_S1600000x128_1_0_n_n_0_1_1128.offCoord (ix2 k o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.KernelIdeal.gather_S300000x128_S1600000x1_S1600000x128_1_0_n_n_0_1_1128.startIndexMap from List.mem_singleton.mpr rfl)]
    have hsi : Cert.KernelIdeal.gather_S300000x128_S1600000x1_S1600000x128_1_0_n_n_0_1_1128.siIdx (ix2 k o)
        ⟨List.idxOf (0 : Fin 2) Cert.KernelIdeal.gather_S300000x128_S1600000x1_S1600000x128_1_0_n_n_0_1_1128.startIndexMap, List.idxOf_lt_length_iff.2 (List.mem_singleton.mpr rfl)⟩ = ix2 k 0 := by
      funext b; refine Fin.ext ?_
      match b with
      | ⟨0, _⟩ => rfl
      | ⟨1, _⟩ => rfl
    rw [hsi]
    rfl
  | ⟨1, _⟩ =>
    show Cert.KernelIdeal.gather_S300000x128_S1600000x1_S1600000x128_1_0_n_n_0_1_1128.start (ix2 k o) idx 1 + Cert.KernelIdeal.gather_S300000x128_S1600000x1_S1600000x128_1_0_n_n_0_1_1128.batchCoord (ix2 k o) 1 + Cert.KernelIdeal.gather_S300000x128_S1600000x1_S1600000x128_1_0_n_n_0_1_1128.offCoord (ix2 k o) 1 = o.val
    rw [GatherDims.batchCoord_eq_zero _ _ _ List.not_mem_nil]
    unfold GatherDims.start
    rw [dif_neg (show ¬ (1 : Fin 2) ∈ Cert.KernelIdeal.gather_S300000x128_S1600000x1_S1600000x128_1_0_n_n_0_1_1128.startIndexMap from by decide)]
    simp only [Nat.add_zero, Nat.zero_add]
    rfl

end

/-- Column c of the edge list, as a vector, at edge k. -/
theorem col_apply (e : IVec Cert.KernelIdeal.S1600000x3 32) (c : Fin 3) (k : Fin 1600000)
    (h1 : Cert.KernelIdeal.S1600000x3.Slices ![0, c.val] Cert.KernelIdeal.S1600000x1)
    (h2 : Cert.KernelIdeal.S1600000x1.ShapeCasts Cert.KernelIdeal.S1600000) :
    shapeCast Cert.KernelIdeal.S1600000 (extractStridedSlice Cert.KernelIdeal.S1600000x1 ![0, c.val] e h1) h2 (ix1 k) = e (ix2 k c) := by
  refine (shapeCast_apply _ _ (ix1 k) (ix2 k 0) ?_).trans ?_
  · rw [Shape.rowMajor_val_one, Shape.rowMajor_val_two]
    show k.val * 1 + 0 = k.val
    omega
  · refine extractStridedSlice_apply _ _ _ _ (ix2 k c) fun a => ?_
    match a with
    | ⟨0, _⟩ => show k.val = 0 + k.val; omega
    | ⟨1, _⟩ => show c.val = c.val + 0; omega

theorem srcK_apply (e : IVec Cert.KernelIdeal.S1600000x3 32) (k : Fin 1600000) : srcK e (ix1 k) = e (ix2 k 0) :=
  col_apply e 0 k _ _
theorem relK_apply (e : IVec Cert.KernelIdeal.S1600000x3 32) (k : Fin 1600000) : relK e (ix1 k) = e (ix2 k 1) :=
  col_apply e 1 k _ _

/-- The bucket word of edge k: two widened comparison bits added. -/
theorem bucketK_apply (e : IVec Cert.KernelIdeal.S1600000x3 32) (k : Fin 1600000) :
    bucketK e (ix1 k) = IntOp.addi ((IntOp.cmpi .sge (e (ix2 k 1)) 400#32).setWidth 32) ((IntOp.cmpi .sge (e (ix2 k 1)) 800#32).setWidth 32) := by
  rw [← relK_apply e k]; rfl

/-- The row word of edge k. -/
theorem idxK_apply (e : IVec Cert.KernelIdeal.S1600000x3 32) (k : Fin 1600000) :
    idxK e (ix1 k) = IntOp.addi (IntOp.muli (e (ix2 k 0)) 3#32) (bucketK e (ix1 k)) := by
  rw [← srcK_apply e k]; rfl

/-- The wrapped start-index column at (k, 0). -/
theorem wrapK_apply (i : IVec Cert.KernelIdeal.S1600000 32) (j : Cert.KernelIdeal.S1600000x1.Idx) :
    wrapK i j = Scalar.select (IntOp.cmpi .slt (i (ix1 (j 0))) 0#32) (IntOp.addi (i (ix1 (j 0))) 300000#32) (i (ix1 (j 0))) := by
  unfold wrapK
  refine (broadcastInDim_apply _ _ _ j (ix1 (j 0)) fun a => ?_).trans rfl
  match a with
  | ⟨0, _⟩ => rfl

theorem srcR_eq (e : IVec Cert.KernelIdeal.S1600000x3 32) : srcR e = srcK e := rfl
theorem bucketR_eq (e : IVec Cert.KernelIdeal.S1600000x3 32) : bucketR e = bucketK e := rfl

section
variable {α : Type}

/-- The reference's gather at (k, o): the operand at the clamped (branch, source) pair of edge k, feature o. -/
theorem gatherR_apply (Y : Cert.ReferenceIdeal.S3x100000x128.Idx → α) (idx : IVec Cert.ReferenceIdeal.S1600000x2 32)
    (k : Fin 1600000) (o : Fin 128) :
    Host.gather Cert.ReferenceIdeal.gather_S3x100000x128_S1600000x2_S1600000x128_1_01_n_n_01_1_11128 Y idx (ix2 k o)
      = Y (ix3 ⟨min (idx (ix2 k 0)).toInt.toNat 2, by omega⟩ ⟨min (idx (ix2 k 1)).toInt.toNat 99999, by omega⟩ o) := by
  unfold Host.gather
  congr 1
  funext a
  refine Fin.ext ?_
  match a with
  | ⟨0, _⟩ =>
    show Cert.ReferenceIdeal.gather_S3x100000x128_S1600000x2_S1600000x128_1_01_n_n_01_1_11128.start (ix2 k o) idx 0 + Cert.ReferenceIdeal.gather_S3x100000x128_S1600000x2_S1600000x128_1_01_n_n_01_1_11128.batchCoord (ix2 k o) 0 + Cert.ReferenceIdeal.gather_S3x100000x128_S1600000x2_S1600000x128_1_01_n_n_01_1_11128.offCoord (ix2 k o) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ Cert.ReferenceIdeal.gather_S3x100000x128_S1600000x2_S1600000x128_1_01_n_n_01_1_11128.startIndexMap from by decide)]
    have hsi : Cert.ReferenceIdeal.gather_S3x100000x128_S1600000x2_S1600000x128_1_01_n_n_01_1_11128.siIdx (ix2 k o)
        ⟨List.idxOf (0 : Fin 3) Cert.ReferenceIdeal.gather_S3x100000x128_S1600000x2_S1600000x128_1_01_n_n_01_1_11128.startIndexMap, List.idxOf_lt_length_iff.2 (by decide)⟩ = ix2 k 0 := by
      funext b; refine Fin.ext ?_
      match b with
      | ⟨0, _⟩ => rfl
      | ⟨1, _⟩ => rfl
    rw [hsi]
    rfl
  | ⟨1, _⟩ =>
    show Cert.ReferenceIdeal.gather_S3x100000x128_S1600000x2_S1600000x128_1_01_n_n_01_1_11128.start (ix2 k o) idx 1 + Cert.ReferenceIdeal.gather_S3x100000x128_S1600000x2_S1600000x128_1_01_n_n_01_1_11128.batchCoord (ix2 k o) 1 + Cert.ReferenceIdeal.gather_S3x100000x128_S1600000x2_S1600000x128_1_01_n_n_01_1_11128.offCoord (ix2 k o) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ Cert.ReferenceIdeal.gather_S3x100000x128_S1600000x2_S1600000x128_1_01_n_n_01_1_11128.startIndexMap from by decide)]
    have hsi : Cert.ReferenceIdeal.gather_S3x100000x128_S1600000x2_S1600000x128_1_01_n_n_01_1_11128.siIdx (ix2 k o)
        ⟨List.idxOf (1 : Fin 3) Cert.ReferenceIdeal.gather_S3x100000x128_S1600000x2_S1600000x128_1_01_n_n_01_1_11128.startIndexMap, List.idxOf_lt_length_iff.2 (by decide)⟩ = ix2 k 1 := by
      funext b; refine Fin.ext ?_
      match b with
      | ⟨0, _⟩ => rfl
      | ⟨1, _⟩ => rfl
    rw [hsi]
    rfl
  | ⟨2, _⟩ =>
    show Cert.ReferenceIdeal.gather_S3x100000x128_S1600000x2_S1600000x128_1_01_n_n_01_1_11128.start (ix2 k o) idx 2 + Cert.ReferenceIdeal.gather_S3x100000x128_S1600000x2_S1600000x128_1_01_n_n_01_1_11128.batchCoord (ix2 k o) 2 + Cert.ReferenceIdeal.gather_S3x100000x128_S1600000x2_S1600000x128_1_01_n_n_01_1_11128.offCoord (ix2 k o) 2 = o.val
    rw [GatherDims.batchCoord_eq_zero _ _ _ List.not_mem_nil]
    unfold GatherDims.start
    rw [dif_neg (show ¬ (2 : Fin 3) ∈ Cert.ReferenceIdeal.gather_S3x100000x128_S1600000x2_S1600000x128_1_01_n_n_01_1_11128.startIndexMap from by decide)]
    simp only [Nat.add_zero, Nat.zero_add]
    rfl

end

theorem dotR_lhs_0 (j : Cert.ReferenceIdeal.S3x128x100000.Idx) (q : Cert.ReferenceIdeal.dot_S3x128x128_S100000x128_S3x128x100000_2_1_01_0_n_n.contr.Idx) : (Cert.ReferenceIdeal.dot_S3x128x128_S100000x128_S3x128x100000_2_1_01_0_n_n.lhsIdx j q 0).val = (j 0).val := rfl
theorem dotR_lhs_1 (j : Cert.ReferenceIdeal.S3x128x100000.Idx) (q : Cert.ReferenceIdeal.dot_S3x128x128_S100000x128_S3x128x100000_2_1_01_0_n_n.contr.Idx) : (Cert.ReferenceIdeal.dot_S3x128x128_S100000x128_S3x128x100000_2_1_01_0_n_n.lhsIdx j q 1).val = (j 1).val := rfl
theorem dotR_rhs_0 (j : Cert.ReferenceIdeal.S3x128x100000.Idx) (q : Cert.ReferenceIdeal.dot_S3x128x128_S100000x128_S3x128x100000_2_1_01_0_n_n.contr.Idx) : (Cert.ReferenceIdeal.dot_S3x128x128_S100000x128_S3x128x100000_2_1_01_0_n_n.rhsIdx j q 0).val = (j 2).val := rfl

/-- The reference's product W · xᵀ at (r, o, s): the sum over the 128 input features. -/
theorem dotR_apply (x : FVec Ideal Cert.ReferenceIdeal.S100000x128 .f32) (W : FVec Ideal Cert.ReferenceIdeal.S3x128x128 .f32)
    (r : Fin 3) (o : Fin 128) (s : Fin 100000) :
    Host.dotGeneral (F := Ideal) Cert.ReferenceIdeal.dot_S3x128x128_S100000x128_S3x128x100000_2_1_01_0_n_n none W x (ix3 r o s) = ∑ d : Fin 128, W (ix3 r o d) * x (ix2 s d) := by
  show FloatOps.dotGeneral Cert.ReferenceIdeal.dot_S3x128x128_S100000x128_S3x128x100000_2_1_01_0_n_n none _ W x (ix3 r o s) = _
  rw [Ideal.dotGeneral_apply, ← Equiv.sum_comp (contrEquiv1 Cert.ReferenceIdeal.dot_S3x128x128_S100000x128_S3x128x100000_2_1_01_0_n_n 128 rfl rfl).symm]
  refine Finset.sum_congr rfl fun d _ => ?_
  have hl : Cert.ReferenceIdeal.dot_S3x128x128_S100000x128_S3x128x100000_2_1_01_0_n_n.lhsIdx (ix3 r o s) ((contrEquiv1 Cert.ReferenceIdeal.dot_S3x128x128_S100000x128_S3x128x100000_2_1_01_0_n_n 128 rfl rfl).symm d) = ix3 r o d := by
    funext a; refine Fin.ext ?_
    match a with
    | ⟨0, _⟩ => exact dotR_lhs_0 _ _
    | ⟨1, _⟩ => exact dotR_lhs_1 _ _
    | ⟨2, _⟩ => exact (DotDims.lhsIdx_val_of_single Cert.ReferenceIdeal.dot_S3x128x128_S100000x128_S3x128x100000_2_1_01_0_n_n (cl := 2) rfl _ _).trans (contrEquiv1_symm_val Cert.ReferenceIdeal.dot_S3x128x128_S100000x128_S3x128x100000_2_1_01_0_n_n 128 rfl rfl d)
  have hr : Cert.ReferenceIdeal.dot_S3x128x128_S100000x128_S3x128x100000_2_1_01_0_n_n.rhsIdx (ix3 r o s) ((contrEquiv1 Cert.ReferenceIdeal.dot_S3x128x128_S100000x128_S3x128x100000_2_1_01_0_n_n 128 rfl rfl).symm d) = ix2 s d := by
    funext a; refine Fin.ext ?_
    match a with
    | ⟨0, _⟩ => exact dotR_rhs_0 _ _
    | ⟨1, _⟩ => exact (DotDims.rhsIdx_val_of_single Cert.ReferenceIdeal.dot_S3x128x128_S100000x128_S3x128x100000_2_1_01_0_n_n (cr := 1) rfl _ _).trans (contrEquiv1_symm_val Cert.ReferenceIdeal.dot_S3x128x128_S100000x128_S3x128x100000_2_1_01_0_n_n 128 rfl rfl d)
  rw [hl, hr]

/-- The three branches' projections at (r, s, o). -/
theorem yR_apply (x : FVec Ideal Cert.ReferenceIdeal.S100000x128 .f32) (W : FVec Ideal Cert.ReferenceIdeal.S3x128x128 .f32)
    (b : FVec Ideal Cert.ReferenceIdeal.S3x128 .f32) (r : Fin 3) (s : Fin 100000) (o : Fin 128) :
    yR x W b (ix3 r s o) = (∑ d : Fin 128, W (ix3 r o d) * x (ix2 s d)) + b (ix2 r o) := by
  unfold yR
  rw [addf_apply]
  congr 1
  · refine (transpose_apply _ _ _ (ix3 r s o) (ix3 r o s) fun a => ?_).trans (dotR_apply x W r o s)
    match a with
    | ⟨0, _⟩ => rfl
    | ⟨1, _⟩ => rfl
    | ⟨2, _⟩ => rfl
  · refine (broadcastInDim_apply _ _ _ (ix3 r s o) (ix3 r (0 : Fin 1) o) fun a => ?_).trans ?_
    · match a with
      | ⟨0, _⟩ => rfl
      | ⟨1, _⟩ => rfl
      | ⟨2, _⟩ => rfl
    · refine broadcastInDim_apply _ _ _ (ix3 r (0 : Fin 1) o) (ix2 r o) fun a => ?_
      match a with
      | ⟨0, _⟩ => rfl
      | ⟨1, _⟩ => rfl

/-- A left fold by `and` from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- Start indices that all lie in 0 … 299999 pass the range test at every edge. -/
theorem inbK_one (i5 : IVec Cert.KernelIdeal.S1600000x1 32) (h : ∀ j, (i5 j).toNat ≤ 299999) (j : Cert.KernelIdeal.S1600000.Idx) :
    inbK i5 j = 1#1 := by
  unfold inbK
  rw [Host.reduce_eq_foldl]
  refine foldl_andi_one _ _ fun i _ => ?_
  exact inrange_one (i5 i) 299999#32 (by decide) (h i)

/-- The reference's start-index pair of edge k: its branch column … -/
theorem idxR_apply0 (e : IVec Cert.ReferenceIdeal.S1600000x3 32) (k : Fin 1600000) :
    idxR e (ix2 k 0) = Scalar.select (IntOp.cmpi .slt (bucketR e (ix1 k)) 0#32) (IntOp.addi (bucketR e (ix1 k)) 3#32) (bucketR e (ix1 k)) := by
  unfold idxR
  refine (concatenate_pair_apply_left (t := Cert.ReferenceIdeal.S1600000x2) (s₁ := Cert.ReferenceIdeal.S1600000x1) (s₂ := Cert.ReferenceIdeal.S1600000x1)
    (1 : Fin 2) _ _ _ (ix2 k (0 : Fin 2)) rfl (ix2 k (0 : Fin 1)) (fun b => ?_)).trans ?_
  · match b with
    | ⟨0, _⟩ => rfl
    | ⟨1, _⟩ => rfl
  refine (broadcastInDim_apply _ _ _ (ix2 k 0) (ix1 k) fun a => ?_).trans rfl
  match a with
  | ⟨0, _⟩ => rfl

/-- … and its source column. -/
theorem idxR_apply1 (e : IVec Cert.ReferenceIdeal.S1600000x3 32) (k : Fin 1600000) :
    idxR e (ix2 k 1) = Scalar.select (IntOp.cmpi .slt (srcR e (ix1 k)) 0#32) (IntOp.addi (srcR e (ix1 k)) 100000#32) (srcR e (ix1 k)) := by
  unfold idxR
  refine (concatenate_pair_apply_right (t := Cert.ReferenceIdeal.S1600000x2) (s₁ := Cert.ReferenceIdeal.S1600000x1) (s₂ := Cert.ReferenceIdeal.S1600000x1)
    (1 : Fin 2) _ _ _ (ix2 k (1 : Fin 2)) rfl rfl (ix2 k (0 : Fin 1)) (fun b hb => ?_) rfl).trans ?_
  · match b with
    | ⟨0, _⟩ => rfl
    | ⟨1, _⟩ => exact absurd rfl hb
  refine (broadcastInDim_apply _ _ _ (ix2 k 0) (ix1 k) fun a => ?_).trans rfl
  match a with
  | ⟨0, _⟩ => rfl

section
variable {α : Type}

/-- The kernel's row gather read at a row named by its value. -/
theorem gatherK_at (y : Cert.KernelIdeal.S300000x128.Idx → α) (idx : IVec Cert.KernelIdeal.S1600000x1 32)
    (k : Fin 1600000) (o : Fin 128) (r : Fin 300000) (hr : min (idx (ix2 k 0)).toInt.toNat 299999 = r.val) :
    Host.gather Cert.KernelIdeal.gather_S300000x128_S1600000x1_S1600000x128_1_0_n_n_0_1_1128 y idx (ix2 k o) = y (ix2 r o) := by
  rw [gatherK_apply]
  congr 1
  funext a
  refine Fin.ext ?_
  match a with
  | ⟨0, _⟩ => exact hr
  | ⟨1, _⟩ => rfl

/-- The reference's gather read at a (branch, source) pair named by its values. -/
theorem gatherR_at (Y : Cert.ReferenceIdeal.S3x100000x128.Idx → α) (idx : IVec Cert.ReferenceIdeal.S1600000x2 32)
    (k : Fin 1600000) (o : Fin 128) (t : Fin 3) (s : Fin 100000)
    (ht : min (idx (ix2 k 0)).toInt.toNat 2 = t.val) (hs : min (idx (ix2 k 1)).toInt.toNat 99999 = s.val) :
    Host.gather Cert.ReferenceIdeal.gather_S3x100000x128_S1600000x2_S1600000x128_1_01_n_n_01_1_11128 Y idx (ix2 k o) = Y (ix3 t s o) := by
  rw [gatherR_apply]
  congr 1
  funext a
  refine Fin.ext ?_
  match a with
  | ⟨0, _⟩ => exact ht
  | ⟨1, _⟩ => exact hs
  | ⟨2, _⟩ => rfl

end

/-- Row 3·s + t, column o of the 300000-row view of the lane-dense projection is node s, branch t, feature o:
    both are position 384·s + 128·t + o of the row-major order. -/
theorem proj_row (x : FVec Ideal Cert.KernelIdeal.S100000x128 .f32) (W : FVec Ideal Cert.KernelIdeal.S3x128x128 .f32)
    (b : FVec Ideal Cert.KernelIdeal.S3x128 .f32) (r : Fin 300000) (o : Fin 128) (s : Fin 100000) (t : Fin 3)
    (h : r.val = 3 * s.val + t.val) :
    shapeCast Cert.KernelIdeal.S300000x128 (Cert.Spec.proj x W b) Cert.KernelIdeal.Gen.shapeCasts_S100000x384_S300000x128 (ix2 r o)
      = Cert.Spec.projAt x W b s t o := by
  have hl : 128 * t.val + o.val < 384 := by omega
  refine (shapeCast_apply _ _ (ix2 r o) (ix2 s ⟨128 * t.val + o.val, hl⟩) ?_).trans ?_
  · rw [Shape.rowMajor_val_two, Shape.rowMajor_val_two]
    show s.val * 384 + (128 * t.val + o.val) = r.val * 128 + o.val
    omega
  · have e1 : Cert.Spec.laneBranch ⟨128 * t.val + o.val, hl⟩ = t :=
      Fin.ext (by show (128 * t.val + o.val) / 128 = t.val; omega)
    have e2 : Cert.Spec.laneFeature ⟨128 * t.val + o.val, hl⟩ = o :=
      Fin.ext (by show (128 * t.val + o.val) % 128 = o.val; omega)
    show Cert.Spec.projAt x W b s (Cert.Spec.laneBranch ⟨128 * t.val + o.val, hl⟩) (Cert.Spec.laneFeature ⟨128 * t.val + o.val, hl⟩) = _
    rw [e1, e2]

/-- The two programs gather the same messages: at edge k and feature o both read the projection of the edge's source
    node in the edge's bucket, Σ_d x[s, d] · W[t, o, d] + b[t, o]. -/
theorem takeK_eq (e : IVec Cert.KernelIdeal.S1600000x3 32)
    (hsrc : ∀ k : Fin 1600000, 0 ≤ (e (ix2 k 0)).toInt ∧ (e (ix2 k 0)).toInt < 100000)
    (x : FVec Ideal Cert.KernelIdeal.S100000x128 .f32) (W : FVec Ideal Cert.KernelIdeal.S3x128x128 .f32) (b : FVec Ideal Cert.KernelIdeal.S3x128 .f32) :
    takeK (F := Ideal) (Cert.Spec.proj x W b) e = msgsR x W b e := by
  -- every edge: its source below 100000, its bucket at most 2, its row word 3·s + t unwrapped
  have hS : ∀ k : Fin 1600000, (e (ix2 k 0)).toNat < 100000 := fun k => toNat_of_src _ (hsrc k).1 (hsrc k).2
  have hB : ∀ k : Fin 1600000, (bucketK e (ix1 k)).toNat ≤ 2 := fun k => by rw [bucketK_apply]; exact bucket_le _ _
  have hI : ∀ k : Fin 1600000, (idxK e (ix1 k)).toNat = 3 * (e (ix2 k 0)).toNat + (bucketK e (ix1 k)).toNat := fun k => by
    rw [idxK_apply]; exact row_toNat _ _ (hS k) (hB k)
  have hW : ∀ j : Cert.KernelIdeal.S1600000x1.Idx, wrapK (idxK e) j = idxK e (ix1 (j 0)) := fun j => by
    rw [wrapK_apply]
    exact wrap_id _ _ (by have := hI (j 0); have := hS (j 0); have := hB (j 0); omega)
  funext j
  obtain ⟨k, o, rfl⟩ : ∃ (k : Fin 1600000) (o : Fin 128), j = ix2 k o := ⟨j 0, j 1, eq_ix2 j⟩
  have hs := hS k
  have hb := hB k
  have hi := hI k
  have hWk : wrapK (idxK e) (ix2 k 0) = idxK e (ix1 k) := hW (ix2 k 0)
  -- the kernel's range mask is set at this edge
  have hmask : broadcastInDim Cert.KernelIdeal.S1600000x128 ![0] Cert.KernelIdeal.Gen.bcast_S1600000_S1600000x128_0
      (inbK (wrapK (idxK e))) (ix2 k o) = 1#1 := by
    refine (broadcastInDim_apply _ _ _ (ix2 k o) (ix1 k) fun a => ?_).trans ?_
    · match a with
      | ⟨0, _⟩ => rfl
    · exact inbK_one _ (fun j => by rw [hW j]; have := hI (j 0); have := hS (j 0); have := hB (j 0); omega) _
  -- the source node and the bucket as indices
  let s : Fin 100000 := ⟨(e (ix2 k 0)).toNat, hs⟩
  let t : Fin 3 := ⟨(bucketK e (ix1 k)).toNat, by omega⟩
  -- the kernel reads row 3·s + t of the 300000-row view
  have hK : takeK (F := Ideal) (Cert.Spec.proj x W b) e (ix2 k o) = Cert.Spec.projAt x W b s t o := by
    unfold takeK
    rw [select_apply, hmask, select_one]
    have hr : min (wrapK (idxK e) (ix2 k 0)).toInt.toNat 299999 = 3 * s.val + t.val := by
      rw [hWk]; exact start_eq _ _ _ hi (by omega) (by decide)
    refine (gatherK_at _ _ k o ⟨3 * s.val + t.val, by omega⟩ hr).trans ?_
    exact proj_row x W b _ o s t rfl
  -- the reference reads Y[t, s, :]
  have hR : msgsR x W b e (ix2 k o) = (∑ d : Fin 128, W (ix3 t o d) * x (ix2 s d)) + b (ix2 t o) := by
    have ht' : min (idxR e (ix2 k 0)).toInt.toNat 2 = t.val := by
      rw [idxR_apply0, bucketR_eq e, wrap_id _ _ (by omega)]
      exact start_eq _ _ _ rfl hb (by decide)
    have hs' : min (idxR e (ix2 k 1)).toInt.toNat 99999 = s.val := by
      rw [idxR_apply1, srcR_eq e, srcK_apply, wrap_id _ _ (by omega)]
      exact start_eq _ _ _ rfl (by omega) (by decide)
    unfold msgsR
    rw [gatherR_at _ _ k o t s ht' hs', yR_apply]
  rw [hK, hR]
  unfold Cert.Spec.projAt
  exact congrArg (fun z : EReal => z + b (ix2 t o)) (Finset.sum_congr rfl fun d _ => mul_comm _ _)

/-- Under the range of the source column, the kernel's aggregate of its own projection is the reference's aggregate of its gathered messages. -/
theorem agg_eq (e : IVec Cert.KernelIdeal.S1600000x3 32)
    (hsrc : ∀ k : Fin 1600000, 0 ≤ (e (ix2 k 0)).toInt ∧ (e (ix2 k 0)).toInt < 100000)
    (x : FVec Ideal Cert.KernelIdeal.S100000x128 .f32) (W : FVec Ideal Cert.KernelIdeal.S3x128x128 .f32) (b : FVec Ideal Cert.KernelIdeal.S3x128 .f32) :
    Cert.KernelIdeal.Hand.aggK (F := Ideal) (Cert.Spec.proj x W b) e
      = Cert.ReferenceIdeal.Hand.aggR (F := Ideal) (Cert.ReferenceIdeal.Hand.msgsR x W b e) e := by
  show aggR (F := Ideal) (takeK (F := Ideal) (Cert.Spec.proj x W b) e) e = _
  rw [takeK_eq e hsrc x W b]

/-- The in-degree counts agree entry by entry (the kernel's is the reference's vector reshaped to a column). -/
theorem cnt_eq (e : IVec Cert.KernelIdeal.S1600000x3 32) :
    (fun n : Fin 100000 => Cert.KernelIdeal.Hand.cntK (F := Ideal) e (ix2 n 0))
      = fun n : Fin 100000 => Cert.ReferenceIdeal.Hand.cntR (F := Ideal) e (ix1 n) := by
  funext n
  unfold Cert.KernelIdeal.Hand.cntK Cert.ReferenceIdeal.Hand.cntR
  refine (shapeCast_apply _ _ (ix2 n 0) (ix1 n) ?_).trans ?_
  · rw [Shape.rowMajor_val_one, Shape.rowMajor_val_two]
    show n.val = n.val * 1 + 0
    omega
  · rfl

end Cert.Bridge

end
-- ==== Proof.PreSrc.lean ====
/-
  The precondition's last conjunct read back: every entry of the edge list's source column lies in 0 … 99999.
-/
import proofs.«420726_j90924457657027_1_alg».proof.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.Bridge

open Idealize.ShloMosaic Idealize.ShloMosaic.ValueIdx Cert.Pre_finite_inputs

open Cert.Pre_finite_inputs.Facts

/-- The source column as the precondition reads it — column 0 sliced out of the edge list, then flattened — is, at
    position k, the edge list's entry (k, 0). -/
theorem src_read [Cert.Pre_finite_inputs.Facts] (a0 : IVec S1600000x3 32) (k : Fin 1600000) :
    shapeCast S1600000 (extractStridedSlice S1600000x1 ![0, 0] a0 slices_S1600000x3_S1600000x1_0_0)
      shapeCasts_S1600000x1_S1600000 (ix1 k) = a0 (ix2 k 0) := by
  refine (shapeCast_apply _ _ (ix1 k) (ix2 k (0 : Fin 1)) ?_).trans ?_
  · rw [Shape.rowMajor_val_two, Shape.rowMajor_val_one]
    show k.val * 1 + 0 = k.val
    omega
  · refine extractStridedSlice_apply _ _ _ _ (ix2 k (0 : Fin 3)) fun a => ?_
    match a with
    | ⟨0, _⟩ => show k.val = 0 + k.val; omega
    | ⟨1, _⟩ => show (0 : Nat) = 0 + 0; omega

/-- Where the precondition holds, the source column is in range. -/
theorem src_range [Cert.Pre_finite_inputs.Facts] (a0 : IVec S1600000x3 32) (a1 : FVec Ideal S100000x128 .f32)
    (a2 : FVec Ideal S3x128x128 .f32) (a3 : FVec Ideal S3x128 .f32) (a4 : FVec Ideal S128x128 .f32) (a5 a6 a7 : FVec Ideal S128 .f32)
    (a8 : FVec Ideal S3x128x128 .f32) (a9 : FVec Ideal S3x128 .f32) (a10 : FVec Ideal S128x128 .f32) (a11 a12 a13 : FVec Ideal S128 .f32)
    (h : Cert.Pre_finite_inputs.fn (F := Ideal) a0 a1 a2 a3 a4 a5 a6 a7 a8 a9 a10 a11 a12 a13 = fun _ => 1#1) :
    ∀ k : Fin 1600000, 0 ≤ (a0 (ix2 k 0)).toInt ∧ (a0 (ix2 k 0)).toInt < 100000 := by
  intro k
  -- the precondition's value at the one scalar index; its last conjunct is the second operand of the outermost and
  have e := congrFun h ix0
  have e73 := (IntOp.andi_eq_one.1 e).2
  -- the jnp.all: the scalar shape has one index, so the reduce by and being 1 makes the mask 1 at every position, k's too
  haveI : Subsingleton S_.Idx := ⟨fun a b => funext fun d => d.elim0⟩
  have e72 := Host.reduce_andi_all _ _ _ _ ix0 e73 (ix1 k)
  -- the mask at k is (src[k] ≥ 0) and (src[k] < 100000), the bounds broadcast scalars
  obtain ⟨h67, h71⟩ := IntOp.andi_eq_one.1 e72
  have g0 : IntOp.cmpi .sge (a0 (ix2 k 0)) 0#32 = 1#1 := by rw [← src_read a0 k]; exact h67
  have g1 : IntOp.cmpi .slt (a0 (ix2 k 0)) 100000#32 = 1#1 := by rw [← src_read a0 k]; exact h71
  rw [IntOp.cmpi_sge] at g0
  rw [IntOp.cmpi_slt] at g1
  exact ⟨g0, g1⟩

end Cert.Bridge

end
-- ==== Proof.lean ====
/-
  The certificate's claims assembled. The frames of the two kernel programs are the generated ones; the reference's
  frame is its generated run with the result dropped; the idealization ledger is empty. The value claim: under the
  precondition (finite floats, and every source index of the edge list in 0 … 99999) the kernel program's result,
  read back through its four regions and the host operations between them (`kSpec`), is the reference's result
  (`refSpec`): the reference's layer is the specification's layer, the two gathers read the same projected rows, and
  the in-degree counts are one scatter-add.
-/
import proofs.«420726_j90924457657027_1_alg».proof.Defs
import proofs.«420726_j90924457657027_1_alg».proof.Proof.Gen.Kernel
import proofs.«420726_j90924457657027_1_alg».proof.Proof.Gen.Kernel.Frame
import proofs.«420726_j90924457657027_1_alg».proof.Proof.Gen.KernelIdeal
import proofs.«420726_j90924457657027_1_alg».proof.Proof.Gen.KernelIdeal.Frame
import proofs.«420726_j90924457657027_1_alg».proof.Proof.Gen.ReferenceIdeal
import proofs.«420726_j90924457657027_1_alg».proof.Proof.Gen.ReferenceIdeal.Run
import proofs.«420726_j90924457657027_1_alg».proof.Proof.Gen.Pre_finite_inputs
import proofs.«420726_j90924457657027_1_alg».proof.Proof.KRun
import proofs.«420726_j90924457657027_1_alg».proof.Proof.KFold
import proofs.«420726_j90924457657027_1_alg».proof.Proof.RRes
import proofs.«420726_j90924457657027_1_alg».proof.Proof.RLayer
import proofs.«420726_j90924457657027_1_alg».proof.Proof.Msgs
import proofs.«420726_j90924457657027_1_alg».proof.Proof.PreSrc
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two grouped results are one function of the arguments where the source column is in range. -/
theorem spec_eq (e : IVec Cert.KernelIdeal.S1600000x3 32)
    (hsrc : ∀ k : Fin 1600000, 0 ≤ (e (ValueIdx.ix2 k 0)).toInt ∧ (e (ValueIdx.ix2 k 0)).toInt < 100000)
    (x : FVec Ideal Cert.KernelIdeal.S100000x128 .f32)
    (W1 : FVec Ideal Cert.KernelIdeal.S3x128x128 .f32) (b1 : FVec Ideal Cert.KernelIdeal.S3x128 .f32) (Ws1 : FVec Ideal Cert.KernelIdeal.S128x128 .f32) (bs1 g1 be1 : FVec Ideal Cert.KernelIdeal.S128 .f32)
    (W2 : FVec Ideal Cert.KernelIdeal.S3x128x128 .f32) (b2 : FVec Ideal Cert.KernelIdeal.S3x128 .f32) (Ws2 : FVec Ideal Cert.KernelIdeal.S128x128 .f32) (bs2 g2 be2 : FVec Ideal Cert.KernelIdeal.S128 .f32) :
    Cert.ReferenceIdeal.Hand.refSpec (F := Ideal) e x W1 b1 Ws1 bs1 g1 be1 W2 b2 Ws2 bs2 g2 be2
      = Cert.KernelIdeal.Hand.kSpec e x W1 b1 Ws1 bs1 g1 be1 W2 b2 Ws2 bs2 g2 be2 := by
  unfold Cert.ReferenceIdeal.Hand.refSpec Cert.KernelIdeal.Hand.kSpec
  rw [Cert.ReferenceIdeal.Hand.layerR_eq, Cert.ReferenceIdeal.Hand.layerR_eq, Cert.Bridge.agg_eq e hsrc, Cert.Bridge.agg_eq e hsrc, Cert.Bridge.cnt_eq e]

theorem algebraic : Cert.algebraic_KernelIdeal_ReferenceIdeal := by
  intro m ρ m' ρ' hpre hagree
  refine ⟨fun c => Cert.KernelIdeal.Hand.kSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.KernelIdeal.Hand.kernel_result m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Hand.res_eq]
    obtain ⟨e0, e1, e2, e3, e4, e5, e6, e7, e8, e9, e10, e11, e12, e13⟩ := hagree c
    rw [e0, e1, e2, e3, e4, e5, e6, e7, e8, e9, e10, e11, e12, e13]
    exact spec_eq _ (Cert.Bridge.src_range _ _ _ _ _ _ _ _ _ _ _ _ _ _ (hpre c)) _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
